-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S8192x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S65536 : Shape := ⟨1, ![65536]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg4 : IVec S65536 32) (main_arg10 : FVec F S2 .f32) (main_v33 : IVec S_ 1) : IVec S_ 1 :=
  let main_v34 : FVec F S2 .f32 := Host.absf main_arg10
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_c_14 : IVec S_ 32 := constantI S_ 32 0#32
  let main_v39 : IVec S65536 32 := broadcastInDim S65536 ![] bcast_S_S65536 main_c_14
  let main_v40 : IVec S65536 1 := cmpi .sge main_arg4 main_v39
  let main_c_15 : IVec S_ 32 := constantI S_ 32 2#32
  let main_v41 : IVec S65536 32 := broadcastInDim S65536 ![] bcast_S_S65536 main_c_15
  let main_v42 : IVec S65536 1 := cmpi .slt main_arg4 main_v41
  let main_v43 : IVec S65536 1 := andi main_v40 main_v42
  let main_c_16 : IVec S_ 1 := constantI S_ 1 1#1
  let main_v44 : IVec S_ 1 := (fun x v => Host.reduce IntOp.andi x v reducesTo_S65536_S_d0 h_S_) main_v43 main_c_16
  let main_v45 : IVec S_ 1 := andi main_v38 main_v44
  main_v45

def fn_part1 {F : FTy → Type} [FloatOps F] (main_arg4 : IVec S65536 32) (main_arg7 : FVec F S128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg9
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg4 main_arg10 main_v33

def fn {F : FTy → Type} [FloatOps F] (main_arg0 : FVec F S100000x128 .f32) (main_arg1 : FVec F S50000x128 .f32) (main_arg2 : IVec S65536 32) (main_arg3 : IVec S65536 32) (main_arg4 : IVec S65536 32) (main_arg5 : FVec F S256x128 .f32) (main_arg6 : FVec F S128 .f32) (main_arg7 : FVec F S128 .f32) (main_arg8 : FVec F S128 .f32) (main_arg9 : FVec F S128x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg5
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg7 main_arg8 main_arg9 main_arg10 main_v13 main_v16
-- ==== Kernel.lean ====
abbrev S100000x128 : Shape := ⟨2, ![100000, 128]⟩
abbrev S50000x128 : Shape := ⟨2, ![50000, 128]⟩
abbrev S65536 : Shape := ⟨1, ![65536]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩
abbrev S65536x1 : Shape := ⟨2, ![65536, 1]⟩
abbrev S65536x128 : Shape := ⟨2, ![65536, 128]⟩
abbrev S128x128 : Shape := ⟨2, ![128, 128]⟩
abbrev S1x128 : Shape := ⟨2, ![1, 128]⟩
abbrev S1x2 : Shape := ⟨2, ![1, 2]⟩
abbrev S16x128 : Shape := ⟨2, ![16, 128]⟩
abbrev S8192x128 : Shape := ⟨2, ![8192, 128]⟩
abbrev S8x128 : Shape := ⟨2, ![8, 128]⟩
abbrev S8192x1 : Shape := ⟨2, ![8192, 1]⟩
abbrev S8192x2 : Shape := ⟨2, ![8192, 2]⟩
abbrev S8192 : Shape := ⟨1, ![8192]⟩
abbrev S1 : Shape := ⟨1, ![1]⟩
abbrev S1x1 : Shape := ⟨2, ![1, 1]⟩

abbrev nBuf : Space → Nat
  | .hbm => 74
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S65536, .i32⟩
  | .hbm, ⟨3, _⟩ => ⟨S65536, .i32⟩
  | .hbm, ⟨4, _⟩ => ⟨S65536, .i32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536x128, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x128, .f32⟩
  | .hbm, ⟨29, _⟩ => ⟨S128x128, .f32⟩
  | .hbm, ⟨30, _⟩ => ⟨S128x128, .f32⟩
  | .hbm, ⟨31, _⟩ => ⟨S1x128, .f32⟩
  | .hbm, ⟨32, _⟩ => ⟨S1x2, .f32⟩
  | .hbm, ⟨33, _⟩ => ⟨S65536x1, .i32⟩
  | .hbm, ⟨34, _⟩ => ⟨S65536x128, .bf16⟩
  | .hbm, ⟨35, _⟩ => ⟨S16x128, .f32⟩
  | .hbm, ⟨36, _⟩ => ⟨S16x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S16x128, .f32⟩
  | .hbm, ⟨67, _⟩ => ⟨S1x1, .f32⟩
  | .hbm, ⟨68, _⟩ => ⟨S_, .f32⟩
  | .hbm, ⟨69, _⟩ => ⟨S1x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8192x128, .bf16⟩
  | .local _ .vmem, ⟨8, _⟩ => ⟨S8192x128, .bf16⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8192x128, .bf16⟩
  | .local _ .vmem, ⟨14, _⟩ => ⟨S8192x128, .bf16⟩
  | .local _ .vmem, ⟨15, _⟩ => ⟨S8192x1, .i32⟩
  | .local _ .vmem, ⟨16, _⟩ => ⟨S8192x1, .i32⟩
  | .local _ .vmem, ⟨17, _⟩ => ⟨S1x128, .f32⟩
  | .local _ .vmem, ⟨18, _⟩ => ⟨S1x128, .f32⟩
  | .local _ .vmem, ⟨19, _⟩ => ⟨S128x2, .f32⟩
  | .local _ .vmem, ⟨20, _⟩ => ⟨S1x2, .f32⟩
  | .local _ .vmem, ⟨21, _⟩ => ⟨S8x128, .f32⟩
  | .local _ .vmem, ⟨22, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  slices_S256x128_S128x128_0_0 : S256x128.Slices ![0, 0] S128x128
  slices_S256x128_S128x128_128_0 : S256x128.Slices ![128, 0] S128x128
  shapeCasts_S128_S1x128 : S128.ShapeCasts S1x128
  shapeCasts_S2_S1x2 : S2.ShapeCasts S1x2
  shapeCasts_S65536_S65536x1 : S65536.ShapeCasts S65536x1
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  packedbf16_S8192x128_S8192x128_0_0 : (Rect.unit (s := S8192x128) ![0, 0] S8192x128.size inb_S8192x128_S8192x128_0_0).PackedRows (EltTy.packing .bf16)
  reduces_S8192x128_S128 : S8192x128.Reduces [0] S128
  shapeCasts_S8x128_S8x128 : S8x128.ShapeCasts S8x128
  broadcasts_S1x128_S8x128 : S1x128.Broadcasts S8x128
  slices_S16x128_S1x128_0_0 : S16x128.Slices ![0, 0] S1x128
  shapeCasts_S1x128_S128 : S1x128.ShapeCasts S128
  slices_S16x128_S1x128_8_0 : S16x128.Slices ![8, 0] S1x128
  bcast_S_S1x128 : S_.BroadcastsInDim S1x128 (![] : Fin 0 → Fin S1x128.rank)
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  reduces_S8192x2_S8192 : S8192x2.Reduces [1] S8192
  shapeCasts_S8192_S8192x1 : S8192.ShapeCasts S8192x1
  broadcasts_S8192x1_S8192x2 : S8192x1.Broadcasts S8192x2
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  natLt_1_32 : 1 < 32
  concatenates_S8192x1_S8192x1_S8192x2_d1 : Shape.Concatenates [S8192x1, S8192x1] S8192x2 1
  reduces_S8192x1_S1 : S8192x1.Reduces [0] S1
  shapeCasts_S1_S1x1 : S1.ShapeCasts S1x1
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  gather_S100000x128_S65536x1_S65536x128_1_0_n_n_0_1_1128_wf : GatherDims.WF S100000x128 S65536x1 S65536x128 [1] [0] [] [0] [] 1 ![1, 128]
  gather_S50000x128_S65536x1_S65536x128_1_0_n_n_0_1_1128_wf : GatherDims.WF S50000x128 S65536x1 S65536x128 [1] [0] [] [0] [] 1 ![1, 128]
  dot_S8192x128_S128x128_S8192x128_1_0_0_1_n_n_wf : DotDims.WF S8192x128 S128x128 S8192x128 [1] [0] [0] [1] [] []
  dot_S8192x128_S128x2_S8192x2_1_0_0_1_n_n_wf : DotDims.WF S8192x128 S128x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S65536x128.size a
  hwx0_1 : ∀ i : grid0.Coords, EltTy.bits .f32 = 32 ∨ (Rect.block (s := S65536x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S65536x128.size a
  hwx0_5 : ∀ i : grid0.Coords, EltTy.bits .bf16 = 32 ∨ (Rect.block (s := S65536x128) S8192x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S65536x128.size a
  hwx1_0 : ∀ i : grid1.Coords, EltTy.bits .bf16 = 32 ∨ (Rect.block (s := S65536x128) S8192x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S65536x1.size a
  hwx1_1 : ∀ i : grid1.Coords, EltTy.bits .i32 = 32 ∨ (Rect.block (s := S65536x1) S8192x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x2.size a ≤ S128x2.size a
  hwx1_4 : ∀ i : grid1.Coords, EltTy.bits .f32 = 32 ∨ (Rect.block (s := S128x2) S128x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S16x128.size a
  hwx1_6 : ∀ i : grid1.Coords, EltTy.bits .f32 = 32 ∨ (Rect.block (s := S16x128) S8x128.size (cc1_transform_6 i) (hinb1_6 i)).WholeWords (EltTy.packing .f32)

variable [Facts₀]

def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def gather_S50000x128_S65536x1_S65536x128_1_0_n_n_0_1_1128 : GatherDims S50000x128 S65536x1 S65536x128 where
  offsetDims := [1]
  collapsedSliceDims := [0]
  operandBatchingDims := []
  startIndicesBatchingDims := []
  startIndexMap := [0]
  indexVectorDim := 1
  sliceSizes := ![1, 128]
  wf := gather_S50000x128_S65536x1_S65536x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf

abbrev win0_0 : Pipeline.Window sig grid0 :=
  Pipeline.Window.ofSpec (Memref.whole main_v6) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S8192x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_2) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19_0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S65536 : Shape := ⟨1, ![65536]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩
abbrev S65536x1 : Shape := ⟨2, ![65536, 1]⟩
abbrev S65536x128 : Shape := ⟨2, ![65536, 128]⟩
abbrev S65536x256 : Shape := ⟨2, ![65536, 256]⟩
abbrev S1x128 : Shape := ⟨2, ![1, 128]⟩
abbrev S65536x2 : Shape := ⟨2, ![65536, 2]⟩
abbrev S1x2 : Shape := ⟨2, ![1, 2]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S65536, .i32⟩
  | .hbm, ⟨3, _⟩ => ⟨S65536, .i32⟩
  | .hbm, ⟨4, _⟩ => ⟨S65536, .i32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536x128, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x128, .f32⟩
  | .hbm, ⟨29, _⟩ => ⟨S65536x256, .f32⟩
  | .hbm, ⟨30, _⟩ => ⟨S65536x128, .f32⟩
  | .hbm, ⟨31, _⟩ => ⟨S1x128, .f32⟩
  | .hbm, ⟨32, _⟩ => ⟨S65536x128, .f32⟩
  | .hbm, ⟨33, _⟩ => ⟨S65536x128, .f32⟩
  | .hbm, ⟨34, _⟩ => ⟨S_, .f32⟩
  | .hbm, ⟨35, _⟩ => ⟨S65536x128, .f32⟩
  | .hbm, ⟨36, _⟩ => ⟨S65536x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S65536x128, .f32⟩
  | .hbm, ⟨44, _⟩ => ⟨S65536x128, .f32⟩
  | .hbm, ⟨45, _⟩ => ⟨S65536x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S65536x128, .f32⟩
  | .hbm, ⟨53, _⟩ => ⟨S65536x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S65536x128, .f32⟩
  | .hbm, ⟨60, _⟩ => ⟨S65536x128, .f32⟩
  | .hbm, ⟨61, _⟩ => ⟨S1x128, .f32⟩
  | .hbm, ⟨62, _⟩ => ⟨S65536x128, .f32⟩
  | .hbm, ⟨63, _⟩ => ⟨S65536x128, .f32⟩
  | .hbm, ⟨64, _⟩ => ⟨S1x128, .f32⟩
  | .hbm, ⟨65, _⟩ => ⟨S65536x128, .f32⟩
  | .hbm, ⟨66, _⟩ => ⟨S65536x128, .f32⟩
  | .hbm, ⟨67, _⟩ => ⟨S65536x2, .f32⟩
  | .hbm, ⟨68, _⟩ => ⟨S1x2, .f32⟩
  | .hbm, ⟨69, _⟩ => ⟨S65536x2, .f32⟩
  | .hbm, ⟨70, _⟩ => ⟨S65536x2, .f32⟩
  | .hbm, ⟨71, _⟩ => ⟨S_, .f32⟩
  | .hbm, ⟨72, _⟩ => ⟨S65536, .f32⟩
  | .hbm, ⟨73, _⟩ => ⟨S_, .f32⟩
  | .hbm, ⟨74, _⟩ => ⟨S65536, .f32⟩
  | .hbm, ⟨75, _⟩ => ⟨S65536, .f32⟩
  | .hbm, ⟨76, _⟩ => ⟨S65536x1, .f32⟩
  | .hbm, ⟨77, _⟩ => ⟨S65536x2, .f32⟩
  | .hbm, ⟨78, _⟩ => ⟨S65536x2, .f32⟩
  | .hbm, ⟨79, _⟩ => ⟨S65536x2, .f32⟩
  | .hbm, ⟨80, _⟩ => ⟨S_, .f32⟩
  | .hbm, ⟨81, _⟩ => ⟨S65536, .f32⟩
  | .hbm, ⟨82, _⟩ => ⟨S65536x1, .f32⟩
  | .hbm, ⟨83, _⟩ => ⟨S65536x1, .f32⟩
  | .hbm, ⟨84, _⟩ => ⟨S65536x2, .f32⟩
  | .hbm, ⟨85, _⟩ => ⟨S65536x2, .f32⟩
  | .hbm, ⟨86, _⟩ => ⟨S65536x1, .i32⟩
  | .hbm, ⟨87, _⟩ => ⟨S_, .i32⟩
  | .hbm, ⟨88, _⟩ => ⟨S65536x1, .i32⟩
  | .hbm, ⟨89, _⟩ => ⟨S65536x1, .i1⟩
  | .hbm, ⟨90, _⟩ => ⟨S_, .i32⟩
  | .hbm, ⟨91, _⟩ => ⟨S65536x1, .i32⟩
  | .hbm, ⟨92, _⟩ => ⟨S65536x1, .i32⟩
  | .hbm, ⟨93, _⟩ => ⟨S65536x1, .i32⟩
  | .hbm, ⟨94, _⟩ => ⟨S65536x1x1, .i32⟩
  | .hbm, ⟨95, _⟩ => ⟨S1, .i32⟩
  | .hbm, ⟨96, _⟩ => ⟨S_, .i32⟩
  | .hbm, ⟨97, _⟩ => ⟨S65536x1x1, .i32⟩
  | .hbm, ⟨98, _⟩ => ⟨S65536x1x1, .i1⟩
  | .hbm, ⟨99, _⟩ => ⟨S1x1x1, .i32⟩
  | .hbm, ⟨100, _⟩ => ⟨S65536x1x1, .i32⟩
  | .hbm, ⟨101, _⟩ => ⟨S65536x1x1, .i1⟩
  | .hbm, ⟨102, _⟩ => ⟨S65536x1x1, .i1⟩
  | .hbm, ⟨103, _⟩ => ⟨S_, .i1⟩
  | .hbm, ⟨104, _⟩ => ⟨S65536x1, .i1⟩
  | .hbm, ⟨105, _⟩ => ⟨S65536x1, .f32⟩
  | .hbm, ⟨106, _⟩ => ⟨S_, .f32⟩
  | .hbm, ⟨107, _⟩ => ⟨S65536x1, .f32⟩
  | .hbm, ⟨108, _⟩ => ⟨S65536x1, .f32⟩
  | .hbm, ⟨109, _⟩ => ⟨S65536, .f32⟩
  | .hbm, ⟨110, _⟩ => ⟨S65536, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_call1_cst_0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_cst_1 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_v49 : Ref sig .tc := ⟨.hbm, 85, rfl⟩
abbrev main_v50 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_cst : Ref sig .tc := ⟨.hbm, 106, rfl⟩
abbrev main_call2_v14 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_7 : Ref sig .tc := ⟨.hbm, 111, rfl⟩
abbrev main_v54 : Ref sig .tc := ⟨.hbm, 112, rfl⟩
abbrev main_cst_8 : Ref sig .tc := ⟨.hbm, 113, rfl⟩
abbrev main_v55 : Ref sig .tc := ⟨.hbm, 114, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x128_S65536x128_S65536x256_d1 : Shape.Concatenates [S65536x128, S65536x128] S65536x256 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  reducesTo_S65536x128_S128_d0 : S65536x128.ReducesTo [0] S128
  h_S_ : 0 < S_.numel
  bcast_S_S128 : S_.BroadcastsInDim S128 (![] : Fin 0 → Fin S128.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  reducesTo_S65536x2_S65536_d1 : S65536x2.ReducesTo [1] S65536
  bcast_S65536x1_S65536x2_0_1 : S65536x1.BroadcastsInDim S65536x2 (![0, 1] : Fin 2 → Fin S65536x2.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  reducesTo_S65536_S_d0 : S65536.ReducesTo [0] S_
  gather_S100000x128_S65536x1_S65536x128_1_0_n_n_0_1_1128_wf : GatherDims.WF S100000x128 S65536x1 S65536x128 [1] [0] [] [0] [] 1 ![1, 128]
  gather_S50000x128_S65536x1_S65536x128_1_0_n_n_0_1_1128_wf : GatherDims.WF S50000x128 S65536x1 S65536x128 [1] [0] [] [0] [] 1 ![1, 128]
  dot_S65536x256_S256x128_S65536x128_1_0_0_1_n_n_wf : DotDims.WF S65536x256 S256x128 S65536x128 [1] [0] [0] [1] [] []
  dot_S65536x128_S128x2_S65536x2_1_0_0_1_n_n_wf : DotDims.WF S65536x128 S128x2 S65536x2 [1] [0] [0] [1] [] []
  gather_S65536x2_S65536x1x1_S65536x1_n_1_0_0_1_2_11_wf : GatherDims.WF S65536x2 S65536x1x1 S65536x1 [] [1] [0] [1] [0] 2 ![1, 1]

variable [Facts₀]

def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def gather_S50000x128_S65536x1_S65536x128_1_0_n_n_0_1_1128 : GatherDims S50000x128 S65536x1 S65536x128 where
  offsetDims := [1]
  collapsedSliceDims := [0]
  operandBatchingDims := []
  startIndicesBatchingDims := []
  startIndexMap := [0]
  indexVectorDim := 1
  sliceSizes := ![1, 128]
  wf := gather_S50000x128_S65536x1_S65536x128_1_0_n_n_0_1_1128_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x2_S65536x2_1_0_0_1_n_n : DotDims S65536x128 S128x2 S65536x2 where
  lhsContracting := [1]
  rhsContracting := [0]
  lhsNonContracting := [0]
  rhsNonContracting := [1]
  lhsBatch := []
  rhsBatch := []
  wf := dot_S65536x128_S128x2_S65536x2_1_0_0_1_n_n_wf
def gather_S65536x2_S65536x1x1_S65536x1_n_1_0_0_1_2_11 : GatherDims S65536x2 S65536x1x1 S65536x1 where
  offsetDims := []
  collapsedSliceDims := [1]
  operandBatchingDims := [0]
  startIndicesBatchingDims := [0]
  startIndexMap := [1]
  indexVectorDim := 2
  sliceSizes := ![1, 1]
  wf := gather_S65536x2_S65536x1x1_S65536x1_n_1_0_0_1_2_11_wf

class Facts : Prop extends Facts₀ where

variable [Facts]
-- ==== Proof.Spec.lean ====
/-
  The mathematics of the two programs, over the extended reals, with no program in sight.

  A batch of 65536 rows; each row has a 128-vector of node features and a 128-vector of edge features. The hidden
  layer is relu (features · W + b) with W of 256 rows: the reference contracts the concatenated 256-vector in one sum,
  the kernel contracts the two halves against the two halves of W and adds. From the hidden array `h` both go on to a
  batch normalisation over the 65536 rows (mean and biased variance per column), an affine map to two logits per row, a
  log-softmax over the two logits, and the mean over the rows of minus the log-probability of the row's label.

  The reference takes the variance as the mean of squared deviations and normalises as ((h - mean) · rsqrt (var + ε)) · γ + β;
  the kernel takes it as the mean of squares minus the squared mean and normalises as h · scale + shift with
  scale = γ · rsqrt (var + ε), shift = β - mean · scale. The reference's log-softmax is (x - m) - log Σ exp (x - m), the
  kernel's x - (m + log Σ exp (x - m)). The reference picks the label's column; the kernel multiplies by a one-hot row and
  sums. The kernel's sums over the batch run tile by tile: eight tiles of 8192 rows.
-/
import Idealize.ShloMosaic.PureOps.Ideal
import Mathlib.Algebra.BigOperators.Fin

noncomputable section

open scoped BigOperators
open Idealize.ShloMosaic

namespace NodeEdgeLoss

/-- The batch size 65536 as the float constant both programs divide by. -/
def cB : EReal := Ideal.ofBits .f32 0x47800000#32
/-- The batch-norm epsilon: the binary32 number nearest 1e-5. -/
def cEps : EReal := Ideal.ofBits .f32 0x3727C5AC#32

/-- Row `s` of tile `t`: tiles are consecutive stretches of 8192 rows. -/
def tileRow (t : Fin 8) (s : Fin 8192) : Fin 65536 := ⟨t.val * 8192 + s.val, by have := t.isLt; have := s.isLt; omega⟩

/-- The concatenated feature vector of a row: node features, then edge features. -/
def cat (X Y : Fin 65536 → Fin 128 → EReal) (r : Fin 65536) (k : Fin 256) : EReal :=
  if h : k.val < 128 then X r ⟨k.val, h⟩ else Y r ⟨k.val - 128, by have := k.isLt; omega⟩

/-- The upper and the lower half of the first layer's weights. -/
def wTop (W : Fin 256 → Fin 128 → EReal) (k : Fin 128) (j : Fin 128) : EReal := W ⟨k.val, by have := k.isLt; omega⟩ j
def wBot (W : Fin 256 → Fin 128 → EReal) (k : Fin 128) (j : Fin 128) : EReal := W ⟨128 + k.val, by have := k.isLt; omega⟩ j

/-- The hidden layer as the reference computes it: one contraction over the concatenated 256 features. -/
def hidCat (X Y : Fin 65536 → Fin 128 → EReal) (W : Fin 256 → Fin 128 → EReal) (b : Fin 128 → EReal)
    (r : Fin 65536) (j : Fin 128) : EReal :=
  max ((∑ k : Fin 256, cat X Y r k * W k j) + b j) 0

/-- The hidden layer as the kernel computes it: two contractions of 128, added. -/
def hid2 (X Y : Fin 65536 → Fin 128 → EReal) (Wa Wb : Fin 128 → Fin 128 → EReal) (b : Fin 128 → EReal)
    (r : Fin 65536) (j : Fin 128) : EReal :=
  max (((∑ k : Fin 128, X r k * Wa k j) + (∑ k : Fin 128, Y r k * Wb k j)) + b j) 0

/-- The two logits of a row from its normalised hidden vector. -/
def logits (z : Fin 65536 → Fin 128 → EReal) (W2 : Fin 128 → Fin 2 → EReal) (b2 : Fin 2 → EReal)
    (r : Fin 65536) (q : Fin 2) : EReal :=
  (∑ j : Fin 128, z r j * W2 j q) + b2 q

/-- The larger of a row's two logits. -/
def rowMax (lg : Fin 65536 → Fin 2 → EReal) (r : Fin 65536) : EReal := max (lg r 0) (lg r 1)

/-- The sum of the exponentials of a row's two shifted logits. -/
def expSum (lg : Fin 65536 → Fin 2 → EReal) (r : Fin 65536) : EReal :=
  Ideal.exp (lg r 0 - rowMax lg r) + Ideal.exp (lg r 1 - rowMax lg r)

/-! ## The reference's arrangement -/

def refMean (h : Fin 65536 → Fin 128 → EReal) (j : Fin 128) : EReal := Ideal.div (∑ r : Fin 65536, h r j) cB

def refVar (h : Fin 65536 → Fin 128 → EReal) (j : Fin 128) : EReal :=
  Ideal.div (∑ r : Fin 65536, (h r j - refMean h j) * (h r j - refMean h j)) cB

def refNorm (h : Fin 65536 → Fin 128 → EReal) (γ β : Fin 128 → EReal) (r : Fin 65536) (j : Fin 128) : EReal :=
  ((h r j - refMean h j) * Ideal.rsqrt (refVar h j + cEps)) * γ j + β j

def refLogp (lg : Fin 65536 → Fin 2 → EReal) (r : Fin 65536) (q : Fin 2) : EReal :=
  (lg r q - rowMax lg r) - Ideal.log (expSum lg r)

/-- The reference's result: the mean over the batch of minus the label's log-probability. -/
def refLoss (h : Fin 65536 → Fin 128 → EReal) (γ β : Fin 128 → EReal) (W2 : Fin 128 → Fin 2 → EReal)
    (b2 : Fin 2 → EReal) (lab : Fin 65536 → Fin 2) : EReal :=
  Ideal.div (∑ r : Fin 65536, -(refLogp (logits (refNorm h γ β) W2 b2) r (lab r))) cB

/-! ## The kernel's arrangement -/

/-- A column's sum over the batch, tile by tile. -/
def tileSum (f : Fin 65536 → EReal) : EReal := ∑ t : Fin 8, ∑ s : Fin 8192, f (tileRow t s)

def kerMean (h : Fin 65536 → Fin 128 → EReal) (j : Fin 128) : EReal := Ideal.div (tileSum fun r => h r j) cB

def kerVar (h : Fin 65536 → Fin 128 → EReal) (j : Fin 128) : EReal :=
  Ideal.div (tileSum fun r => h r j * h r j) cB - kerMean h j * kerMean h j

def kerScale (h : Fin 65536 → Fin 128 → EReal) (γ : Fin 128 → EReal) (j : Fin 128) : EReal :=
  γ j * Ideal.rsqrt (kerVar h j + cEps)

def kerShift (h : Fin 65536 → Fin 128 → EReal) (γ β : Fin 128 → EReal) (j : Fin 128) : EReal :=
  β j - kerMean h j * kerScale h γ j

/-- The kernel's normalisation from ANY per-column scale and shift (what its second region computes from its operands). -/
def affine (h : Fin 65536 → Fin 128 → EReal) (sc sh : Fin 128 → EReal) (r : Fin 65536) (j : Fin 128) : EReal :=
  h r j * sc j + sh j

def kerNorm (h : Fin 65536 → Fin 128 → EReal) (γ β : Fin 128 → EReal) : Fin 65536 → Fin 128 → EReal :=
  affine h (kerScale h γ) (kerShift h γ β)

def kerLogp (lg : Fin 65536 → Fin 2 → EReal) (r : Fin 65536) (q : Fin 2) : EReal :=
  lg r q - (rowMax lg r + Ideal.log (expSum lg r))

/-- The one-hot row of a label. -/
def oneHot (lab : Fin 65536 → Fin 2) (r : Fin 65536) (q : Fin 2) : EReal := if lab r = q then 1 else 0

/-- A row's loss as the kernel takes it: zero minus the one-hot row times the log-probabilities, summed over the two columns. -/
def kerNll (lp : Fin 65536 → Fin 2 → EReal) (oh : Fin 65536 → Fin 2 → EReal) (r : Fin 65536) : EReal :=
  0 - (oh r 0 * lp r 0 + oh r 1 * lp r 1)

/-- The sum of the row losses the kernel's second region leaves, from ANY scale and shift. -/
def kerNllSum (h : Fin 65536 → Fin 128 → EReal) (sc sh : Fin 128 → EReal) (W2 : Fin 128 → Fin 2 → EReal)
    (b2 : Fin 2 → EReal) (lab : Fin 65536 → Fin 2) : EReal :=
  tileSum fun r => kerNll (kerLogp (logits (affine h sc sh) W2 b2)) (oneHot lab) r

/-- The kernel's result. -/
def kerLoss (h : Fin 65536 → Fin 128 → EReal) (γ β : Fin 128 → EReal) (W2 : Fin 128 → Fin 2 → EReal)
    (b2 : Fin 2 → EReal) (lab : Fin 65536 → Fin 2) : EReal :=
  Ideal.div (kerNllSum h (kerScale h γ) (kerShift h γ β) W2 b2 lab) cB

end NodeEdgeLoss

end
-- ==== Proof.RefValue.lean ====
/-
  What the reference computes, read one operation at a time: on labels in {0, 1} its result is the mean over the batch of
  minus the label's log-probability, the log-probabilities the log-softmax of the two logits of the batch-normalised hidden
  layer of the concatenated gathered features.
-/
import proofs.«402825_j60026462929136_3_alg».proof.Proof.ReferenceIdealRun
import proofs.«402825_j60026462929136_3_alg».proof.Proof.ReferenceIdealRead
import proofs.«402825_j60026462929136_3_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx NodeEdgeLoss

namespace Cert.ReferenceIdeal.RefValue

open Cert.ReferenceIdeal Cert.ReferenceIdeal.Read

/-- The gathered node features of row `r`, feature `k`. -/
def featN (x0 : S100000x128.Idx → EReal) (x2 : IVec S65536 32) (r : Fin 65536) (k : Fin 128) : EReal :=
  val_main_v6 (F := Ideal) x0 x2 (ix2 r k)

/-- The gathered edge features of row `r`, feature `k`. -/
def featE (x1 : S50000x128.Idx → EReal) (x3 : IVec S65536 32) (r : Fin 65536) (k : Fin 128) : EReal :=
  val_main_v13 (F := Ideal) x1 x3 (ix2 r k)

/-! ## Folds over one or two coordinates, the word -∞, and the label words -/

/-- A fold of a commutative associative operation over the two elements of `Fin 2`. -/
theorem fold_fin2 {α : Type} (op : α → α → α) [Std.Commutative op] [Std.Associative op] (b : α) (g : Fin 2 → α) :
    (Finset.univ : Finset (Fin 2)).fold op b g = op (g 0) (op (g 1) b) := by
  have e : (Finset.univ : Finset (Fin 2)) = {0, 1} := by decide
  rw [e, Finset.fold_insert (by decide), Finset.fold_singleton]

/-- A fold over the one element of `Fin 1`. -/
theorem fold_fin1 {α : Type} (op : α → α → α) [Std.Commutative op] [Std.Associative op] (b : α) (g : Fin 1 → α) :
    (Finset.univ : Finset (Fin 1)).fold op b g = op (g 0) b := by
  have e : (Finset.univ : Finset (Fin 1)) = {0} := by decide
  rw [e, Finset.fold_singleton]

/-- The binary32 word of -∞ is the bottom of the extended reals. -/
theorem ofBits_neg_inf : Ideal.ofBits .f32 0xFF800000#32 = ⊥ := by simp [Ideal.ofBits, Ideal.ieee]

theorem fin2_cases (l : Fin 2) : l = 0 ∨ l = 1 := by
  rcases l with ⟨v, hv⟩
  have : v = 0 ∨ v = 1 := by omega
  rcases this with rfl | rfl
  exacts [Or.inl rfl, Or.inr rfl]

/-- A label word is not negative … -/
theorem word_slt (l : Fin 2) : IntOp.cmpi .slt (BitVec.ofNat 32 l.val) 0#32 = 0#1 := by
  rcases fin2_cases l with rfl | rfl <;> decide
theorem word_sge (l : Fin 2) : IntOp.cmpi .sge (BitVec.ofNat 32 l.val) 0#32 = 1#1 := by
  rcases fin2_cases l with rfl | rfl <;> decide
/-- … and at most one … -/
theorem word_sle (l : Fin 2) : IntOp.cmpi .sle (BitVec.ofNat 32 l.val) 1#32 = 1#1 := by
  rcases fin2_cases l with rfl | rfl <;> decide
/-- … so read signed and clamped into [0, 1] it is the label. -/
theorem word_start (l : Fin 2) : min (BitVec.ofNat 32 l.val).toInt.toNat 1 = l.val := by
  rcases fin2_cases l with rfl | rfl <;> decide

/-! ## The three operations that are read by hand -/

/-- The maximum over the two columns of a row, folded from the initial value. -/
theorem rowmax_at (h' : S65536x2.ReducesTo [1] S65536) (hu : 0 < S_.numel) (x : S65536x2.Idx → EReal) (init : S_.Idx → EReal)
    (r : Fin 65536) :
    Host.reduce (FloatOps.maximumf (F := Ideal) (φ := .f32)) x init h' hu (ix1 r)
      = max (x (ix2 r 0)) (max (x (ix2 r 1)) (init (Shape.Idx.first hu))) := by
  have h : S65536x2.Reduces [1] S65536 := by decide
  rw [Host.reduce_eq_fold_single (FloatOps.maximumf (F := Ideal) (φ := .f32)) x init h' h hu (ix1 r)]
  refine (fold_fin2 (FloatOps.maximumf (F := Ideal) (φ := .f32)) (init (Shape.Idx.first hu)) (fun k => x (h.lift (ix1 r) k))).trans ?_
  have l0 : h.lift (ix1 r) (0 : Fin 2) = ix2 r 0 := funext fun a => Fin.ext (by match a with | ⟨0, _⟩ => rfl | ⟨1, _⟩ => rfl)
  have l1 : h.lift (ix1 r) (1 : Fin 2) = ix2 r 1 := funext fun a => Fin.ext (by match a with | ⟨0, _⟩ => rfl | ⟨1, _⟩ => rfl)
  show max (x (h.lift (ix1 r) (0 : Fin 2))) (max (x (h.lift (ix1 r) (1 : Fin 2))) _) = _
  rw [l0, l1]

/-- A conjunction over an axis of extent one is the one element, and the initial bit. -/
theorem andred_at (h' : S65536x1x1.ReducesTo [2] S65536x1) (hu : 0 < S_.numel) (x : S65536x1x1.Idx → BitVec 1)
    (init : S_.Idx → BitVec 1) (r : Fin 65536) :
    Host.reduce IntOp.andi x init h' hu (ix2 r 0) = IntOp.andi (x (ix3 r 0 0)) (init (Shape.Idx.first hu)) := by
  have h : S65536x1x1.Reduces [2] S65536x1 := by decide
  rw [Host.reduce_eq_fold_single IntOp.andi x init h' h hu (ix2 r 0)]
  refine (fold_fin1 IntOp.andi (init (Shape.Idx.first hu)) (fun k => x (h.lift (ix2 r 0) k))).trans ?_
  have l0 : h.lift (ix2 r 0) (0 : Fin 1) = ix3 r 0 0 :=
    funext fun a => Fin.ext (by match a with | ⟨0, _⟩ => rfl | ⟨1, _⟩ => rfl | ⟨2, _⟩ => rfl)
  show IntOp.andi (x (h.lift (ix2 r 0) (0 : Fin 1))) _ = _
  rw [l0]

/-- The row-wise gather along the columns: row `r` of the result is row `r` of the operand at the column the start index
    names, read signed and clamped into the two columns. -/
theorem gather_row_at {α : Type} (x : S65536x2.Idx → α) (idx : IVec S65536x1x1 32) (r : Fin 65536) (l : Fin 2)
    (hl : min (idx (ix3 r 0 0)).toInt.toNat 1 = l.val) :
    Host.gather gather_S65536x2_S65536x1x1_S65536x1_n_1_0_0_1_2_11 x idx (ix2 r 0) = x (ix2 r l) := by
  unfold Host.gather
  congr 1
  funext a
  refine Fin.ext ?_
  match a with
  | ⟨0, _⟩ =>
    show gather_S65536x2_S65536x1x1_S65536x1_n_1_0_0_1_2_11.start (ix2 r 0) idx 0
      + gather_S65536x2_S65536x1x1_S65536x1_n_1_0_0_1_2_11.batchCoord (ix2 r 0) 0
      + gather_S65536x2_S65536x1x1_S65536x1_n_1_0_0_1_2_11.offCoord (ix2 r 0) 0 = r.val
    rw [GatherDims.start_batching _ _ _ _
        (show (0 : Fin 2) ∈ gather_S65536x2_S65536x1x1_S65536x1_n_1_0_0_1_2_11.operandBatchingDims from List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S65536x2_S65536x1x1_S65536x1_n_1_0_0_1_2_11.start (ix2 r 0) idx 1
      + gather_S65536x2_S65536x1x1_S65536x1_n_1_0_0_1_2_11.batchCoord (ix2 r 0) 1
      + gather_S65536x2_S65536x1x1_S65536x1_n_1_0_0_1_2_11.offCoord (ix2 r 0) 1 = l.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S65536x2_S65536x1x1_S65536x1_n_1_0_0_1_2_11.startIndexMap from List.mem_singleton.mpr rfl)]
    have hsi : gather_S65536x2_S65536x1x1_S65536x1_n_1_0_0_1_2_11.siIdx (ix2 r 0)
        ⟨List.idxOf (1 : Fin 2) gather_S65536x2_S65536x1x1_S65536x1_n_1_0_0_1_2_11.startIndexMap,
          List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    exact hl

/-! ## The stages, bottom up -/

section Stages

variable (x0 : S100000x128.Idx → EReal) (x1 : S50000x128.Idx → EReal) (x2 x3 x4 : IVec S65536 32)
  (x5 : S256x128.Idx → EReal) (x6 x7 x8 : S128.Idx → EReal) (x9 : S128x2.Idx → EReal) (x10 : S2.Idx → EReal)

/-- The hidden layer of the gathered, concatenated features. -/
abbrev hid : Fin 65536 → Fin 128 → EReal :=
  hidCat (featN x0 x2) (featE x1 x3) (fun k j => x5 (ix2 k j)) (fun j => x6 (ix1 j))

/-- Its batch normalisation. -/
abbrev nrm : Fin 65536 → Fin 128 → EReal :=
  refNorm (hid x0 x1 x2 x3 x5 x6) (fun j => x7 (ix1 j)) (fun j => x8 (ix1 j))

/-- The two logits of every row. -/
abbrev lgt : Fin 65536 → Fin 2 → EReal :=
  logits (nrm x0 x1 x2 x3 x5 x6 x7 x8) (fun j q => x9 (ix2 j q)) (fun q => x10 (ix1 q))

/-- The concatenation at (r, k): node features below 128, edge features from 128 on. -/
theorem v14_at (r : Fin 65536) (k : Fin 256) :
    val_main_v14 (F := Ideal) x0 x1 x2 x3 (ix2 r k) = cat (featN x0 x2) (featE x1 x3) r k := by
  unfold val_main_v14 cat
  by_cases h : k.val < 128
  · rw [dif_pos h]
    exact concatenate_pair_apply_left (t := S65536x256) (s₁ := S65536x128) (s₂ := S65536x128) 1 _ _ _ (ix2 r k) rfl
      (ix2 r (⟨k.val, h⟩ : Fin 128)) (fun b => match b with | ⟨0, _⟩ => rfl | ⟨1, _⟩ => rfl)
  · rw [dif_neg h]
    exact concatenate_pair_apply_right (t := S65536x256) (s₁ := S65536x128) (s₂ := S65536x128) 1 _ _ _ (ix2 r k) rfl rfl
      (ix2 r (⟨k.val - 128, by have := k.isLt; omega⟩ : Fin 128))
      (fun b hb => match b, hb with | ⟨0, _⟩, _ => rfl | ⟨1, _⟩, hb => absurd (Fin.ext rfl) hb)
      (by show k.val - 128 + 128 = k.val; omega)

/-- The first layer with its relu. -/
theorem v19_at (r : Fin 65536) (j : Fin 128) :
    val_main_v19 (F := Ideal) x0 x1 x2 x3 x5 x6 (ix2 r j) = hid x0 x1 x2 x3 x5 x6 r j := by
  rw [val_main_v19_apply, val_main_v18_apply, val_main_v15_apply, val_main_v17_apply, val_main_v16_apply,
    val_main_call0_v0_apply, val_main_call0_cst_apply,
    show idx_main_v16 (idx_main_v17 (ix2 r j)) = ix1 j from funext fun a => match a with | ⟨0, _⟩ => rfl]
  have hs : ∀ k : Fin 256, val_main_v14 (F := Ideal) x0 x1 x2 x3 (lidx_main_v15 (ix2 r j) k) * x5 (ridx_main_v15 (ix2 r j) k)
      = cat (featN x0 x2) (featE x1 x3) r k * x5 (ix2 k j) := fun k => by
    rw [show lidx_main_v15 (ix2 r j) k = ix2 r k from funext fun a => match a with | ⟨0, _⟩ => rfl | ⟨1, _⟩ => rfl,
      show ridx_main_v15 (ix2 r j) k = ix2 k j from funext fun a => match a with | ⟨0, _⟩ => rfl | ⟨1, _⟩ => rfl, v14_at]
  simp only [hs, Ideal.maximumf_def, Ideal.addf_def, Ideal.ofBits_def, Ideal.ofBits_zero_f32]
  rfl

/-- The column means. -/
theorem v22_at (j : Fin 128) :
    val_main_v22 (F := Ideal) x0 x1 x2 x3 x5 x6 (ix1 j) = refMean (hid x0 x1 x2 x3 x5 x6) j := by
  rw [val_main_v22_apply, val_main_v20_apply, val_main_v21_apply, val_main_cst_3_apply, val_main_cst_apply]
  have hs : ∀ k : Fin 65536, val_main_v19 (F := Ideal) x0 x1 x2 x3 x5 x6 (idx_main_v20 (ix1 j) k) = hid x0 x1 x2 x3 x5 x6 k j :=
    fun k => by
      rw [show idx_main_v20 (ix1 j) k = ix2 k j from funext fun a => match a with | ⟨0, _⟩ => rfl | ⟨1, _⟩ => rfl, v19_at]
  simp only [hs, Ideal.hostDivf_def, Ideal.ofBits_def, Ideal.ofBits_zero_f32, zero_add]
  rfl

theorem v24_at (r : Fin 65536) (j : Fin 128) :
    val_main_v24 (F := Ideal) x0 x1 x2 x3 x5 x6 (ix2 r j) = refMean (hid x0 x1 x2 x3 x5 x6) j := by
  rw [val_main_v24_apply, val_main_v23_apply,
    show idx_main_v23 (idx_main_v24 (ix2 r j)) = ix1 j from funext fun a => match a with | ⟨0, _⟩ => rfl, v22_at]

theorem v31_at (r : Fin 65536) (j : Fin 128) :
    val_main_v31 (F := Ideal) x0 x1 x2 x3 x5 x6 (ix2 r j) = refMean (hid x0 x1 x2 x3 x5 x6) j := by
  rw [val_main_v31_apply, val_main_v30_apply,
    show idx_main_v30 (idx_main_v31 (ix2 r j)) = ix1 j from funext fun a => match a with | ⟨0, _⟩ => rfl, v22_at]

/-- The column variances: the mean of the squared deviations. -/
theorem v29_at (j : Fin 128) :
    val_main_v29 (F := Ideal) x0 x1 x2 x3 x5 x6 (ix1 j) = refVar (hid x0 x1 x2 x3 x5 x6) j := by
  rw [val_main_v29_apply, val_main_v27_apply, val_main_v28_apply, val_main_cst_5_apply, val_main_cst_4_apply]
  have hs : ∀ k : Fin 65536, val_main_v26 (F := Ideal) x0 x1 x2 x3 x5 x6 (idx_main_v27 (ix1 j) k)
      = (hid x0 x1 x2 x3 x5 x6 k j - refMean (hid x0 x1 x2 x3 x5 x6) j) * (hid x0 x1 x2 x3 x5 x6 k j - refMean (hid x0 x1 x2 x3 x5 x6) j) :=
    fun k => by
      rw [show idx_main_v27 (ix1 j) k = ix2 k j from funext fun a => match a with | ⟨0, _⟩ => rfl | ⟨1, _⟩ => rfl,
        val_main_v26_apply, val_main_v25_apply, v19_at, v24_at]
      rfl
  simp only [hs, Ideal.hostDivf_def, Ideal.ofBits_def, Ideal.ofBits_zero_f32, zero_add]
  rfl

/-- The reciprocal square root of the variance plus ε. -/
theorem v35_at (j : Fin 128) :
    val_main_v35 (F := Ideal) x0 x1 x2 x3 x5 x6 (ix1 j) = Ideal.rsqrt (refVar (hid x0 x1 x2 x3 x5 x6) j + cEps) := by
  rw [val_main_v35_apply, val_main_v34_apply, v29_at, val_main_v33_apply, val_main_cst_6_apply]
  rfl

/-- The normalised hidden layer. -/
theorem v44_at (r : Fin 65536) (j : Fin 128) :
    val_main_v44 (F := Ideal) x0 x1 x2 x3 x5 x6 x7 x8 (ix2 r j) = nrm x0 x1 x2 x3 x5 x6 x7 x8 r j := by
  rw [val_main_v44_apply, val_main_v41_apply, val_main_v38_apply, val_main_v32_apply, v19_at, v31_at,
    val_main_v37_apply, val_main_v36_apply,
    show idx_main_v36 (idx_main_v37 (ix2 r j)) = ix1 j from funext fun a => match a with | ⟨0, _⟩ => rfl, v35_at,
    val_main_v40_apply, val_main_v39_apply,
    show idx_main_v39 (idx_main_v40 (ix2 r j)) = ix1 j from funext fun a => match a with | ⟨0, _⟩ => rfl,
    val_main_v43_apply, val_main_v42_apply,
    show idx_main_v42 (idx_main_v43 (ix2 r j)) = ix1 j from funext fun a => match a with | ⟨0, _⟩ => rfl]
  rfl

/-- The logits. -/
theorem v48_at (r : Fin 65536) (q : Fin 2) :
    val_main_v48 (F := Ideal) x0 x1 x2 x3 x5 x6 x7 x8 x9 x10 (ix2 r q) = lgt x0 x1 x2 x3 x5 x6 x7 x8 x9 x10 r q := by
  rw [val_main_v48_apply, val_main_v45_apply, val_main_v47_apply, val_main_v46_apply,
    show idx_main_v46 (idx_main_v47 (ix2 r q)) = ix1 q from funext fun a => match a with | ⟨0, _⟩ => rfl]
  have hs : ∀ k : Fin 128, val_main_v44 (F := Ideal) x0 x1 x2 x3 x5 x6 x7 x8 (lidx_main_v45 (ix2 r q) k) * x9 (ridx_main_v45 (ix2 r q) k)
      = nrm x0 x1 x2 x3 x5 x6 x7 x8 r k * x9 (ix2 k q) := fun k => by
    rw [show lidx_main_v45 (ix2 r q) k = ix2 r k from funext fun a => match a with | ⟨0, _⟩ => rfl | ⟨1, _⟩ => rfl,
      show ridx_main_v45 (ix2 r q) k = ix2 k q from funext fun a => match a with | ⟨0, _⟩ => rfl | ⟨1, _⟩ => rfl, v44_at]
  simp only [hs]
  rfl

/-- The larger logit of a row. -/
theorem c1v2_at (r : Fin 65536) :
    val_main_call1_v2 (F := Ideal) x0 x1 x2 x3 x5 x6 x7 x8 x9 x10 (ix1 r) = rowMax (lgt x0 x1 x2 x3 x5 x6 x7 x8 x9 x10) r := by
  rw [val_main_call1_v2_apply, val_main_call1_v1_apply, val_main_call1_cst_0_apply]
  unfold val_main_call1_v0
  rw [rowmax_at, v48_at, v48_at, val_main_call1_cst_apply]
  simp only [Ideal.maximumf_def, Ideal.ofBits_def, ofBits_neg_inf, max_bot_right, max_bot_left]
  rfl

/-- The shifted logits. -/
theorem c1v5_at (r : Fin 65536) (q : Fin 2) :
    val_main_call1_v5 (F := Ideal) x0 x1 x2 x3 x5 x6 x7 x8 x9 x10 (ix2 r q)
      = lgt x0 x1 x2 x3 x5 x6 x7 x8 x9 x10 r q - rowMax (lgt x0 x1 x2 x3 x5 x6 x7 x8 x9 x10) r := by
  rw [val_main_call1_v5_apply, v48_at, val_main_call1_v4_apply, val_main_call1_v3_apply,
    show idx_main_call1_v3 (idx_main_call1_v4 (ix2 r q)) = ix1 r from funext fun a => match a with | ⟨0, _⟩ => rfl, c1v2_at]
  rfl

/-- The sum of the two exponentials. -/
theorem c1v7_at (r : Fin 65536) :
    val_main_call1_v7 (F := Ideal) x0 x1 x2 x3 x5 x6 x7 x8 x9 x10 (ix1 r) = expSum (lgt x0 x1 x2 x3 x5 x6 x7 x8 x9 x10) r := by
  rw [val_main_call1_v7_apply, val_main_call1_cst_1_apply, Fin.sum_univ_two,
    show idx_main_call1_v7 (ix1 r) (0 : Fin 2) = ix2 r 0 from funext fun a => match a with | ⟨0, _⟩ => rfl | ⟨1, _⟩ => rfl,
    show idx_main_call1_v7 (ix1 r) (1 : Fin 2) = ix2 r 1 from funext fun a => match a with | ⟨0, _⟩ => rfl | ⟨1, _⟩ => rfl,
    val_main_call1_v6_apply, val_main_call1_v6_apply, c1v5_at, c1v5_at]
  simp only [Ideal.ofBits_def, Ideal.ofBits_zero_f32, zero_add]
  rfl

/-- The log-probabilities. -/
theorem v49_at (r : Fin 65536) (q : Fin 2) :
    val_main_v49 (F := Ideal) x0 x1 x2 x3 x5 x6 x7 x8 x9 x10 (ix2 r q) = refLogp (lgt x0 x1 x2 x3 x5 x6 x7 x8 x9 x10) r q := by
  rw [val_main_v49_apply, c1v5_at, val_main_call1_v10_apply, val_main_call1_v9_apply, val_main_call1_v8_apply,
    show idx_main_call1_v8 (idx_main_call1_v10 (ix2 r q)) = ix1 r from funext fun a => match a with | ⟨0, _⟩ => rfl, c1v7_at]
  rfl

variable (lab : Fin 65536 → Fin 2) (hlab : ∀ r : Fin 65536, x4 (ix1 r) = BitVec.ofNat 32 (lab r).val)
include hlab

/-- A label in {0, 1} is not negative, so the index taken along the columns is the label word itself. -/
theorem c2v5_at (r : Fin 65536) :
    val_main_call2_v5 (F := Ideal) x4 (ix3 r 0 0) = BitVec.ofNat 32 (lab r).val := by
  rw [val_main_call2_v5_apply,
    show idx_main_call2_v5 (ix3 r (0 : Fin 1) (0 : Fin 1)) = ix2 r (0 : Fin 1) from
      funext fun a => match a with
        | ⟨0, _⟩ => Fin.ext (by show ((r.val * 1 + 0) * 1 + 0) / 1 = r.val; omega)
        | ⟨1, _⟩ => rfl,
    val_main_call2_v4_apply, val_main_call2_v1_apply, val_main_v50_apply,
    show idx_main_v50 (ix2 r (0 : Fin 1)) = ix1 r from funext fun a => match a with | ⟨0, _⟩ => rfl, hlab,
    val_main_call2_v0_apply, val_main_call2_c_apply, word_slt, select_zero]

/-- It lies in the range of the columns. -/
theorem c2v12_at (r : Fin 65536) : val_main_call2_v12 (F := Ideal) x4 (ix2 r 0) = 1#1 := by
  unfold val_main_call2_v12
  rw [andred_at, val_main_call2_v11_apply, val_main_call2_v7_apply, val_main_call2_v10_apply, c2v5_at x4 lab hlab,
    val_main_call2_v6_apply, val_main_call2_c_2_apply, val_main_call2_v9_apply, val_main_call2_v8_apply, val_main_call2_c_1_apply,
    val_main_call2_c_3_apply, word_sge, word_sle]
  decide

/-- The log-probability taken at the label's column. -/
theorem v51_at (r : Fin 65536) :
    val_main_v51 (F := Ideal) x0 x1 x2 x3 x4 x5 x6 x7 x8 x9 x10 (ix2 r 0)
      = refLogp (lgt x0 x1 x2 x3 x5 x6 x7 x8 x9 x10) r (lab r) := by
  rw [val_main_v51_apply, c2v12_at x4 lab hlab, select_one]
  unfold val_main_call2_v13
  rw [gather_row_at _ _ r (lab r) (by rw [c2v5_at x4 lab hlab]; exact word_start (lab r)), v49_at]

/-- Minus it, as a vector over the batch. -/
theorem v53_at (r : Fin 65536) :
    val_main_v53 (F := Ideal) x0 x1 x2 x3 x4 x5 x6 x7 x8 x9 x10 (ix1 r)
      = -(refLogp (lgt x0 x1 x2 x3 x5 x6 x7 x8 x9 x10) r (lab r)) := by
  rw [val_main_v53_apply, val_main_v52_apply,
    show idx_main_v52 (ix1 r) = ix2 r (0 : Fin 1) from
      funext fun a => match a with
        | ⟨0, _⟩ => Fin.ext (by show r.val / 1 = r.val; omega)
        | ⟨1, _⟩ => rfl,
    v51_at x0 x1 x2 x3 x4 x5 x6 x7 x8 x9 x10 lab hlab]
  rfl

end Stages

/-- The rank-one indices of the batch are its rows. -/
def rowEquiv : S65536.Idx ≃ Fin 65536 where
  toFun j := j 0
  invFun r := ix1 r
  left_inv j := (eq_ix1 j).symm
  right_inv _ := rfl

/-- The reference's result on labels in {0, 1} (`lab r` is row `r`'s label as an element of Fin 2). -/
theorem ref_value (x0 : S100000x128.Idx → EReal) (x1 : S50000x128.Idx → EReal) (x2 x3 x4 : IVec S65536 32)
    (x5 : S256x128.Idx → EReal) (x6 x7 x8 : S128.Idx → EReal) (x9 : S128x2.Idx → EReal) (x10 : S2.Idx → EReal)
    (lab : Fin 65536 → Fin 2) (hlab : ∀ r : Fin 65536, x4 (ix1 r) = BitVec.ofNat 32 (lab r).val) :
    val_main_v55 (F := Ideal) x0 x1 x2 x3 x4 x5 x6 x7 x8 x9 x10
      = fun _ => refLoss (hidCat (featN x0 x2) (featE x1 x3) (fun k j => x5 (ix2 k j)) (fun j => x6 (ix1 j)))
          (fun j => x7 (ix1 j)) (fun j => x8 (ix1 j)) (fun j q => x9 (ix2 j q)) (fun q => x10 (ix1 q)) lab := by
  funext i
  rw [val_main_v55_apply, val_main_v54_apply, val_main_cst_8_apply, val_main_cst_7_apply]
  have hs : ∑ j : S65536.Idx, val_main_v53 (F := Ideal) x0 x1 x2 x3 x4 x5 x6 x7 x8 x9 x10 j
      = ∑ r : Fin 65536, -(refLogp (lgt x0 x1 x2 x3 x5 x6 x7 x8 x9 x10) r (lab r)) :=
    Fintype.sum_equiv rowEquiv _ _ (fun j => by
      obtain ⟨r, rfl⟩ : ∃ r, j = ix1 r := ⟨j 0, eq_ix1 j⟩
      rw [v53_at x0 x1 x2 x3 x4 x5 x6 x7 x8 x9 x10 lab hlab]
      rfl)
  rw [hs]
  simp only [Ideal.hostDivf_def, Ideal.ofBits_def, Ideal.ofBits_zero_f32, zero_add]
  rfl

end Cert.ReferenceIdeal.RefValue

end
-- ==== Proof.PreFacts.lean ====
/-
  What the precondition says of the inputs: every float input is real in every entry (its absolute value is below +∞), and
  every label is 0 or 1 (0 ≤ label < 2 as signed 32-bit integers).
-/
import proofs.«402825_j60026462929136_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

open Idealize.ShloMosaic Idealize.ShloMosaic.ValueIdx

namespace Cert.Pre_finite_inputs.Decode

open Cert.Pre_finite_inputs

/-- The rank-0 shape has one index. -/
instance subsingleton_scalar_idx : Subsingleton S_.Idx := ⟨fun a b => funext fun d => d.elim0⟩

/-- The binary32 pattern of +∞ denotes ⊤. -/
theorem inf_word : Ideal.ofBits .f32 0x7F800000#32 = (⊤ : EReal) := by
  simp [Ideal.ofBits, Ideal.ieee]

/-- An extended real whose absolute value max a (-a) lies below ⊤ is a real. -/
theorem real_of_abs_lt_top (a : EReal) (h : max a (-a) < ⊤) : ∃ r : ℝ, a = (r : EReal) := by
  induction a using EReal.rec with
  | bot => simp at h
  | top => simp at h
  | coe r => exact ⟨r, rfl⟩

/-- Where the and-reduce of |x| < +∞ over an array of any shape is 1, every entry of the array is a real. -/
theorem all_real {S : Shape} {axes : List (Fin S.rank)} (x : S.Idx → EReal)
    (hb : S_.BroadcastsInDim S (![] : Fin 0 → Fin S.rank)) (hr : S.ReducesTo axes S_) (hu : 0 < S_.numel)
    (e : Host.reduce IntOp.andi
        (cmpf .olt (Host.absf (F := Ideal) (φ := .f32) x)
          (broadcastInDim S ![] hb (constant (F := Ideal) S_ .f32 0x7F800000#32)))
        (constantI S_ 1 1#1) hr hu ix0 = 1#1) :
    ∀ i, ∃ r : ℝ, x i = (r : EReal) := by
  intro i
  have h1 := Host.reduce_andi_all _ _ hr hu ix0 e i
  have h2 : Ideal.cmp .olt (max (x i) (-(x i))) (Ideal.ofBits .f32 0x7F800000#32) = 1#1 := h1
  rw [inf_word] at h2
  simp only [Ideal.cmp, StableHlo.Predicate.ofBool_eq_one_iff, decide_eq_true_eq] at h2
  exact real_of_abs_lt_top _ h2

/-- A 32-bit word that is at least 0 and below 2 as a signed integer is 0 or 1. -/
theorem word_lt_two (w : BitVec 32) (h0 : IntOp.cmpi .sge w 0#32 = 1#1) (h2 : IntOp.cmpi .slt w 2#32 = 1#1) :
    ∃ q : Fin 2, w = BitVec.ofNat 32 q.val := by
  simp only [IntOp.cmpi, StableHlo.Predicate.ofBool_eq_one_iff, BitVec.sle, BitVec.slt, decide_eq_true_eq] at h0 h2
  have z : (0#32 : BitVec 32).toInt = 0 := by decide
  have t : (2#32 : BitVec 32).toInt = 2 := by decide
  rw [z] at h0
  rw [t] at h2
  have hw : w.toInt = 0 ∨ w.toInt = 1 := by omega
  rcases hw with hw | hw
  · exact ⟨0, BitVec.eq_of_toInt_eq (by rw [hw]; decide)⟩
  · exact ⟨1, BitVec.eq_of_toInt_eq (by rw [hw]; decide)⟩

/-- Where the and-reduce of (0 ≤ w) ∧ (w < 2) over a vector of words is 1, every word is that of a Fin 2. -/
theorem all_labels {n : Nat} (x : IVec ⟨1, ![n]⟩ 32)
    (hb : S_.BroadcastsInDim ⟨1, ![n]⟩ (![] : Fin 0 → Fin (⟨1, ![n]⟩ : Shape).rank))
    {axes : List (Fin (⟨1, ![n]⟩ : Shape).rank)} (hr : (⟨1, ![n]⟩ : Shape).ReducesTo axes S_) (hu : 0 < S_.numel)
    (e : Host.reduce IntOp.andi
        (andi (cmpi .sge x (broadcastInDim ⟨1, ![n]⟩ ![] hb (constantI S_ 32 0#32)))
          (cmpi .slt x (broadcastInDim ⟨1, ![n]⟩ ![] hb (constantI S_ 32 2#32))))
        (constantI S_ 1 1#1) hr hu ix0 = 1#1) :
    ∃ lab : Fin n → Fin 2, ∀ r : Fin n, x (ix1 r) = BitVec.ofNat 32 (lab r).val := by
  have hall : ∀ r : Fin n, ∃ q : Fin 2, x (ix1 r) = BitVec.ofNat 32 q.val := by
    intro r
    have h1 := Host.reduce_andi_all _ _ hr hu ix0 e (ix1 r)
    have h2 : IntOp.andi (IntOp.cmpi .sge (x (ix1 r)) 0#32) (IntOp.cmpi .slt (x (ix1 r)) 2#32) = 1#1 := h1
    obtain ⟨ha, hb'⟩ := IntOp.andi_eq_one.1 h2
    exact word_lt_two _ ha hb'
  choose lab hlab using hall
  exact ⟨lab, hlab⟩

/-- An elementwise and of two one-bit vectors is 1 at an index exactly when both are. -/
theorem andi_at {s : Shape} (a b : IVec s 1) (i : s.Idx) : andi a b i = 1#1 ↔ a i = 1#1 ∧ b i = 1#1 :=
  IntOp.andi_eq_one

/-- Where the precondition is all ones: the eight float inputs are real in every entry, and the labels are 0 or 1. -/
theorem of_pre (x0 : S100000x128.Idx → EReal) (x1 : S50000x128.Idx → EReal) (x2 x3 x4 : IVec S65536 32)
    (x5 : S256x128.Idx → EReal) (x6 x7 x8 : S128.Idx → EReal) (x9 : S128x2.Idx → EReal) (x10 : S2.Idx → EReal)
    (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal))
      ∧ (∀ i, ∃ r : ℝ, x9 i = (r : EReal)) ∧ (∀ i, ∃ r : ℝ, x10 i = (r : EReal))
      ∧ ∃ lab : Fin 65536 → Fin 2, ∀ r : Fin 65536, x4 (ix1 r) = BitVec.ofNat 32 (lab r).val := by
  have h0 := congrFun h ix0
  dsimp only [fn, fn_part1, fn_part2] at h0
  obtain ⟨h0, hL⟩ := (andi_at _ _ _).1 h0
  obtain ⟨h0, h10⟩ := (andi_at _ _ _).1 h0
  obtain ⟨h0, h9⟩ := (andi_at _ _ _).1 h0
  obtain ⟨h0, h8⟩ := (andi_at _ _ _).1 h0
  obtain ⟨h0, h7⟩ := (andi_at _ _ _).1 h0
  obtain ⟨h0, h6⟩ := (andi_at _ _ _).1 h0
  obtain ⟨h0, h5⟩ := (andi_at _ _ _).1 h0
  obtain ⟨h0, h1⟩ := (andi_at _ _ _).1 h0
  exact ⟨all_real x0 _ _ _ h0, all_real x1 _ _ _ h1, all_real x5 _ _ _ h5, all_real x6 _ _ _ h6, all_real x7 _ _ _ h7,
    all_real x8 _ _ _ h8, all_real x9 _ _ _ h9, all_real x10 _ _ _ h10, all_labels x4 _ _ _ hL⟩

end Cert.Pre_finite_inputs.Decode

end
-- ==== Proof.KRegion0.lean ====
/-
  The first region, read as values at the ideal instance. Its grid has eight points; point t works on rows
  [8192 t, 8192 (t + 1)) of the two feature arrays. At each point the body stores relu (x · Wa + y · Wb + b) of the point's
  rows (the hidden block), and adds the block's column sums, and the column sums of its squares, into two 8 × 128
  accumulators whose every row is the same; an accumulator is reset at points 0 and 4 and written back after points 3 and
  7, to rows [0, 8) and [8, 16) of a 16 × 128 array. So after the region the hidden array holds the hidden layer of all
  65536 rows, and row `ρ` of each 16 × 128 array holds the sum over the four tiles 4 ⌊ρ / 8⌋ + i, i < 4.
-/
import proofs.«402825_j60026462929136_3_alg».proof.Proof.KernelIdealFrame
import proofs.«402825_j60026462929136_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx NodeEdgeLoss
open Idealize.ShloMosaic.Pipeline (Dat)

namespace Cert.KernelIdeal.Region0

open Cert.KernelIdeal Cert.KernelIdeal.Gen

/-! ## The block's arithmetic at an index -/

theorem lhs_mm_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_mm_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_mm_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_mm_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A block times a weight matrix into the zero accumulator, at row `p` and column `q`: the plain sum over the 128 features. -/
theorem matmul_at (x : FVec Ideal S8192x128 .bf16) (w : FVec Ideal S128x128 .bf16) (p : Fin 8192) (q : Fin 128) :
    matmul dot_S8192x128_S128x128_S8192x128_1_0_0_1_n_n none x w (constant (F := Ideal) S8192x128 .f32 0x00000000#32) (ix2 p q)
      = ∑ k : Fin 128, x (ix2 p k) * w (ix2 k q) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The hidden layer of one block: row `p` of the block, column `q`. -/
def hblk (x y : Vec Ideal S8192x128 .f32) (wa wb : Vec Ideal S128x128 .f32) (b : Vec Ideal S1x128 .f32)
    (p : Fin 8192) (q : Fin 128) : EReal :=
  max (((∑ k : Fin 128, x (ix2 p k) * wa (ix2 k q)) + (∑ k : Fin 128, y (ix2 p k) * wb (ix2 k q))) + b (ix2 (0 : Fin 1) q)) 0

theorem pay5_at (x y : Vec Ideal S8192x128 .f32) (wa wb : Vec Ideal S128x128 .f32) (b : Vec Ideal S1x128 .f32)
    (p : Fin 8192) (q : Fin 128) : k0_pay5 (F := Ideal) x y wa wb b (ix2 p q) = hblk x y wa wb b p q := by
  have e1 := matmul_at (truncf .bf16 (shapeCast S8192x128 x shapeCasts_S8192x128_S8192x128) bitsLt_bf16_f32)
    (truncf .bf16 (shapeCast S128x128 wa shapeCasts_S128x128_S128x128) bitsLt_bf16_f32) p q
  have e2 := matmul_at (truncf .bf16 (shapeCast S8192x128 y shapeCasts_S8192x128_S8192x128) bitsLt_bf16_f32)
    (truncf .bf16 (shapeCast S128x128 wb shapeCasts_S128x128_S128x128) bitsLt_bf16_f32) p q
  have e3 : broadcastTo S8192x128 (shapeCast S1x128 b shapeCasts_S1x128_S1x128) broadcasts_S1x128_S8192x128 (ix2 p q)
      = b (ix2 (0 : Fin 1) q) := by
    rw [broadcastTo_1b_ab_apply, shapeCast_self]
  unfold k0_pay5 hblk
  refine (maximumf_apply _ _ (ix2 p q)).trans ?_
  refine congrArg₂ max ?_ Ideal.ofBits_zero_f32
  refine (addf_apply _ _ (ix2 p q)).trans ?_
  refine congrArg₂ (· + ·) ?_ e3
  refine (addf_apply _ _ (ix2 p q)).trans ?_
  refine congrArg₂ (· + ·) (e1.trans ?_) (e2.trans ?_)
  · exact Finset.sum_congr rfl fun k _ => by rw [truncf_apply, truncf_apply, shapeCast_self, shapeCast_self]
  · exact Finset.sum_congr rfl fun k _ => by rw [truncf_apply, truncf_apply, shapeCast_self, shapeCast_self]

theorem pay6_at (x y : Vec Ideal S8192x128 .f32) (wa wb : Vec Ideal S128x128 .f32) (b : Vec Ideal S1x128 .f32)
    (p : Fin 8192) (q : Fin 128) : k0_pay6 (F := Ideal) x y wa wb b (ix2 p q) = hblk x y wa wb b p q := by
  unfold k0_pay6
  show k0_pay5 (F := Ideal) x y wa wb b (ix2 p q) = _
  exact pay5_at x y wa wb b p q

theorem pay7_at (x y : Vec Ideal S8192x128 .f32) (wa wb : Vec Ideal S128x128 .f32) (b : Vec Ideal S1x128 .f32)
    (p : Fin 8192) (q : Fin 128) : k0_pay7 (F := Ideal) x y wa wb b (ix2 p q) = hblk x y wa wb b p q := by
  unfold k0_pay7
  exact pay5_at x y wa wb b p q

/-- The row index over column `q` with row `s` put back. -/
theorem lift_row (q : Fin 128) (s : Fin 8192) :
    reduces_S8192x128_S128.lift (ix1 q) s = ix2 s q := by
  funext a
  apply Fin.ext
  match a with
  | ⟨0, _⟩ => rfl
  | ⟨1, _⟩ => rfl

/-- The column sums of a block. -/
theorem colsum_at (v : FVec Ideal S8192x128 .f32) (q : Fin 128) :
    multiReduction (F := Ideal) .add [0] S128 v 0x00000000#32 reduces_S8192x128_S128 (.inl rfl) rfl (ix1 q)
      = ∑ s : Fin 8192, v (ix2 s q) := by
  refine (Ideal.multiReduction_add_single v _ reduces_S8192x128_S128 (.inl rfl) rfl (ix1 q)).trans ?_
  exact Finset.sum_congr rfl fun s _ => congrArg v (lift_row q s)

theorem pay10_at (x y : Vec Ideal S8192x128 .f32) (wa wb : Vec Ideal S128x128 .f32) (b : Vec Ideal S1x128 .f32)
    (u : Fin 1) (q : Fin 128) :
    k0_pay10 (F := Ideal) x y wa wb b (ix2 u q) = ∑ s : Fin 8192, hblk x y wa wb b s q := by
  unfold k0_pay10
  rw [shapeCast_self]
  refine (shapeCast_a_1a_apply _ shapeCasts_S128_S1x128 u q).trans ?_
  refine (colsum_at _ q).trans ?_
  exact Finset.sum_congr rfl fun s _ => pay7_at x y wa wb b s q

theorem pay8_at (x y : Vec Ideal S8192x128 .f32) (wa wb : Vec Ideal S128x128 .f32) (b : Vec Ideal S1x128 .f32)
    (u : Fin 1) (q : Fin 128) :
    k0_pay8 (F := Ideal) x y wa wb b (ix2 u q) = ∑ s : Fin 8192, hblk x y wa wb b s q * hblk x y wa wb b s q := by
  unfold k0_pay8
  refine (shapeCast_a_1a_apply _ shapeCasts_S128_S1x128 u q).trans ?_
  refine (colsum_at _ q).trans ?_
  exact Finset.sum_congr rfl fun s _ => by rw [mulf_apply, pay7_at]

/-! ## The accumulator payloads at an index -/

theorem pay1_at (v33 : FVec Ideal S8x128 .f32) (v34 : FVec Ideal S1x128 .f32) (ρ : Fin 8) (q : Fin 128) :
    k0_pay1 (F := Ideal) v33 v34 (ix2 ρ q) = v33 (ix2 ρ q) + v34 (ix2 (0 : Fin 1) q) := by
  unfold k0_pay1
  refine (addf_apply _ _ (ix2 ρ q)).trans ?_
  exact congrArg (v33 (ix2 ρ q) + ·) (broadcastTo_1b_ab_apply v34 broadcasts_S1x128_S8x128 ρ q)

theorem pay2_at (v31 : FVec Ideal S1x128 .f32) (v38 : Vec Ideal S8x128 .f32) (ρ : Fin 8) (q : Fin 128) :
    k0_pay2 (F := Ideal) v31 v38 (ix2 ρ q) = v38 (ix2 ρ q) + v31 (ix2 (0 : Fin 1) q) := by
  unfold k0_pay2
  rw [shapeCast_self, shapeCast_self]
  refine (addf_apply _ _ (ix2 ρ q)).trans ?_
  exact congrArg (v38 (ix2 ρ q) + ·) (broadcastTo_1b_ab_apply v31 broadcasts_S1x128_S8x128 ρ q)

theorem pay9_eq (v : Vec Ideal S8x128 .f32) : k0_pay9 (F := Ideal) v = v := by
  unfold k0_pay9
  exact shapeCast_self _ _

theorem pay3_at (ρ : Fin 8) (q : Fin 128) : (k0_pay3 (F := Ideal)) (ix2 ρ q) = 0 := by
  unfold k0_pay3
  exact Ideal.ofBits_zero_f32

theorem pay4_at (ρ : Fin 8) (q : Fin 128) : (k0_pay4 (F := Ideal)) (ix2 ρ q) = 0 := by
  unfold k0_pay4
  exact Ideal.ofBits_zero_f32

/-! ## Four points to a flush -/

/-- A quantity reset at the points ≡ 0 (mod 4) and added to at the others holds, at a point ≡ 3 (mod 4), the sum of the
    four summands of that point's stretch. -/
theorem four_fold {N : ℕ} (o : (n : ℕ) → n < N → EReal) (s : ℕ → EReal)
    (hA : ∀ t : Fin N, t.val % 4 = 0 → o t.val t.isLt = 0 + s t.val)
    (hB : ∀ t : Fin N, ¬t.val % 4 = 0 →
      o t.val t.isLt = o (t.val - 1) (Nat.lt_of_le_of_lt (Nat.sub_le _ _) t.isLt) + s t.val)
    (t : Fin N) (h3 : t.val % 4 = 3) :
    o t.val t.isLt = ∑ i : Fin 4, s (4 * (t.val / 4) + i.val) := by
  obtain ⟨n, hn⟩ := t
  dsimp only at h3 ⊢
  have e3 := hB ⟨n, hn⟩ (by dsimp only; omega)
  have e2 := hB ⟨n - 1, by omega⟩ (by dsimp only; omega)
  have e1 := hB ⟨n - 1 - 1, by omega⟩ (by dsimp only; omega)
  have e0 := hA ⟨n - 1 - 1 - 1, by omega⟩ (by dsimp only; omega)
  dsimp only at e0 e1 e2 e3
  rw [e3, e2, e1, e0, Fin.sum_univ_eq_sum_range (fun i => s (4 * (n / 4) + i)) 4, Finset.sum_range_succ,
    Finset.sum_range_succ, Finset.sum_range_succ, Finset.sum_range_succ, Finset.sum_range_zero]
  rw [show n - 1 - 1 - 1 = 4 * (n / 4) + 0 from by omega, show n - 1 - 1 = 4 * (n / 4) + 1 from by omega,
    show n - 1 = 4 * (n / 4) + 2 from by omega]
  rw [show s n = s (4 * (n / 4) + 3) from congrArg s (by omega)]

/-! ## What the body's stores leave, case by case, for any float values -/

section Pieces

variable {F : FTy → Type} [FloatOps F]

theorem hz : (![0, 0] : Fin 2 → Nat) = fun _ => 0 := funext fun a => by fin_cases a <;> rfl

theorem out_A_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8x128 .f32) (harg8 : arg8.IsWhole) (arg9 : Memref sig .tc .vmem S8x128 .f32) (harg9 : arg9.IsWhole) (hc0 : cond0_0 i) (x0 : Vec F S8192x128 .f32) (x1 : Vec F S8192x128 .f32) (x2 : Vec F S128x128 .f32) (x3 : Vec F S128x128 .f32) (x4 : Vec F S1x128 .f32) :
    out0_A_5 c i arg2 harg2 arg3 harg3 arg4 harg4 arg5 harg5 arg6 harg6 arg7 harg7 arg8 harg8 arg9 harg9 hc0 x0 x1 x2 x3 x4 = k0_pay6 x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, View.ld_unit_zero (S := S8192x128) hz, View.ld_unit_zero (S := S128x128) hz, View.ld_unit_zero (S := S1x128) hz]

theorem out_B_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8x128 .f32) (harg8 : arg8.IsWhole) (arg9 : Memref sig .tc .vmem S8x128 .f32) (harg9 : arg9.IsWhole) (hc0 : ¬cond0_0 i) (x0 : Vec F S8192x128 .f32) (x1 : Vec F S8192x128 .f32) (x2 : Vec F S128x128 .f32) (x3 : Vec F S128x128 .f32) (x4 : Vec F S1x128 .f32) (xo6 xo7 : Vec F S8x128 .f32) :
    out0_B_5 c i arg2 harg2 arg3 harg3 arg4 harg4 arg5 harg5 arg6 harg6 arg7 harg7 arg8 harg8 arg9 harg9 hc0 x0 x1 x2 x3 x4 xo6 xo7 = k0_pay6 x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz]
  simp only [View.readAt_eq_ld, harg2.read_unread, harg3.read_unread, harg4.read_unread, harg5.read_unread, harg6.read_unread, View.ld_unit_zero (S := S8192x128) hz, View.ld_unit_zero (S := S128x128) hz, View.ld_unit_zero (S := S1x128) hz]

theorem out_A_6 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8x128 .f32) (harg8 : arg8.IsWhole) (arg9 : Memref sig .tc .vmem S8x128 .f32) (harg9 : arg9.IsWhole) (hc0 : cond0_0 i) (x0 : Vec F S8192x128 .f32) (x1 : Vec F S8192x128 .f32) (x2 : Vec F S128x128 .f32) (x3 : Vec F S128x128 .f32) (x4 : Vec F S1x128 .f32) :
    out0_A_6 c i arg2 harg2 arg3 harg3 arg4 harg4 arg5 harg5 arg6 harg6 arg7 harg7 arg8 harg8 arg9 harg9 hc0 x0 x1 x2 x3 x4 = k0_pay1 (k0_pay9 (k0_pay3 (F := F))) (k0_pay10 x0 x1 x2 x3 x4) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S8x128) hz]
  simp only [View.readAt_eq_ld, harg2.read_unread, harg3.read_unread, harg4.read_unread, harg5.read_unread, harg6.read_unread, View.readCov_unit_zero (S := S8x128) _ hz, View.ld_unit_zero (S := S8192x128) hz, View.ld_unit_zero (S := S128x128) hz, View.ld_unit_zero (S := S1x128) hz, View.ld_unit_zero (S := S8x128) hz]

theorem out_B_6 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8x128 .f32) (harg8 : arg8.IsWhole) (arg9 : Memref sig .tc .vmem S8x128 .f32) (harg9 : arg9.IsWhole) (hc0 : ¬cond0_0 i) (x0 : Vec F S8192x128 .f32) (x1 : Vec F S8192x128 .f32) (x2 : Vec F S128x128 .f32) (x3 : Vec F S128x128 .f32) (x4 : Vec F S1x128 .f32) (xo6 xo7 : Vec F S8x128 .f32) :
    out0_B_6 c i arg2 harg2 arg3 harg3 arg4 harg4 arg5 harg5 arg6 harg6 arg7 harg7 arg8 harg8 arg9 harg9 hc0 x0 x1 x2 x3 x4 xo6 xo7 = k0_pay1 (k0_pay9 xo6) (k0_pay10 x0 x1 x2 x3 x4) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S8192x128) hz, View.ld_unit_zero (S := S128x128) hz, View.ld_unit_zero (S := S1x128) hz, View.ld_unit_zero (S := S8x128) hz]

theorem out_A_7 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8x128 .f32) (harg8 : arg8.IsWhole) (arg9 : Memref sig .tc .vmem S8x128 .f32) (harg9 : arg9.IsWhole) (hc0 : cond0_0 i) (x0 : Vec F S8192x128 .f32) (x1 : Vec F S8192x128 .f32) (x2 : Vec F S128x128 .f32) (x3 : Vec F S128x128 .f32) (x4 : Vec F S1x128 .f32) :
    out0_A_7 c i arg2 harg2 arg3 harg3 arg4 harg4 arg5 harg5 arg6 harg6 arg7 harg7 arg8 harg8 arg9 harg9 hc0 x0 x1 x2 x3 x4 = k0_pay2 (k0_pay8 x0 x1 x2 x3 x4) (k0_pay4 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S8x128) hz]
  simp only [View.readAt_eq_ld, harg2.read_unread, harg3.read_unread, harg4.read_unread, harg5.read_unread, harg6.read_unread, View.readCov_unit_zero (S := S8x128) _ hz, View.ld_unit_zero (S := S8192x128) hz, View.ld_unit_zero (S := S128x128) hz, View.ld_unit_zero (S := S1x128) hz, View.ld_unit_zero (S := S8x128) hz]

theorem out_B_7 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S8192x128 .bf16) (harg7 : arg7.IsWhole) (arg8 : Memref sig .tc .vmem S8x128 .f32) (harg8 : arg8.IsWhole) (arg9 : Memref sig .tc .vmem S8x128 .f32) (harg9 : arg9.IsWhole) (hc0 : ¬cond0_0 i) (x0 : Vec F S8192x128 .f32) (x1 : Vec F S8192x128 .f32) (x2 : Vec F S128x128 .f32) (x3 : Vec F S128x128 .f32) (x4 : Vec F S1x128 .f32) (xo6 xo7 : Vec F S8x128 .f32) :
    out0_B_7 c i arg2 harg2 arg3 harg3 arg4 harg4 arg5 harg5 arg6 harg6 arg7 harg7 arg8 harg8 arg9 harg9 hc0 x0 x1 x2 x3 x4 xo6 xo7 = k0_pay2 (k0_pay8 x0 x1 x2 x3 x4) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S8192x128) hz, View.ld_unit_zero (S := S128x128) hz, View.ld_unit_zero (S := S1x128) hz, View.ld_unit_zero (S := S8x128) hz]

end Pieces

/-! ## The region's arrays and blocks -/

-- the TensorCore's buffer contents when the region is entered
variable (V : (c : Dev nD) → (b : Ref sig .tc) → Buf (Elt Ideal) ((c : Thread nD τ).loc b))

/-- The region's operand arrays as it finds them: node features, edge features, the two weight halves, the bias row. -/
abbrev xArr (c : Dev nD) : S65536x128.Idx → EReal := V c (Pipeline.arrRef spec0 0)
abbrev yArr (c : Dev nD) : S65536x128.Idx → EReal := V c (Pipeline.arrRef spec0 1)
abbrev waArr (c : Dev nD) : S128x128.Idx → EReal := V c (Pipeline.arrRef spec0 2)
abbrev wbArr (c : Dev nD) : S128x128.Idx → EReal := V c (Pipeline.arrRef spec0 3)
abbrev bArr (c : Dev nD) : S1x128.Idx → EReal := V c (Pipeline.arrRef spec0 4)

/-- The hidden layer of the region's operands. -/
def hid (c : Dev nD) : Fin 65536 → Fin 128 → EReal :=
  hid2 (fun r k => xArr V c (ix2 r k)) (fun r k => yArr V c (ix2 r k)) (fun k j => waArr V c (ix2 k j))
    (fun k j => wbArr V c (ix2 k j)) (fun j => bArr V c (ix2 (0 : Fin 1) j))

/-- The five operand blocks the body loads at point `t`. -/
abbrev xblk (c : Dev nD) (t : Fin cfg0.N) : Vec Ideal S8192x128 .f32 := iblk0 V c 0 t
abbrev yblk (c : Dev nD) (t : Fin cfg0.N) : Vec Ideal S8192x128 .f32 := iblk0 V c 1 t
abbrev wablk (c : Dev nD) (t : Fin cfg0.N) : Vec Ideal S128x128 .f32 := iblk0 V c 2 t
abbrev wbblk (c : Dev nD) (t : Fin cfg0.N) : Vec Ideal S128x128 .f32 := iblk0 V c 3 t
abbrev bblk (c : Dev nD) (t : Fin cfg0.N) : Vec Ideal S1x128 .f32 := iblk0 V c 4 t

/-- The block index maps, decided over the eight points: the feature and hidden blocks move with the point, the weights
    and the bias stay, an accumulator's block is its core's. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val / 4 ∧ win0_6.index t (1 : Fin 2) = 0)
    ∧ (win0_7.index t (0 : Fin 2) = t.val / 4 ∧ win0_7.index t (1 : Fin 2) = 0) :=
  (by decide +kernel : ∀ t : Fin grid0.N, _)

theorem N8 : cfg0.N = 8 := N_0

/-- Row `p` of the node-feature block at point `t` is row `8192 t + p` of the array. -/
theorem xblk_at (c : Dev nD) (t : Fin cfg0.N) (p : Fin 8192) (q : Fin 128) (r : Fin 65536)
    (hr : r.val = t.val * 8192 + p.val) : xblk V c t (ix2 p q) = xArr V c (ix2 r q) := by
  obtain ⟨⟨e0, e1⟩, -⟩ := idx_facts t
  show V c (Pipeline.arrRef spec0 0) (((cfg0.win 0).blk t).view.emb (ix2 p q)) = V c (Pipeline.arrRef spec0 0) (ix2 r q)
  congr 1
  funext a
  apply Fin.ext
  match a with
  | ⟨0, _⟩ => show win0_0.index t (0 : Fin 2) * 8192 + 1 * p.val = r.val; rw [e0, hr]; omega
  | ⟨1, _⟩ => show win0_0.index t (1 : Fin 2) * 128 + 1 * q.val = q.val; rw [e1]; omega

theorem yblk_at (c : Dev nD) (t : Fin cfg0.N) (p : Fin 8192) (q : Fin 128) (r : Fin 65536)
    (hr : r.val = t.val * 8192 + p.val) : yblk V c t (ix2 p q) = yArr V c (ix2 r q) := by
  obtain ⟨-, ⟨e0, e1⟩, -⟩ := idx_facts t
  show V c (Pipeline.arrRef spec0 1) (((cfg0.win 1).blk t).view.emb (ix2 p q)) = V c (Pipeline.arrRef spec0 1) (ix2 r q)
  congr 1
  funext a
  apply Fin.ext
  match a with
  | ⟨0, _⟩ => show win0_1.index t (0 : Fin 2) * 8192 + 1 * p.val = r.val; rw [e0, hr]; omega
  | ⟨1, _⟩ => show win0_1.index t (1 : Fin 2) * 128 + 1 * q.val = q.val; rw [e1]; omega

theorem wablk_at (c : Dev nD) (t : Fin cfg0.N) (k : Fin 128) (q : Fin 128) :
    wablk V c t (ix2 k q) = waArr V c (ix2 k q) := by
  obtain ⟨-, -, ⟨e0, e1⟩, -⟩ := idx_facts t
  show V c (Pipeline.arrRef spec0 2) (((cfg0.win 2).blk t).view.emb (ix2 k q)) = V c (Pipeline.arrRef spec0 2) (ix2 k q)
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem wbblk_at (c : Dev nD) (t : Fin cfg0.N) (k : Fin 128) (q : Fin 128) :
    wbblk V c t (ix2 k q) = wbArr V c (ix2 k q) := by
  obtain ⟨-, -, -, ⟨e0, e1⟩, -⟩ := idx_facts t
  show V c (Pipeline.arrRef spec0 3) (((cfg0.win 3).blk t).view.emb (ix2 k q)) = V c (Pipeline.arrRef spec0 3) (ix2 k q)
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem bblk_at (c : Dev nD) (t : Fin cfg0.N) (u : Fin 1) (q : Fin 128) :
    bblk V c t (ix2 u q) = bArr V c (ix2 u q) := by
  obtain ⟨-, -, -, -, ⟨e0, e1⟩, -⟩ := idx_facts t
  show V c (Pipeline.arrRef spec0 4) (((cfg0.win 4).blk t).view.emb (ix2 u q)) = V c (Pipeline.arrRef spec0 4) (ix2 u q)
  congr 1
  funext a
  apply Fin.ext
  match a with
  | ⟨0, _⟩ => show win0_4.index t (0 : Fin 2) * 1 + 1 * u.val = u.val; rw [e0]; omega
  | ⟨1, _⟩ => show win0_4.index t (1 : Fin 2) * 128 + 1 * q.val = q.val; rw [e1]; omega

/-- The hidden layer of the blocks of point `t` is the hidden layer of the arrays at the point's rows. -/
theorem hblk_blocks (c : Dev nD) (t : Fin cfg0.N) (p : Fin 8192) (q : Fin 128) (r : Fin 65536)
    (hr : r.val = t.val * 8192 + p.val) :
    hblk (xblk V c t) (yblk V c t) (wablk V c t) (wbblk V c t) (bblk V c t) p q = hid V c r q := by
  have ex : ∀ k : Fin 128, xblk V c t (ix2 p k) = xArr V c (ix2 r k) := fun k => xblk_at V c t p k r hr
  have ey : ∀ k : Fin 128, yblk V c t (ix2 p k) = yArr V c (ix2 r k) := fun k => yblk_at V c t p k r hr
  have ea : ∀ k : Fin 128, wablk V c t (ix2 k q) = waArr V c (ix2 k q) := fun k => wablk_at V c t k q
  have eb : ∀ k : Fin 128, wbblk V c t (ix2 k q) = wbArr V c (ix2 k q) := fun k => wbblk_at V c t k q
  have e4 : bblk V c t (ix2 (0 : Fin 1) q) = bArr V c (ix2 (0 : Fin 1) q) := bblk_at V c t 0 q
  unfold hblk hid hid2
  refine congrArg₂ max (congrArg₂ (· + ·) (congrArg₂ (· + ·) (Finset.sum_congr rfl fun k _ => ?_)
    (Finset.sum_congr rfl fun k _ => ?_)) e4) rfl
  · exact congrArg₂ (· * ·) (ex k) (ea k)
  · exact congrArg₂ (· * ·) (ey k) (eb k)

/-! ## What each point leaves -/

/-- The hidden block after point `t`: the body's one store, in either case. -/
theorem out5_eq (c : Dev nD) (t : Fin cfg0.N) :
    (outsAt0 V c t.val t.isLt).1
      = k0_pay6 (F := Ideal) (xblk V c t) (yblk V c t) (wablk V c t) (wbblk V c t) (bblk V c t) := by
  by_cases h0 : t.val % 4 = 0
  · rw [outsAt0_A V c t h0]
    dsimp only
    exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- The column sums of the hidden block of point `n` (zero past the grid), and of its squares. -/
def tsum (c : Dev nD) (q : Fin 128) (n : ℕ) : EReal :=
  if h : n < cfg0.N then
    ∑ s : Fin 8192, hblk (xblk V c ⟨n, h⟩) (yblk V c ⟨n, h⟩) (wablk V c ⟨n, h⟩) (wbblk V c ⟨n, h⟩) (bblk V c ⟨n, h⟩) s q
  else 0
def tsq (c : Dev nD) (q : Fin 128) (n : ℕ) : EReal :=
  if h : n < cfg0.N then
    ∑ s : Fin 8192, hblk (xblk V c ⟨n, h⟩) (yblk V c ⟨n, h⟩) (wablk V c ⟨n, h⟩) (wbblk V c ⟨n, h⟩) (bblk V c ⟨n, h⟩) s q
      * hblk (xblk V c ⟨n, h⟩) (yblk V c ⟨n, h⟩) (wablk V c ⟨n, h⟩) (wbblk V c ⟨n, h⟩) (bblk V c ⟨n, h⟩) s q
  else 0

theorem tsum_at (c : Dev nD) (q : Fin 128) (t : Fin cfg0.N) :
    tsum V c q t.val = ∑ s : Fin 8192, hblk (xblk V c t) (yblk V c t) (wablk V c t) (wbblk V c t) (bblk V c t) s q := by
  unfold tsum
  rw [dif_pos t.isLt]
theorem tsq_at (c : Dev nD) (q : Fin 128) (t : Fin cfg0.N) :
    tsq V c q t.val = ∑ s : Fin 8192, hblk (xblk V c t) (yblk V c t) (wablk V c t) (wbblk V c t) (bblk V c t) s q
      * hblk (xblk V c t) (yblk V c t) (wablk V c t) (wbblk V c t) (bblk V c t) s q := by
  unfold tsq
  rw [dif_pos t.isLt]

/-- The first accumulator at a reset point: zero plus the block's column sums, in every row. -/
theorem acc6_A (c : Dev nD) (ρ : Fin 8) (q : Fin 128) (t : Fin cfg0.N) (h0 : t.val % 4 = 0) :
    (outsAt0 V c t.val t.isLt).2.1 (ix2 ρ q) = 0 + tsum V c q t.val := by
  rw [outsAt0_A V c t h0]
  dsimp only
  refine (congrFun (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 ρ q)).trans ?_
  refine (pay1_at _ _ ρ q).trans ?_
  rw [pay9_eq, pay3_at, pay10_at, tsum_at]

/-- At any other point: what the point before left plus the block's column sums. -/
theorem acc6_B (c : Dev nD) (ρ : Fin 8) (q : Fin 128) (t : Fin cfg0.N) (h0 : ¬t.val % 4 = 0) :
    (outsAt0 V c t.val t.isLt).2.1 (ix2 ρ q)
      = (outsAt0 V c (t.val - 1) (Nat.lt_of_le_of_lt (Nat.sub_le _ _) t.isLt)).2.1 (ix2 ρ q) + tsum V c q t.val := by
  rw [outsAt0_B V c t h0]
  dsimp only
  refine (congrFun (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 ρ q)).trans ?_
  refine (pay1_at _ _ ρ q).trans ?_
  rw [pay9_eq, pay10_at, tsum_at]

/-- The second accumulator likewise, with the column sums of squares. -/
theorem acc7_A (c : Dev nD) (ρ : Fin 8) (q : Fin 128) (t : Fin cfg0.N) (h0 : t.val % 4 = 0) :
    (outsAt0 V c t.val t.isLt).2.2 (ix2 ρ q) = 0 + tsq V c q t.val := by
  rw [outsAt0_A V c t h0]
  dsimp only
  refine (congrFun (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 ρ q)).trans ?_
  refine (pay2_at _ _ ρ q).trans ?_
  rw [pay4_at, pay8_at, tsq_at]

theorem acc7_B (c : Dev nD) (ρ : Fin 8) (q : Fin 128) (t : Fin cfg0.N) (h0 : ¬t.val % 4 = 0) :
    (outsAt0 V c t.val t.isLt).2.2 (ix2 ρ q)
      = (outsAt0 V c (t.val - 1) (Nat.lt_of_le_of_lt (Nat.sub_le _ _) t.isLt)).2.2 (ix2 ρ q) + tsq V c q t.val := by
  rw [outsAt0_B V c t h0]
  dsimp only
  refine (congrFun (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 ρ q)).trans ?_
  refine (pay2_at _ _ ρ q).trans ?_
  rw [pay8_at, tsq_at]

/-- So at a point that writes an accumulator back it holds the sums over the four tiles of the point's core. -/
theorem acc6_flush (c : Dev nD) (ρ : Fin 8) (q : Fin 128) (t : Fin cfg0.N) (h3 : t.val % 4 = 3) :
    (outsAt0 V c t.val t.isLt).2.1 (ix2 ρ q) = ∑ i : Fin 4, tsum V c q (4 * (t.val / 4) + i.val) :=
  four_fold (fun n h => (outsAt0 V c n h).2.1 (ix2 ρ q)) (tsum V c q) (acc6_A V c ρ q) (acc6_B V c ρ q) t h3

theorem acc7_flush (c : Dev nD) (ρ : Fin 8) (q : Fin 128) (t : Fin cfg0.N) (h3 : t.val % 4 = 3) :
    (outsAt0 V c t.val t.isLt).2.2 (ix2 ρ q) = ∑ i : Fin 4, tsq V c q (4 * (t.val / 4) + i.val) :=
  four_fold (fun n h => (outsAt0 V c n h).2.2 (ix2 ρ q)) (tsq V c q) (acc7_A V c ρ q) (acc7_B V c ρ q) t h3

/-- A tile's column sums are the hidden layer's, summed over the tile's rows. -/
theorem tsum_hid (c : Dev nD) (q : Fin 128) (n : ℕ) (κ : Fin 8) (hκ : κ.val = n) :
    tsum V c q n = ∑ s : Fin 8192, hid V c (tileRow κ s) q := by
  have hn : n < cfg0.N := by rw [N8, ← hκ]; exact κ.isLt
  unfold tsum
  rw [dif_pos hn]
  exact Finset.sum_congr rfl fun s _ => hblk_blocks V c ⟨n, hn⟩ s q (tileRow κ s) (by show κ.val * 8192 + s.val = n * 8192 + s.val; rw [hκ])

theorem tsq_hid (c : Dev nD) (q : Fin 128) (n : ℕ) (κ : Fin 8) (hκ : κ.val = n) :
    tsq V c q n = ∑ s : Fin 8192, hid V c (tileRow κ s) q * hid V c (tileRow κ s) q := by
  have hn : n < cfg0.N := by rw [N8, ← hκ]; exact κ.isLt
  unfold tsq
  rw [dif_pos hn]
  exact Finset.sum_congr rfl fun s _ => by
    rw [hblk_blocks V c ⟨n, hn⟩ s q (tileRow κ s) (by show κ.val * 8192 + s.val = n * 8192 + s.val; rw [hκ])]

/-! ## The arrays after the region -/

/-- What the three result arrays end holding. -/
abbrev G5 (c : Dev nD) : S65536x128.Idx → EReal := fun i => hid V c (i 0) (i 1)

def rowSum (c : Dev nD) (ρ : Fin 16) (j : Fin 128) : EReal :=
  ∑ i : Fin 4, ∑ s : Fin 8192,
    hid V c (tileRow ⟨4 * (ρ.val / 8) + i.val, by have := ρ.isLt; have := i.isLt; omega⟩ s) j
def rowSq (c : Dev nD) (ρ : Fin 16) (j : Fin 128) : EReal :=
  ∑ i : Fin 4, ∑ s : Fin 8192,
    hid V c (tileRow ⟨4 * (ρ.val / 8) + i.val, by have := ρ.isLt; have := i.isLt; omega⟩ s) j
      * hid V c (tileRow ⟨4 * (ρ.val / 8) + i.val, by have := ρ.isLt; have := i.isLt; omega⟩ s) j
abbrev G6 (c : Dev nD) : S16x128.Idx → EReal := fun i => rowSum V c (i 0) (i 1)
abbrev G7 (c : Dev nD) : S16x128.Idx → EReal := fun i => rowSq V c (i 0) (i 1)

/-- Every point writes back its block of the hidden array: the hidden layer at the point's rows. -/
theorem flushed5_eq (c : Dev nD) (t : Fin cfg0.N) :
    (dat0 V c).flushed 5 t = ((cfg0.win 5).blk t).view.read (Elt Ideal) (G5 V c) := by
  obtain ⟨-, -, -, -, -, ⟨e0, e1⟩, -⟩ := idx_facts t
  have ht : t.val < 8 := lt_of_lt_of_eq t.isLt N8
  show (cfg0.win 5).cut (grid0.coords t) ((dat0 V c).after 5 t) = _
  rw [after0_5, out5_eq]
  refine funext fun (y : S8192x128.Idx) => ?_
  obtain ⟨p, q, rfl⟩ : ∃ (p : Fin 8192) (q : Fin 128), y = ix2 p q := ⟨y 0, y 1, eq_ix2 y⟩
  have E : ((cfg0.win 5).blk t).view.emb (ix2 p q)
      = ix2 (⟨t.val * 8192 + p.val, by have := p.isLt; omega⟩ : Fin 65536) q := by
    funext a
    apply Fin.ext
    match a with
    | ⟨0, _⟩ => show win0_5.index t (0 : Fin 2) * 8192 + 1 * p.val = t.val * 8192 + p.val; rw [e0]; omega
    | ⟨1, _⟩ => show win0_5.index t (1 : Fin 2) * 128 + 1 * q.val = q.val; rw [e1]; omega
  show k0_pay6 (F := Ideal) (xblk V c t) (yblk V c t) (wablk V c t) (wbblk V c t) (bblk V c t) (ix2 p q)
    = G5 V c (((cfg0.win 5).blk t).view.emb (ix2 p q))
  rw [E, pay6_at]
  exact hblk_blocks V c t p q _ rfl

theorem mem_blk5 (t : Fin cfg0.N) (i : S65536x128.Idx) :
    i ∈ ((cfg0.win 5).blk t).view.set ↔ ∀ a : Fin 2, win0_5.index t a * S8192x128.size a ≤ (i a).val
      ∧ (i a).val < win0_5.index t a * S8192x128.size a + S8192x128.size a := by
  show i ∈ ((View.whole main_v19_0).slice (win0_5.rect t)).set ↔ _
  rw [View.set_slice_whole, Rect.mem_set_unit]
  exact Iff.rfl

/-- The eight blocks tile the hidden array: so it ends holding the hidden layer. -/
theorem final5 (c : Dev nD) : (dat0 V c).arrAt 5 cfg0.N = G5 V c :=
  (dat0 V c).arrAt_eq_of_cover 5 (G5 V c) (fun t _ => flushed5_eq V c t) fun i => by
    have hi0 : (i 0).val < 65536 := idx2_lt0 i
    have hi1 : (i 1).val < 128 := idx2_lt1 i
    refine ⟨⟨(i 0).val / 8192, by rw [N8]; omega⟩, flush0_5 _, ?_⟩
    obtain ⟨-, -, -, -, -, ⟨e0, e1⟩, -⟩ := idx_facts ⟨(i 0).val / 8192, by rw [N8]; omega⟩
    rw [mem_blk5]
    intro a
    match a with
    | ⟨0, _⟩ =>
      show win0_5.index _ (0 : Fin 2) * 8192 ≤ (i 0).val ∧ (i 0).val < win0_5.index _ (0 : Fin 2) * 8192 + 8192
      rw [e0]; dsimp only; omega
    | ⟨1, _⟩ =>
      show win0_5.index _ (1 : Fin 2) * 128 ≤ (i 1).val ∧ (i 1).val < win0_5.index _ (1 : Fin 2) * 128 + 128
      rw [e1]; omega

/-- A point that writes an accumulator back writes its core's block: every row the sums over the core's four tiles. -/
theorem flushed6_eq (c : Dev nD) (t : Fin cfg0.N) (hf : (cfg0.win 6).flush t = true) :
    (dat0 V c).flushed 6 t = ((cfg0.win 6).blk t).view.read (Elt Ideal) (G6 V c) := by
  have h3 : t.val % 4 = 3 := (flush0_6 t).mp hf
  obtain ⟨-, -, -, -, -, -, ⟨e0, e1⟩, -⟩ := idx_facts t
  have ht : t.val < 8 := lt_of_lt_of_eq t.isLt N8
  show (cfg0.win 6).cut (grid0.coords t) ((dat0 V c).after 6 t) = _
  rw [after0_6]
  refine funext fun (y : S8x128.Idx) => ?_
  obtain ⟨ρ, q, rfl⟩ : ∃ (ρ : Fin 8) (q : Fin 128), y = ix2 ρ q := ⟨y 0, y 1, eq_ix2 y⟩
  have E : ((cfg0.win 6).blk t).view.emb (ix2 ρ q)
      = ix2 (⟨t.val / 4 * 8 + ρ.val, by have := ρ.isLt; omega⟩ : Fin 16) q := by
    funext a
    apply Fin.ext
    match a with
    | ⟨0, _⟩ => show win0_6.index t (0 : Fin 2) * 8 + 1 * ρ.val = t.val / 4 * 8 + ρ.val; rw [e0]; omega
    | ⟨1, _⟩ => show win0_6.index t (1 : Fin 2) * 128 + 1 * q.val = q.val; rw [e1]; omega
  show (outsAt0 V c t.val t.isLt).2.1 (ix2 ρ q) = G6 V c (((cfg0.win 6).blk t).view.emb (ix2 ρ q))
  rw [E, acc6_flush V c ρ q t h3]
  show _ = rowSum V c ⟨t.val / 4 * 8 + ρ.val, _⟩ q
  unfold rowSum
  exact Finset.sum_congr rfl fun i _ => tsum_hid V c q _ _ (by have := ρ.isLt; show 4 * ((t.val / 4 * 8 + ρ.val) / 8) + i.val = 4 * (t.val / 4) + i.val; omega)

theorem flushed7_eq (c : Dev nD) (t : Fin cfg0.N) (hf : (cfg0.win 7).flush t = true) :
    (dat0 V c).flushed 7 t = ((cfg0.win 7).blk t).view.read (Elt Ideal) (G7 V c) := by
  have h3 : t.val % 4 = 3 := (flush0_7 t).mp hf
  obtain ⟨-, -, -, -, -, -, -, ⟨e0, e1⟩⟩ := idx_facts t
  have ht : t.val < 8 := lt_of_lt_of_eq t.isLt N8
  show (cfg0.win 7).cut (grid0.coords t) ((dat0 V c).after 7 t) = _
  rw [after0_7]
  refine funext fun (y : S8x128.Idx) => ?_
  obtain ⟨ρ, q, rfl⟩ : ∃ (ρ : Fin 8) (q : Fin 128), y = ix2 ρ q := ⟨y 0, y 1, eq_ix2 y⟩
  have E : ((cfg0.win 7).blk t).view.emb (ix2 ρ q)
      = ix2 (⟨t.val / 4 * 8 + ρ.val, by have := ρ.isLt; omega⟩ : Fin 16) q := by
    funext a
    apply Fin.ext
    match a with
    | ⟨0, _⟩ => show win0_7.index t (0 : Fin 2) * 8 + 1 * ρ.val = t.val / 4 * 8 + ρ.val; rw [e0]; omega
    | ⟨1, _⟩ => show win0_7.index t (1 : Fin 2) * 128 + 1 * q.val = q.val; rw [e1]; omega
  show (outsAt0 V c t.val t.isLt).2.2 (ix2 ρ q) = G7 V c (((cfg0.win 7).blk t).view.emb (ix2 ρ q))
  rw [E, acc7_flush V c ρ q t h3]
  show _ = rowSq V c ⟨t.val / 4 * 8 + ρ.val, _⟩ q
  unfold rowSq
  exact Finset.sum_congr rfl fun i _ => tsq_hid V c q _ _ (by have := ρ.isLt; show 4 * ((t.val / 4 * 8 + ρ.val) / 8) + i.val = 4 * (t.val / 4) + i.val; omega)

theorem mem_blk6 (t : Fin cfg0.N) (i : S16x128.Idx) :
    i ∈ ((cfg0.win 6).blk t).view.set ↔ ∀ a : Fin 2, win0_6.index t a * S8x128.size a ≤ (i a).val
      ∧ (i a).val < win0_6.index t a * S8x128.size a + S8x128.size a := by
  show i ∈ ((View.whole main_v19_1).slice (win0_6.rect t)).set ↔ _
  rw [View.set_slice_whole, Rect.mem_set_unit]
  exact Iff.rfl

theorem mem_blk7 (t : Fin cfg0.N) (i : S16x128.Idx) :
    i ∈ ((cfg0.win 7).blk t).view.set ↔ ∀ a : Fin 2, win0_7.index t a * S8x128.size a ≤ (i a).val
      ∧ (i a).val < win0_7.index t a * S8x128.size a + S8x128.size a := by
  show i ∈ ((View.whole main_v19_2).slice (win0_7.rect t)).set ↔ _
  rw [View.set_slice_whole, Rect.mem_set_unit]
  exact Iff.rfl

/-- The two write-backs, after points 3 and 7, tile each 16 × 128 array. -/
theorem final6 (c : Dev nD) : (dat0 V c).arrAt 6 cfg0.N = G6 V c :=
  (dat0 V c).arrAt_eq_of_cover 6 (G6 V c) (flushed6_eq V c) fun i => by
    have hi0 : (i 0).val < 16 := idx2_lt0 i
    have hi1 : (i 1).val < 128 := idx2_lt1 i
    refine ⟨⟨4 * ((i 0).val / 8) + 3, by rw [N8]; omega⟩, (flush0_6 _).mpr (by dsimp only; omega), ?_⟩
    obtain ⟨-, -, -, -, -, -, ⟨e0, e1⟩, -⟩ := idx_facts ⟨4 * ((i 0).val / 8) + 3, by rw [N8]; omega⟩
    rw [mem_blk6]
    intro a
    match a with
    | ⟨0, _⟩ =>
      show win0_6.index _ (0 : Fin 2) * 8 ≤ (i 0).val ∧ (i 0).val < win0_6.index _ (0 : Fin 2) * 8 + 8
      rw [e0]; dsimp only; omega
    | ⟨1, _⟩ =>
      show win0_6.index _ (1 : Fin 2) * 128 ≤ (i 1).val ∧ (i 1).val < win0_6.index _ (1 : Fin 2) * 128 + 128
      rw [e1]; omega

theorem final7 (c : Dev nD) : (dat0 V c).arrAt 7 cfg0.N = G7 V c :=
  (dat0 V c).arrAt_eq_of_cover 7 (G7 V c) (flushed7_eq V c) fun i => by
    have hi0 : (i 0).val < 16 := idx2_lt0 i
    have hi1 : (i 1).val < 128 := idx2_lt1 i
    refine ⟨⟨4 * ((i 0).val / 8) + 3, by rw [N8]; omega⟩, (flush0_7 _).mpr (by dsimp only; omega), ?_⟩
    obtain ⟨-, -, -, -, -, -, -, ⟨e0, e1⟩⟩ := idx_facts ⟨4 * ((i 0).val / 8) + 3, by rw [N8]; omega⟩
    rw [mem_blk7]
    intro a
    match a with
    | ⟨0, _⟩ =>
      show win0_7.index _ (0 : Fin 2) * 8 ≤ (i 0).val ∧ (i 0).val < win0_7.index _ (0 : Fin 2) * 8 + 8
      rw [e0]; dsimp only; omega
    | ⟨1, _⟩ =>
      show win0_7.index _ (1 : Fin 2) * 128 ≤ (i 1).val ∧ (i 1).val < win0_7.index _ (1 : Fin 2) * 128 + 128
      rw [e1]; omega

/-- After the region the hidden array holds the hidden layer (a change of float format is the identity here). -/
theorem region0_h (c : Dev nD) (r : Fin 65536) (j : Fin 128) :
    (dat0 (F := Ideal) V c).arrAt 5 cfg0.N (ix2 r j) = hid V c r j :=
  congrFun (final5 V c) (ix2 r j)

/-- Row `ρ` of the first 16 × 128 array holds the column sums over the four tiles of its half of the batch. -/
theorem region0_sum (c : Dev nD) (ρ : Fin 16) (j : Fin 128) :
    (dat0 (F := Ideal) V c).arrAt 6 cfg0.N (ix2 ρ j)
      = ∑ i : Fin 4, ∑ s : Fin 8192,
          hid V c (tileRow ⟨4 * (ρ.val / 8) + i.val, by have := ρ.isLt; have := i.isLt; omega⟩ s) j :=
  congrFun (final6 V c) (ix2 ρ j)

/-- Row `ρ` of the second 16 × 128 array holds the column sums of squares over the same four tiles. -/
theorem region0_sumsq (c : Dev nD) (ρ : Fin 16) (j : Fin 128) :
    (dat0 (F := Ideal) V c).arrAt 7 cfg0.N (ix2 ρ j)
      = ∑ i : Fin 4, ∑ s : Fin 8192,
          hid V c (tileRow ⟨4 * (ρ.val / 8) + i.val, by have := ρ.isLt; have := i.isLt; omega⟩ s) j
            * hid V c (tileRow ⟨4 * (ρ.val / 8) + i.val, by have := ρ.isLt; have := i.isLt; omega⟩ s) j :=
  congrFun (final7 V c) (ix2 ρ j)

end Cert.KernelIdeal.Region0

end
-- ==== Proof.KRegion1.lean ====
/-
  The second region, read as values at the ideal instance. Its grid has eight points; point t works on rows
  [8192 t, 8192 (t + 1)) of the hidden array and of the label column. At each point the body normalises the hidden block
  by the scale and shift rows (h · scale + shift), takes the two logits (· W2 + b2), the log-softmax
  x - (m + log Σ exp (x - m)) with m the larger logit, multiplies by the one-hot row of the label (label = 0, label = 1 as
  0/1 floats), sums the two columns, negates (0 - ·), sums over the block's rows, and adds that one number into every
  entry of an 8 × 128 accumulator, reset at points 0 and 4 and written back after points 3 and 7 to rows [0, 8) and
  [8, 16) of a 16 × 128 array. So every entry of row `ρ` of that array holds the sum of the row losses over the four tiles
  4 ⌊ρ / 8⌋ + i, i < 4.
-/
import proofs.«402825_j60026462929136_3_alg».proof.Proof.KernelIdealFrame
import proofs.«402825_j60026462929136_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx NodeEdgeLoss
open Idealize.ShloMosaic.Pipeline (Dat)

namespace Cert.KernelIdeal.Region1

open Cert.KernelIdeal Cert.KernelIdeal.Gen

/-! ## What each case of the body leaves in the accumulator block -/

theorem hz : (![0, 0] : Fin 2 → Nat) = fun _ => 0 := funext fun a => by fin_cases a <;> rfl

/-- At a point that does not reset, the body leaves in the accumulator block what it held plus the block's one number. -/
theorem out_B {F : FTy → Type} [FloatOps F] (c : Dev nD) (i : grid1.Coords) (arg2 : Memref sig .tc .vmem S8192x128 .bf16) (harg2 : arg2.IsWhole) (arg3 : Memref sig .tc .vmem S8192x1 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x2 .f32) (harg6 : arg6.IsWhole) (arg7 : Memref sig .tc .vmem S1x2 .f32) (harg7 : arg7.IsWhole) (arg8 : Memref sig .tc .vmem S8x128 .f32) (harg8 : arg8.IsWhole) (hc0 : ¬cond1_0 i)
    (x0 : Vec F S8192x128 .bf16) (x1 : Vec F S8192x1 .i32) (x2 : Vec F S1x128 .f32) (x3 : Vec F S1x128 .f32) (x4 : Vec F S128x2 .f32) (x5 : Vec F S1x2 .f32) (xo6 : Vec F S8x128 .f32) :
    out1_B_6 c i arg2 harg2 arg3 harg3 arg4 harg4 arg5 harg5 arg6 harg6 arg7 harg7 arg8 harg8 hc0 x0 x1 x2 x3 x4 x5 xo6
      = k1_pay1 (k1_pay3 x0 x2 x3 x4 x5) (k1_pay4 x1) (k1_pay5 x1) xo6 := by
  unfold out1_B_6
  rw [View.read_writes_eq_canon _ _ _ (cover1_B_6 c i arg2 harg2 arg3 harg3 arg4 harg4 arg5 harg5 arg6 harg6 arg7 harg7 arg8 harg8 hc0 x0 x1 x2 x3 x4 x5 xo6)]
  unfold kernelRun1_B
  dsimp only
  sl_unfold_words
  rw [View.canon_unit_zero hz]
  simp only [View.readAt_eq_ld, harg2.read_unread, harg3.read_unread, harg4.read_unread, harg5.read_unread, harg6.read_unread,
    harg7.read_unread, harg8.read_unread, View.ld_unit_zero (S := S8192x128) hz, View.ld_unit_zero (S := S8192x1) hz,
    View.ld_unit_zero (S := S1x128) hz, View.ld_unit_zero (S := S128x2) hz, View.ld_unit_zero (S := S1x2) hz,
    View.ld_unit_zero (S := S8x128) hz]

/-- At a point that resets, the body leaves the zero block plus the block's one number. -/
theorem out_A {F : FTy → Type} [FloatOps F] (c : Dev nD) (i : grid1.Coords) (arg2 : Memref sig .tc .vmem S8192x128 .bf16) (harg2 : arg2.IsWhole) (arg3 : Memref sig .tc .vmem S8192x1 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x2 .f32) (harg6 : arg6.IsWhole) (arg7 : Memref sig .tc .vmem S1x2 .f32) (harg7 : arg7.IsWhole) (arg8 : Memref sig .tc .vmem S8x128 .f32) (harg8 : arg8.IsWhole) (hc0 : cond1_0 i)
    (x0 : Vec F S8192x128 .bf16) (x1 : Vec F S8192x1 .i32) (x2 : Vec F S1x128 .f32) (x3 : Vec F S1x128 .f32) (x4 : Vec F S128x2 .f32) (x5 : Vec F S1x2 .f32) :
    out1_A_6 c i arg2 harg2 arg3 harg3 arg4 harg4 arg5 harg5 arg6 harg6 arg7 harg7 arg8 harg8 hc0 x0 x1 x2 x3 x4 x5
      = k1_pay1 (k1_pay3 x0 x2 x3 x4 x5) (k1_pay4 x1) (k1_pay5 x1) (k1_pay2 (F := F)) := by
  unfold out1_A_6
  rw [View.read_writes_eq_canon _ _ _ (cover1_A_6 c i arg2 harg2 arg3 harg3 arg4 harg4 arg5 harg5 arg6 harg6 arg7 harg7 arg8 harg8 hc0 x0 x1 x2 x3 x4 x5)]
  unfold kernelRun1_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread,
    harg7.read_unread, View.ld_unit_zero (S := S8192x128) hz, View.ld_unit_zero (S := S8192x1) hz,
    View.ld_unit_zero (S := S1x128) hz, View.ld_unit_zero (S := S128x2) hz, View.ld_unit_zero (S := S1x2) hz]

/-! ## The body's operations read at an index -/

/-- The word the lane maximum starts from is `-∞`. -/
theorem ofBits_neg_inf : Ideal.ofBits .f32 0xFF800000#32 = ⊥ := by simp [Ideal.ofBits, Ideal.ieee]

/-- A fold of `max` from `-∞` over two values is their maximum. -/
theorem fold_max_two (f : Fin 2 → EReal) : (Finset.univ : Finset (Fin 2)).fold max ⊥ f = max (f 0) (f 1) := by
  apply le_antisymm
  · rw [Finset.fold_max_le]
    refine ⟨bot_le, fun x _ => ?_⟩
    fin_cases x
    · exact le_max_left _ _
    · exact le_max_right _ _
  · rw [Finset.le_fold_max]
    right
    rcases le_total (f 0) (f 1) with h | h
    · exact ⟨1, Finset.mem_univ _, by rw [max_eq_right h]⟩
    · exact ⟨0, Finset.mem_univ _, by rw [max_eq_left h]⟩

/-- A column `[a, 1]` broadcast along the lanes reads its row's one entry. -/
theorem bcast_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry. -/
theorem bcast_one_apply {α : Type} {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A vector `[a]` cast to the column `[a, 1]` reads, at `(p, 0)`, its entry `p`. -/
theorem cast_col_apply {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-! ### The reductions -/

theorem fold_max_two' {n : ℕ} (hn : n = 2) (b : EReal) (hb : b = ⊥) (f : Fin n → EReal) :
    (Finset.univ : Finset (Fin n)).fold max b f = max (f ⟨0, by omega⟩) (f ⟨1, by omega⟩) := by
  subst hn hb; exact fold_max_two f

theorem sum_two' {n : ℕ} (hn : n = 2) (f : Fin n → EReal) : ∑ k : Fin n, f k = f ⟨0, by omega⟩ + f ⟨1, by omega⟩ := by
  subst hn; exact Fin.sum_univ_two f

/-- Row `s` of a `[8192, 2]` array with the lane `k` inserted. -/
theorem lift_row (s : Fin 8192) (k : Fin 2) : reduces_S8192x2_S8192.lift (ix1 s) k = ix2 s k :=
  funext fun a => Fin.ext (match a with | ⟨0, _⟩ => rfl | ⟨1, _⟩ => rfl)

/-- The lane maximum of a row of two entries. -/
theorem rowmax_apply (v : FVec Ideal S8192x2 .f32) (hφ : FKind.Formats .f32) (hacc : (0xFF800000#32 : BitVec 32) = 0xFF800000#32)
    (s : Fin 8192) :
    multiReduction .maximumf [1] S8192 v 0xFF800000#32 reduces_S8192x2_S8192 hφ hacc (ix1 s) = max (v (ix2 s 0)) (v (ix2 s 1)) := by
  refine (Ideal.multiReduction_maximumf_single v 0xFF800000#32 reduces_S8192x2_S8192 hφ hacc (ix1 s)).trans ?_
  refine (fold_max_two' rfl _ ofBits_neg_inf _).trans ?_
  exact congrArg₂ max (congrArg v (lift_row s 0)) (congrArg v (lift_row s 1))

/-- The lane sum of a row of two entries. -/
theorem rowsum_apply (v : FVec Ideal S8192x2 .f32) (hφ : FKind.Formats .f32) (hacc : (0x00000000#32 : BitVec 32) = 0x00000000#32)
    (s : Fin 8192) :
    multiReduction .add [1] S8192 v 0x00000000#32 reduces_S8192x2_S8192 hφ hacc (ix1 s) = v (ix2 s 0) + v (ix2 s 1) := by
  refine (Ideal.multiReduction_add_single v 0x00000000#32 reduces_S8192x2_S8192 hφ hacc (ix1 s)).trans ?_
  refine (sum_two' rfl _).trans ?_
  exact congrArg₂ (· + ·) (congrArg v (lift_row s 0)) (congrArg v (lift_row s 1))

/-- The one entry of a column with the row `s` inserted. -/
theorem lift_col (s : Fin 8192) : reduces_S8192x1_S1.lift (ix1 (0 : Fin 1)) s = ix2 s (0 : Fin 1) :=
  funext fun a => Fin.ext (match a with | ⟨0, _⟩ => rfl | ⟨1, _⟩ => rfl)

/-- The sum of a column over its 8192 rows. -/
theorem colsum_apply (v : FVec Ideal S8192x1 .f32) (hφ : FKind.Formats .f32) (hacc : (0x00000000#32 : BitVec 32) = 0x00000000#32)
    (u : Fin 1) :
    multiReduction .add [0] S1 v 0x00000000#32 reduces_S8192x1_S1 hφ hacc (ix1 u) = ∑ s : Fin 8192, v (ix2 s (0 : Fin 1)) := by
  obtain rfl : u = 0 := Subsingleton.elim _ _
  refine (Ideal.multiReduction_add_single v 0x00000000#32 reduces_S8192x1_S1 hφ hacc (ix1 (0 : Fin 1))).trans ?_
  exact Finset.sum_congr rfl fun s _ => congrArg v (lift_col s)

/-! ### The one-hot row's two columns joined -/

theorem concat_left {α : Type} (a b : S8192x1.Idx → α) (s : Fin 8192) :
    concatenate S8192x2 1 [⟨S8192x1, a⟩, ⟨S8192x1, b⟩] concatenates_S8192x1_S8192x1_S8192x2_d1 (ix2 s (0 : Fin 2)) = a (ix2 s (0 : Fin 1)) :=
  concatenate_pair_apply_left (1 : Fin S8192x2.rank) a b concatenates_S8192x1_S8192x1_S8192x2_d1 (ix2 s (0 : Fin 2)) rfl (ix2 s (0 : Fin 1))
    (fun b => match b with | ⟨0, _⟩ => rfl | ⟨1, _⟩ => rfl)

theorem concat_right {α : Type} (a b : S8192x1.Idx → α) (s : Fin 8192) :
    concatenate S8192x2 1 [⟨S8192x1, a⟩, ⟨S8192x1, b⟩] concatenates_S8192x1_S8192x1_S8192x2_d1 (ix2 s (1 : Fin 2)) = b (ix2 s (0 : Fin 1)) :=
  concatenate_pair_apply_right (1 : Fin S8192x2.rank) a b concatenates_S8192x1_S8192x1_S8192x2_d1 (ix2 s (1 : Fin 2)) rfl rfl (ix2 s (0 : Fin 1))
    (fun b => match b with | ⟨0, _⟩ => fun _ => rfl | ⟨1, _⟩ => fun h => absurd rfl h) rfl

/-! ### The second layer's product -/

theorem lhs_dot_0 (i : S8192x2.Idx) (q : dot_S8192x128_S128x2_S8192x2_1_0_0_1_n_n.contr.Idx) :
    (dot_S8192x128_S128x2_S8192x2_1_0_0_1_n_n.lhsIdx i q 0).val = (i 0).val := by
  unfold DotDims.lhsIdx
  rw [dif_neg (show ¬(0 : Fin S8192x128.rank) ∈ dot_S8192x128_S128x2_S8192x2_1_0_0_1_n_n.lhsBatch by decide), dif_pos (show (0 : Fin S8192x128.rank) ∈ dot_S8192x128_S128x2_S8192x2_1_0_0_1_n_n.lhsNonContracting by decide)]
  rfl
theorem lhs_dot_1 (i : S8192x2.Idx) (q : dot_S8192x128_S128x2_S8192x2_1_0_0_1_n_n.contr.Idx) :
    (dot_S8192x128_S128x2_S8192x2_1_0_0_1_n_n.lhsIdx i q 1).val = (q ⟨0, by decide⟩).val :=
  dot_S8192x128_S128x2_S8192x2_1_0_0_1_n_n.lhsIdx_val_of_single rfl i q
theorem rhs_dot_0 (i : S8192x2.Idx) (q : dot_S8192x128_S128x2_S8192x2_1_0_0_1_n_n.contr.Idx) :
    (dot_S8192x128_S128x2_S8192x2_1_0_0_1_n_n.rhsIdx i q 0).val = (q ⟨0, by decide⟩).val :=
  dot_S8192x128_S128x2_S8192x2_1_0_0_1_n_n.rhsIdx_val_of_single rfl i q
theorem rhs_dot_1 (i : S8192x2.Idx) (q : dot_S8192x128_S128x2_S8192x2_1_0_0_1_n_n.contr.Idx) :
    (dot_S8192x128_S128x2_S8192x2_1_0_0_1_n_n.rhsIdx i q 1).val = (i 1).val := by
  unfold DotDims.rhsIdx
  rw [dif_neg (show ¬(1 : Fin S128x2.rank) ∈ dot_S8192x128_S128x2_S8192x2_1_0_0_1_n_n.rhsBatch by decide), dif_pos (show (1 : Fin S128x2.rank) ∈ dot_S8192x128_S128x2_S8192x2_1_0_0_1_n_n.rhsNonContracting by decide)]
  rfl

/-- The product of a `[8192, 128]` block with a `[128, 2]` matrix into the zero accumulator, at an entry. -/
theorem matmul_apply2 (a : FVec Ideal S8192x128 .bf16) (b : FVec Ideal S128x2 .bf16) (s : Fin 8192) (q : Fin 2) :
    matmul dot_S8192x128_S128x2_S8192x2_1_0_0_1_n_n none a b (constant (F := Ideal) S8192x2 .f32 0x00000000#32) (ix2 s q)
      = ∑ k : Fin 128, a (ix2 s k) * b (ix2 k q) := by
  simp only [matmul]
  rw [Ideal.matmul_constant_zero_apply, ← Equiv.sum_comp (ValueIdx.contrEquiv1 dot_S8192x128_S128x2_S8192x2_1_0_0_1_n_n 128 rfl rfl).symm]
  refine Finset.sum_congr rfl fun k _ => ?_
  have hk := ValueIdx.contrEquiv1_symm_val dot_S8192x128_S128x2_S8192x2_1_0_0_1_n_n 128 rfl rfl k
  have el : dot_S8192x128_S128x2_S8192x2_1_0_0_1_n_n.lhsIdx (ix2 s q) ((ValueIdx.contrEquiv1 dot_S8192x128_S128x2_S8192x2_1_0_0_1_n_n 128 rfl rfl).symm k) = ix2 s k := funext fun a => Fin.ext (by
    match a with
    | ⟨0, _⟩ => exact lhs_dot_0 _ _
    | ⟨1, _⟩ => exact (lhs_dot_1 _ _).trans hk)
  have er : dot_S8192x128_S128x2_S8192x2_1_0_0_1_n_n.rhsIdx (ix2 s q) ((ValueIdx.contrEquiv1 dot_S8192x128_S128x2_S8192x2_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ### The body's payloads at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The two logits of a row of a block: the row normalised by the scale and shift rows, times the weights, plus the bias. -/
def blkLogit (x0 : S8192x128.Idx → EReal) (x2 x3 : S1x128.Idx → EReal) (x4 : S128x2.Idx → EReal) (x5 : S1x2.Idx → EReal)
    (s : Fin 8192) (q : Fin 2) : EReal :=
  (∑ j : Fin 128, (x0 (ix2 s j) * x2 (ix2 (0 : Fin 1) j) + x3 (ix2 (0 : Fin 1) j)) * x4 (ix2 j q)) + x5 (ix2 (0 : Fin 1) q)

theorem pay3_apply (x0 : S8192x128.Idx → EReal) (x2 x3 : S1x128.Idx → EReal) (x4 : S128x2.Idx → EReal) (x5 : S1x2.Idx → EReal)
    (s : Fin 8192) (q : Fin 2) :
    k1_pay3 (F := Ideal) x0 x2 x3 x4 x5 (ix2 s q)
      = blkLogit x0 x2 x3 x4 x5 s q
        - (max (blkLogit x0 x2 x3 x4 x5 s 0) (blkLogit x0 x2 x3 x4 x5 s 1)
            + Ideal.log (Ideal.exp (blkLogit x0 x2 x3 x4 x5 s 0 - max (blkLogit x0 x2 x3 x4 x5 s 0) (blkLogit x0 x2 x3 x4 x5 s 1))
                + Ideal.exp (blkLogit x0 x2 x3 x4 x5 s 1 - max (blkLogit x0 x2 x3 x4 x5 s 0) (blkLogit x0 x2 x3 x4 x5 s 1)))) := by
  unfold k1_pay3
  simp only [subf_apply, addf_apply, mulf_apply, exp_apply, log_apply, truncf_apply, extf_apply, shapeCast_self, bcast_col_apply,
    cast_col_apply, rowmax_apply, rowsum_apply, matmul_apply2, broadcastTo_1b_ab_apply]
  rw [rowmax_apply, rowsum_apply]
  simp only [subf_apply, addf_apply, mulf_apply, exp_apply, log_apply, truncf_apply, extf_apply, shapeCast_self, bcast_col_apply,
    cast_col_apply, matmul_apply2, broadcastTo_1b_ab_apply]
  rw [rowmax_apply]
  simp only [subf_apply, addf_apply, mulf_apply, exp_apply, log_apply, truncf_apply, extf_apply, shapeCast_self, bcast_col_apply,
    cast_col_apply, matmul_apply2, broadcastTo_1b_ab_apply]
  rfl

theorem cmpi_apply {s : Shape} {w : ℕ} (p : CmpIPredicate) (x y : IVec s w) (i : s.Idx) : cmpi p x y i = IntOp.cmpi p (x i) (y i) := rfl

/-- The float `1` or `0` a label word gives against the column's number `k`. -/
def ohw (w k : BitVec 32) : EReal := FloatOps.sitofp (F := Ideal) .f32 ((IntOp.cmpi .eq w k).setWidth 32)

theorem pay4_eq (v33 : IVec S8192x1 32) : k1_pay4 (F := Ideal) v33 = v33 := by
  unfold k1_pay4
  exact shapeCast_self _ _

theorem pay5_apply (v33 : IVec S8192x1 32) (s : Fin 8192) : k1_pay5 (F := Ideal) v33 (ix2 s (0 : Fin 1)) = ohw (v33 (ix2 s (0 : Fin 1))) 0#32 := by
  unfold k1_pay5
  rw [pay4_eq]
  rfl

theorem pay2_apply (p : Fin 8) (q : Fin 128) : k1_pay2 (F := Ideal) (ix2 p q) = 0 := by
  unfold k1_pay2
  exact Ideal.ofBits_zero_f32

theorem pay1_apply (v32 : S8192x2.Idx → EReal) (v34 : IVec S8192x1 32) (v38 : S8192x1.Idx → EReal) (v51 : S8x128.Idx → EReal)
    (p : Fin 8) (q : Fin 128) :
    k1_pay1 (F := Ideal) v32 v34 v38 v51 (ix2 p q)
      = v51 (ix2 p q) + ∑ s : Fin 8192, (0 - (v38 (ix2 s (0 : Fin 1)) * v32 (ix2 s 0) + ohw (v34 (ix2 s (0 : Fin 1))) 1#32 * v32 (ix2 s 1))) := by
  unfold k1_pay1
  simp only [addf_apply, shapeCast_self, bcast_one_apply, cast_col_apply]
  rw [colsum_apply]
  refine congrArg (v51 (ix2 p q) + ·) (Finset.sum_congr rfl fun s _ => ?_)
  simp only [subf_apply, broadcast_apply, cast_col_apply]
  rw [rowsum_apply]
  simp only [mulf_apply, concat_left, concat_right]
  rw [show FloatOps.ofBits (F := Ideal) FTy.f32 0x00000000#32 = 0 from Ideal.ofBits_zero_f32]
  rfl

theorem ohw_def (w k : BitVec 32) : ohw w k = (((((IntOp.cmpi .eq w k).setWidth 32).toInt : ℤ) : ℝ) : EReal) := rfl

/-- Against column 0 a label word gives `1` exactly when the label is 0 … -/
theorem ohw_zero (l : Fin 2) : ohw (BitVec.ofNat 32 l.val) 0#32 = if l = 0 then 1 else 0 := by
  have key : ∀ l : Fin 2, ((IntOp.cmpi .eq (BitVec.ofNat 32 l.val) 0#32).setWidth 32).toInt = if l = 0 then 1 else 0 := by decide
  rw [ohw_def, key]
  split <;> simp

/-- … and against column 1 exactly when it is 1. -/
theorem ohw_one (l : Fin 2) : ohw (BitVec.ofNat 32 l.val) 1#32 = if l = 1 then 1 else 0 := by
  have key : ∀ l : Fin 2, ((IntOp.cmpi .eq (BitVec.ofNat 32 l.val) 1#32).setWidth 32).toInt = if l = 1 then 1 else 0 := by decide
  rw [ohw_def, key]
  split <;> simp

/-- What a point's body adds to every entry of the accumulator block, when its blocks hold rows of tile `t` of the arrays
    `H`, `lab` and the whole of `sc`, `sh`, `W2`, `b2`: the sum of the tile's row losses. -/
theorem body_value (H : Fin 65536 → Fin 128 → EReal) (sc sh : Fin 128 → EReal) (W2 : Fin 128 → Fin 2 → EReal) (b2 : Fin 2 → EReal)
    (lab : Fin 65536 → Fin 2) (t : Fin 8)
    (x0 : S8192x128.Idx → EReal) (x1 : IVec S8192x1 32) (x2 x3 : S1x128.Idx → EReal) (x4 : S128x2.Idx → EReal) (x5 : S1x2.Idx → EReal)
    (prev : S8x128.Idx → EReal)
    (h0 : ∀ (s : Fin 8192) (j : Fin 128), x0 (ix2 s j) = H (tileRow t s) j)
    (h1 : ∀ s : Fin 8192, x1 (ix2 s (0 : Fin 1)) = BitVec.ofNat 32 (lab (tileRow t s)).val)
    (h2 : ∀ j : Fin 128, x2 (ix2 (0 : Fin 1) j) = sc j) (h3 : ∀ j : Fin 128, x3 (ix2 (0 : Fin 1) j) = sh j)
    (h4 : ∀ (j : Fin 128) (q : Fin 2), x4 (ix2 j q) = W2 j q) (h5 : ∀ q : Fin 2, x5 (ix2 (0 : Fin 1) q) = b2 q)
    (p : Fin 8) (q : Fin 128) :
    k1_pay1 (F := Ideal) (k1_pay3 (F := Ideal) x0 x2 x3 x4 x5) (k1_pay4 (F := Ideal) x1) (k1_pay5 (F := Ideal) x1) prev (ix2 p q)
      = prev (ix2 p q) + ∑ s : Fin 8192, kerNll (kerLogp (logits (affine H sc sh) W2 b2)) (oneHot lab) (tileRow t s) := by
  rw [pay1_apply]
  refine congrArg (prev (ix2 p q) + ·) (Finset.sum_congr rfl fun s _ => ?_)
  have hl : ∀ q' : Fin 2, blkLogit x0 x2 x3 x4 x5 s q' = logits (affine H sc sh) W2 b2 (tileRow t s) q' := fun q' => by
    unfold blkLogit logits affine
    rw [h5]
    refine congrArg (· + b2 q') (Finset.sum_congr rfl fun j _ => ?_)
    rw [h0, h2, h3, h4]
  rw [pay5_apply, pay4_eq, pay3_apply, pay3_apply, h1 s, ohw_zero, ohw_one, hl 0, hl 1]
  rfl

/-! ## The region's operands -/

-- the TensorCore's buffer contents when the region is entered
variable (V : (c : Dev nD) → (b : Ref sig .tc) → Buf (Elt Ideal) ((c : Thread nD τ).loc b))

/-- The region's operand arrays as it finds them: the hidden array, the label column, the scale and shift rows, the second
    layer's weights and its bias row. -/
abbrev hArr (c : Dev nD) : S65536x128.Idx → EReal := V c (Pipeline.arrRef spec1 0)
abbrev labArr (c : Dev nD) : IVec S65536x1 32 := V c (Pipeline.arrRef spec1 1)
abbrev scArr (c : Dev nD) : S1x128.Idx → EReal := V c (Pipeline.arrRef spec1 2)
abbrev shArr (c : Dev nD) : S1x128.Idx → EReal := V c (Pipeline.arrRef spec1 3)
abbrev w2Arr (c : Dev nD) : S128x2.Idx → EReal := V c (Pipeline.arrRef spec1 4)
abbrev b2Arr (c : Dev nD) : S1x2.Idx → EReal := V c (Pipeline.arrRef spec1 5)

/-- A row's loss from the region's operands, for labels `lab`. -/
def rowLoss (c : Dev nD) (lab : Fin 65536 → Fin 2) : Fin 65536 → EReal :=
  kerNll (kerLogp (logits (affine (fun r j => hArr V c (ix2 r j)) (fun j => scArr V c (ix2 (0 : Fin 1) j))
      (fun j => shArr V c (ix2 (0 : Fin 1) j))) (fun j q => w2Arr V c (ix2 j q)) (fun q => b2Arr V c (ix2 (0 : Fin 1) q))))
    (oneHot lab)

/-! ## The blocks the windows read -/

/-- A grid point as a tile number. -/
def pt (t : Fin cfg1.N) : Fin 8 := ⟨t.val, lt_of_lt_of_eq t.isLt N_1⟩

/-- Each window's block at a point, at its literal type. -/
abbrev hblk (c : Dev nD) (t : Fin cfg1.N) : S8192x128.Idx → EReal := iblk1 V c 0 t
abbrev lblk (c : Dev nD) (t : Fin cfg1.N) : IVec S8192x1 32 := iblk1 V c 1 t
abbrev scblk (c : Dev nD) (t : Fin cfg1.N) : S1x128.Idx → EReal := iblk1 V c 2 t
abbrev shblk (c : Dev nD) (t : Fin cfg1.N) : S1x128.Idx → EReal := iblk1 V c 3 t
abbrev w2blk (c : Dev nD) (t : Fin cfg1.N) : S128x2.Idx → EReal := iblk1 V c 4 t
abbrev b2blk (c : Dev nD) (t : Fin cfg1.N) : S1x2.Idx → EReal := iblk1 V c 5 t

/-- The windows' block indices, decided over the grid: the two per-point windows sit at block `t`, the four whole-array
    windows at block 0, the accumulator at block `t / 4`. -/
theorem idx_facts : ∀ t : Fin cfg1.N, win1_0.index t 0 = t.val ∧ win1_0.index t 1 = 0
    ∧ win1_1.index t 0 = t.val ∧ win1_1.index t 1 = 0
    ∧ win1_2.index t 0 = 0 ∧ win1_2.index t 1 = 0 ∧ win1_3.index t 0 = 0 ∧ win1_3.index t 1 = 0
    ∧ win1_4.index t 0 = 0 ∧ win1_4.index t 1 = 0 ∧ win1_5.index t 0 = 0 ∧ win1_5.index t 1 = 0
    ∧ win1_6.index t 0 = t.val / 4 ∧ win1_6.index t 1 = 0 :=
  (by decide +kernel : ∀ t : Fin grid1.N, _)

theorem hblk_apply (c : Dev nD) (t : Fin cfg1.N) (s : Fin 8192) (j : Fin 128) :
    hblk V c t (ix2 s j) = hArr V c (ix2 (tileRow (pt t) s) j) := by
  have hi := idx_facts t
  show iblk1 V c 0 t (ix2 s j) = _
  unfold iblk1
  rw [View.read_apply]
  show V c (Pipeline.arrRef spec1 0) _ = V c (Pipeline.arrRef spec1 0) _
  congr 1
  funext a
  apply Fin.ext
  match a with
  | ⟨0, _⟩ => show win1_0.index t 0 * 8192 + 1 * s.val = t.val * 8192 + s.val; rw [hi.1]; omega
  | ⟨1, _⟩ => show win1_0.index t 1 * 128 + 1 * j.val = j.val; rw [hi.2.1]; omega

theorem lblk_apply (c : Dev nD) (t : Fin cfg1.N) (s : Fin 8192) :
    lblk V c t (ix2 s (0 : Fin 1)) = labArr V c (ix2 (tileRow (pt t) s) (0 : Fin 1)) := by
  have hi := idx_facts t
  show iblk1 V c 1 t (ix2 s (0 : Fin 1)) = _
  unfold iblk1
  rw [View.read_apply]
  show V c (Pipeline.arrRef spec1 1) _ = V c (Pipeline.arrRef spec1 1) _
  congr 1
  funext a
  apply Fin.ext
  match a with
  | ⟨0, _⟩ => show win1_1.index t 0 * 8192 + 1 * s.val = t.val * 8192 + s.val; rw [hi.2.2.1]; omega
  | ⟨1, _⟩ => show win1_1.index t 1 * 1 + 1 * 0 = 0; rw [hi.2.2.2.1]

theorem scblk_apply (c : Dev nD) (t : Fin cfg1.N) (j : Fin 128) :
    scblk V c t (ix2 (0 : Fin 1) j) = scArr V c (ix2 (0 : Fin 1) j) := by
  have hi := idx_facts t
  show iblk1 V c 2 t (ix2 (0 : Fin 1) j) = _
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * 0 = 0; rw [hi.2.2.2.2.1]
  | ⟨1, _⟩ => show win1_2.index t 1 * 128 + 1 * j.val = j.val; rw [hi.2.2.2.2.2.1]; omega

theorem shblk_apply (c : Dev nD) (t : Fin cfg1.N) (j : Fin 128) :
    shblk V c t (ix2 (0 : Fin 1) j) = shArr V c (ix2 (0 : Fin 1) j) := by
  have hi := idx_facts t
  show iblk1 V c 3 t (ix2 (0 : Fin 1) j) = _
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * 0 = 0; rw [hi.2.2.2.2.2.2.1]
  | ⟨1, _⟩ => show win1_3.index t 1 * 128 + 1 * j.val = j.val; rw [hi.2.2.2.2.2.2.2.1]; omega

theorem w2blk_apply (c : Dev nD) (t : Fin cfg1.N) (j : Fin 128) (q : Fin 2) :
    w2blk V c t (ix2 j q) = w2Arr V c (ix2 j q) := by
  have hi := idx_facts t
  show iblk1 V c 4 t (ix2 j q) = _
  unfold iblk1
  rw [View.read_apply]
  show V c (Pipeline.arrRef spec1 4) _ = V c (Pipeline.arrRef spec1 4) _
  congr 1
  funext a
  apply Fin.ext
  match a with
  | ⟨0, _⟩ => show win1_4.index t 0 * 128 + 1 * j.val = j.val; rw [hi.2.2.2.2.2.2.2.2.1]; omega
  | ⟨1, _⟩ => show win1_4.index t 1 * 2 + 1 * q.val = q.val; rw [hi.2.2.2.2.2.2.2.2.2.1]; omega

theorem b2blk_apply (c : Dev nD) (t : Fin cfg1.N) (q : Fin 2) :
    b2blk V c t (ix2 (0 : Fin 1) q) = b2Arr V c (ix2 (0 : Fin 1) q) := by
  have hi := idx_facts t
  show iblk1 V c 5 t (ix2 (0 : Fin 1) q) = _
  unfold iblk1
  rw [View.read_apply]
  show V c (Pipeline.arrRef spec1 5) _ = V c (Pipeline.arrRef spec1 5) _
  congr 1
  funext a
  apply Fin.ext
  match a with
  | ⟨0, _⟩ => show win1_5.index t 0 * 1 + 1 * 0 = 0; rw [hi.2.2.2.2.2.2.2.2.2.2.1]
  | ⟨1, _⟩ => show win1_5.index t 1 * 2 + 1 * q.val = q.val; rw [hi.2.2.2.2.2.2.2.2.2.2.2.1]; omega

/-! ## The points -/

/-- The sum of the row losses over tile `t`. -/
def tileLoss (c : Dev nD) (lab : Fin 65536 → Fin 2) (t : Fin 8) : EReal := ∑ s : Fin 8192, rowLoss V c lab (tileRow t s)

/-- What the body at point `t` makes of an accumulator block `prev`: every entry plus the tile's loss. -/
theorem point_value (c : Dev nD) (lab : Fin 65536 → Fin 2)
    (hlab : ∀ r : Fin 65536, labArr V c (ix2 r (0 : Fin 1)) = BitVec.ofNat 32 (lab r).val)
    (t : Fin cfg1.N) (prev : S8x128.Idx → EReal) (p : Fin 8) (q : Fin 128) :
    k1_pay1 (F := Ideal) (k1_pay3 (F := Ideal) (hblk V c t) (scblk V c t) (shblk V c t) (w2blk V c t) (b2blk V c t))
        (k1_pay4 (F := Ideal) (lblk V c t)) (k1_pay5 (F := Ideal) (lblk V c t)) prev (ix2 p q)
      = prev (ix2 p q) + tileLoss V c lab (pt t) :=
  body_value (fun r j => hArr V c (ix2 r j)) (fun j => scArr V c (ix2 (0 : Fin 1) j)) (fun j => shArr V c (ix2 (0 : Fin 1) j))
    (fun j q => w2Arr V c (ix2 j q)) (fun q => b2Arr V c (ix2 (0 : Fin 1) q)) lab (pt t)
    (hblk V c t) (lblk V c t) (scblk V c t) (shblk V c t) (w2blk V c t) (b2blk V c t) prev
    (hblk_apply V c t) (fun s => (lblk_apply V c t s).trans (hlab _)) (scblk_apply V c t) (shblk_apply V c t)
    (w2blk_apply V c t) (b2blk_apply V c t) p q

/-- At a point that resets, every entry of the accumulator block is left at zero plus the tile's loss. -/
theorem step_A (c : Dev nD) (lab : Fin 65536 → Fin 2)
    (hlab : ∀ r : Fin 65536, labArr V c (ix2 r (0 : Fin 1)) = BitVec.ofNat 32 (lab r).val)
    (t : Fin cfg1.N) (h0 : t.val % 4 = 0) (p : Fin 8) (q : Fin 128) :
    outsAt1 V c t.val t.isLt (ix2 p q) = 0 + tileLoss V c lab (pt t) := by
  rw [outsAt1_A V c t h0]
  refine (congrFun (out_A (F := Ideal) c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) ((hcond1_0 t).mpr h0) (iblk1 V c 0 t) (iblk1 V c 1 t) (iblk1 V c 2 t)
    (iblk1 V c 3 t) (iblk1 V c 4 t) (iblk1 V c 5 t)) (ix2 p q)).trans ?_
  refine (point_value V c lab hlab t (k1_pay2 (F := Ideal)) p q).trans ?_
  rw [pay2_apply]

/-- At any other point, every entry is what the point before left plus the tile's loss. -/
theorem step_B (c : Dev nD) (lab : Fin 65536 → Fin 2)
    (hlab : ∀ r : Fin 65536, labArr V c (ix2 r (0 : Fin 1)) = BitVec.ofNat 32 (lab r).val)
    (t : Fin cfg1.N) (h0 : ¬t.val % 4 = 0) (p : Fin 8) (q : Fin 128) :
    outsAt1 V c t.val t.isLt (ix2 p q)
      = outsAt1 V c (t.val - 1) (Nat.lt_of_le_of_lt (Nat.sub_le _ _) t.isLt) (ix2 p q) + tileLoss V c lab (pt t) := by
  rw [outsAt1_B V c t h0]
  refine (congrFun (out_B (F := Ideal) c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (fun h => h0 ((hcond1_0 t).mp h)) (iblk1 V c 0 t) (iblk1 V c 1 t) (iblk1 V c 2 t)
    (iblk1 V c 3 t) (iblk1 V c 4 t) (iblk1 V c 5 t) (outsAt1 V c (t.val - 1) (Nat.lt_of_le_of_lt (Nat.sub_le _ _) t.isLt))) (ix2 p q)).trans ?_
  exact point_value V c lab hlab t (outsAt1 V c (t.val - 1) (Nat.lt_of_le_of_lt (Nat.sub_le _ _) t.isLt)) p q

/-- After the fourth point of a half of the grid, every entry of the accumulator block holds zero plus the four tile losses in order. -/
theorem last_value (c : Dev nD) (lab : Fin 65536 → Fin 2)
    (hlab : ∀ r : Fin 65536, labArr V c (ix2 r (0 : Fin 1)) = BitVec.ofNat 32 (lab r).val)
    (n : ℕ) (hn : n % 4 = 0) (h : n + 3 < cfg1.N) (p : Fin 8) (q : Fin 128) :
    outsAt1 V c (n + 3) h (ix2 p q)
      = (((0 + tileLoss V c lab ⟨n, by have := lt_of_lt_of_eq h N_1; omega⟩) + tileLoss V c lab ⟨n + 1, by have := lt_of_lt_of_eq h N_1; omega⟩)
          + tileLoss V c lab ⟨n + 2, by have := lt_of_lt_of_eq h N_1; omega⟩) + tileLoss V c lab ⟨n + 3, by have := lt_of_lt_of_eq h N_1; omega⟩ := by
  have e3 := step_B V c lab hlab ⟨n + 3, h⟩ (by show ¬(n + 3) % 4 = 0; omega) p q
  have e2 := step_B V c lab hlab ⟨n + 2, by omega⟩ (by show ¬(n + 2) % 4 = 0; omega) p q
  have e1 := step_B V c lab hlab ⟨n + 1, by omega⟩ (by show ¬(n + 1) % 4 = 0; omega) p q
  have e0 := step_A V c lab hlab ⟨n, by omega⟩ hn p q
  exact e3.trans (congrArg (· + _) (e2.trans (congrArg (· + _) (e1.trans (congrArg (· + _) e0)))))

/-- The sum of the four tile losses of half `h` of the batch. -/
def halfLoss (c : Dev nD) (lab : Fin 65536 → Fin 2) (h : Fin 2) : EReal :=
  ∑ k : Fin 4, tileLoss V c lab ⟨4 * h.val + k.val, by have := h.isLt; have := k.isLt; omega⟩

/-- At a point that writes the accumulator back (the fourth of its half), every entry holds the half's loss. -/
theorem flush_value (c : Dev nD) (lab : Fin 65536 → Fin 2)
    (hlab : ∀ r : Fin 65536, labArr V c (ix2 r (0 : Fin 1)) = BitVec.ofNat 32 (lab r).val)
    (m : ℕ) (hm : m < cfg1.N) (h3 : m % 4 = 3) (p : Fin 8) (q : Fin 128) :
    outsAt1 V c m hm (ix2 p q) = halfLoss V c lab ⟨m / 4, by have := lt_of_lt_of_eq hm N_1; omega⟩ := by
  have hN : cfg1.N = 8 := N_1
  have h37 : m = 3 ∨ m = 7 := by omega
  rcases h37 with rfl | rfl
  · refine (last_value V c lab hlab 0 rfl hm p q).trans ?_
    unfold halfLoss
    rw [Fin.sum_univ_four, zero_add]
    rfl
  · refine (last_value V c lab hlab 4 rfl hm p q).trans ?_
    unfold halfLoss
    rw [Fin.sum_univ_four, zero_add]
    rfl

/-! ## The result array -/

/-- What the 16 × 128 array ends holding: at row `ρ`, whatever the lane, the loss of half `ρ / 8` of the batch. -/
def G (c : Dev nD) (lab : Fin 65536 → Fin 2) : S16x128.Idx → EReal :=
  fun i => halfLoss V c lab ⟨(i 0).val / 8, by have := idx2_lt0 i; omega⟩

/-- What a writing-back point writes is its block of `G`. -/
theorem flushed_eq (c : Dev nD) (lab : Fin 65536 → Fin 2)
    (hlab : ∀ r : Fin 65536, labArr V c (ix2 r (0 : Fin 1)) = BitVec.ofNat 32 (lab r).val)
    (t : Fin cfg1.N) (hf : (cfg1.win 6).flush t = true) :
    (dat1 V c).flushed 6 t = ((cfg1.win 6).blk t).view.read (Elt Ideal) (G V c lab) := by
  have h3 : t.val % 4 = 3 := (flush1_6 t).mp hf
  have hi := idx_facts t
  show (cfg1.win 6).cut (grid1.coords t) ((dat1 V c).after 6 t) = _
  rw [after1_6]
  funext y
  obtain ⟨p, q, rfl⟩ : ∃ (p : Fin 8) (q : Fin 128), y = ix2 p q := ⟨y 0, y 1, eq_ix2 y⟩
  rw [View.read_apply]
  show outsAt1 V c t.val t.isLt (ix2 p q) = G V c lab (((cfg1.win 6).blk t).view.emb (ix2 p q))
  rw [flush_value V c lab hlab t.val t.isLt h3 p q]
  unfold G
  refine congrArg (halfLoss V c lab) (Fin.ext ?_)
  show t.val / 4 = (win1_6.index t 0 * 8 + 1 * p.val) / 8
  rw [hi.2.2.2.2.2.2.2.2.2.2.2.2.1]
  omega

/-- An index of the array is in point `t`'s block iff each coordinate is in the block's range on its axis. -/
theorem mem_blk (t : Fin cfg1.N) (i : S16x128.Idx) :
    i ∈ ((cfg1.win 6).blk t).view.set
      ↔ ∀ a : Fin 2, win1_6.index t a * S8x128.size a ≤ (i a).val ∧ (i a).val < win1_6.index t a * S8x128.size a + S8x128.size a := by
  show i ∈ ((View.whole main_v46).slice (win1_6.rect t)).set ↔ _
  rw [View.set_slice_whole, Rect.mem_set_unit]
  exact Iff.rfl

/-- Every row of the array lies in the block of the last point of its half. -/
theorem cover (i : S16x128.Idx) : ∃ t : Fin cfg1.N, (cfg1.win 6).flush t = true ∧ i ∈ ((cfg1.win 6).blk t).view.set := by
  have hN : cfg1.N = 8 := N_1
  have hi0 : (i 0).val < 16 := idx2_lt0 i
  have hi1 : (i 1).val < 128 := idx2_lt1 i
  have ht : 4 * ((i 0).val / 8) + 3 < cfg1.N := by omega
  obtain ⟨-, -, -, -, -, -, -, -, -, -, -, -, e0, e1⟩ := idx_facts ⟨4 * ((i 0).val / 8) + 3, ht⟩
  refine ⟨⟨4 * ((i 0).val / 8) + 3, ht⟩, (flush1_6 _).mpr (by show (4 * ((i 0).val / 8) + 3) % 4 = 3; omega), ?_⟩
  rw [mem_blk]
  intro a
  match a with
  | ⟨0, _⟩ =>
    show win1_6.index ⟨4 * ((i 0).val / 8) + 3, ht⟩ 0 * 8 ≤ (i 0).val ∧ (i 0).val < win1_6.index ⟨4 * ((i 0).val / 8) + 3, ht⟩ 0 * 8 + 8
    rw [e0]
    show (4 * ((i 0).val / 8) + 3) / 4 * 8 ≤ (i 0).val ∧ (i 0).val < (4 * ((i 0).val / 8) + 3) / 4 * 8 + 8
    omega
  | ⟨1, _⟩ =>
    show win1_6.index ⟨4 * ((i 0).val / 8) + 3, ht⟩ 1 * 128 ≤ (i 1).val ∧ (i 1).val < win1_6.index ⟨4 * ((i 0).val / 8) + 3, ht⟩ 1 * 128 + 128
    rw [e1]
    omega

/-- With every label word 0 or 1 (`lab r` its value in Fin 2), every entry of row `ρ` of the region's 16 × 128 result
    holds the sum of the row losses over the four tiles of its half of the batch. -/
theorem region1_value (c : Dev nD) (lab : Fin 65536 → Fin 2)
    (hlab : ∀ r : Fin 65536, labArr V c (ix2 r (0 : Fin 1)) = BitVec.ofNat 32 (lab r).val)
    (ρ : Fin 16) (col : Fin 128) :
    (dat1 (F := Ideal) V c).arrAt 6 cfg1.N (ix2 ρ col)
      = ∑ i : Fin 4, ∑ s : Fin 8192,
          rowLoss V c lab (tileRow ⟨4 * (ρ.val / 8) + i.val, by have := ρ.isLt; have := i.isLt; omega⟩ s) := by
  have hfin : (dat1 (F := Ideal) V c).arrAt 6 cfg1.N = G V c lab :=
    (dat1 V c).arrAt_eq_of_cover 6 (G V c lab) (fun t hf => flushed_eq V c lab hlab t hf) cover
  rw [hfin]
  rfl

end Cert.KernelIdeal.Region1

end
-- ==== Proof.KHostPre.lean ====
/-
  The host operations before the first region, read as values: the two row gathers (kept as they are: the reference
  applies the same operations to the same inputs), the two halves of the first layer's weights (slices of rows [0, 128) and
  [128, 256)), and the bias, second bias and label vectors reshaped to a row, a row and a column.
-/
import proofs.«402825_j60026462929136_3_alg».proof.Proof.KernelIdealLaunch
import proofs.«402825_j60026462929136_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx NodeEdgeLoss

namespace Cert.KernelIdeal.HostValue

open Cert.KernelIdeal Cert.KernelIdeal.Gen

-- the TensorCore's buffer contents before the stretch of host operations
variable (W : Valuation τ sig (Elt Ideal))

/-- The gathered node features: rows of the node table at the indices, a negative index counted from the end. -/
def gatherN (x0 : S100000x128.Idx → EReal) (x2 : IVec S65536 32) : S65536x128.Idx → EReal :=
  Host.gather gather_S100000x128_S65536x1_S65536x128_1_0_n_n_0_1_1128 x0
    (broadcastInDim S65536x1 ![0] bcast_S65536_S65536x1_0
      (select (cmpi .slt x2 (broadcastInDim S65536 ![] bcast_S_S65536 (constantI S_ 32 0#32)))
        (addi x2 (broadcastInDim S65536 ![] bcast_S_S65536 (constantI S_ 32 100000#32))) x2))

/-- The gathered edge features. -/
def gatherE (x1 : S50000x128.Idx → EReal) (x3 : IVec S65536 32) : S65536x128.Idx → EReal :=
  Host.gather gather_S50000x128_S65536x1_S65536x128_1_0_n_n_0_1_1128 x1
    (broadcastInDim S65536x1 ![0] bcast_S65536_S65536x1_0
      (select (cmpi .slt x3 (broadcastInDim S65536 ![] bcast_S_S65536 (constantI S_ 32 0#32)))
        (addi x3 (broadcastInDim S65536 ![] bcast_S_S65536 (constantI S_ 32 50000#32))) x3))

/-- The argument arrays as the stretch finds them. -/
abbrev nodeArr : S100000x128.Idx → EReal := W (Proc.devRef .tc main_arg0)
abbrev edgeArr : S50000x128.Idx → EReal := W (Proc.devRef .tc main_arg1)
abbrev nodeIdx : IVec S65536 32 := W (Proc.devRef .tc main_arg2)
abbrev edgeIdx : IVec S65536 32 := W (Proc.devRef .tc main_arg3)
abbrev labVec : IVec S65536 32 := W (Proc.devRef .tc main_arg4)
abbrev w1Arr : S256x128.Idx → EReal := W (Proc.devRef .tc main_arg5)
abbrev b1Arr : S128.Idx → EReal := W (Proc.devRef .tc main_arg6)
abbrev b2Arr : S2.Idx → EReal := W (Proc.devRef .tc main_arg10)

theorem pre_v6 : (StableHlo.after hostOps0 W (Proc.devRef .tc main_v6) : S65536x128.Idx → EReal)
    = gatherN (nodeArr W) (nodeIdx W) := by
  after_results
  rfl

theorem pre_v13 : (StableHlo.after hostOps0 W (Proc.devRef .tc main_v13) : S65536x128.Idx → EReal)
    = gatherE (edgeArr W) (edgeIdx W) := by
  after_results
  rfl

/-- The upper half of the weights: rows [0, 128). -/
theorem pre_v14 (k j : Fin 128) : (StableHlo.after hostOps0 W (Proc.devRef .tc main_v14) : S128x128.Idx → EReal) (ix2 k j)
    = w1Arr W (ix2 (⟨k.val, by have := k.isLt; omega⟩ : Fin 256) j) := by
  have e : (StableHlo.after hostOps0 W (Proc.devRef .tc main_v14) : S128x128.Idx → EReal)
      = extractStridedSlice S128x128 ![0, 0] (w1Arr W) slices_S256x128_S128x128_0_0 := by
    after_results
  refine (congrFun e (ix2 k j)).trans ?_
  unfold extractStridedSlice
  congr 1
  funext a
  apply Fin.ext
  match a with
  | ⟨0, _⟩ => show 0 + k.val = k.val; omega
  | ⟨1, _⟩ => show 0 + j.val = j.val; omega

/-- The lower half of the weights: rows [128, 256). -/
theorem pre_v15 (k j : Fin 128) : (StableHlo.after hostOps0 W (Proc.devRef .tc main_v15) : S128x128.Idx → EReal) (ix2 k j)
    = w1Arr W (ix2 (⟨128 + k.val, by have := k.isLt; omega⟩ : Fin 256) j) := by
  have e : (StableHlo.after hostOps0 W (Proc.devRef .tc main_v15) : S128x128.Idx → EReal)
      = extractStridedSlice S128x128 ![128, 0] (w1Arr W) slices_S256x128_S128x128_128_0 := by
    after_results
  refine (congrFun e (ix2 k j)).trans ?_
  unfold extractStridedSlice
  congr 1
  funext a
  apply Fin.ext
  match a with
  | ⟨0, _⟩ => rfl
  | ⟨1, _⟩ => show 0 + j.val = j.val; omega

theorem pre_v16 (j : Fin 128) : (StableHlo.after hostOps0 W (Proc.devRef .tc main_v16) : S1x128.Idx → EReal) (ix2 (0 : Fin 1) j)
    = b1Arr W (ix1 j) := by
  have e : (StableHlo.after hostOps0 W (Proc.devRef .tc main_v16) : S1x128.Idx → EReal)
      = shapeCast S1x128 (b1Arr W) shapeCasts_S128_S1x128 := by
    after_results
    rfl
  refine (congrFun e (ix2 (0 : Fin 1) j)).trans ?_
  exact shapeCast_a_1a_apply (b1Arr W) shapeCasts_S128_S1x128 (0 : Fin 1) j

theorem pre_v17 (q : Fin 2) : (StableHlo.after hostOps0 W (Proc.devRef .tc main_v17) : S1x2.Idx → EReal) (ix2 (0 : Fin 1) q)
    = b2Arr W (ix1 q) := by
  have e : (StableHlo.after hostOps0 W (Proc.devRef .tc main_v17) : S1x2.Idx → EReal)
      = shapeCast S1x2 (b2Arr W) shapeCasts_S2_S1x2 := by
    after_results
    rfl
  refine (congrFun e (ix2 (0 : Fin 1) q)).trans ?_
  exact shapeCast_a_1a_apply (b2Arr W) shapeCasts_S2_S1x2 (0 : Fin 1) q

theorem pre_v18 (r : Fin 65536) : (StableHlo.after hostOps0 W (Proc.devRef .tc main_v18) : IVec S65536x1 32) (ix2 r (0 : Fin 1))
    = labVec W (ix1 r) := by
  have e : (StableHlo.after hostOps0 W (Proc.devRef .tc main_v18) : IVec S65536x1 32)
      = shapeCast S65536x1 (labVec W) shapeCasts_S65536_S65536x1 := by
    after_results
    rfl
  refine (congrFun e (ix2 r (0 : Fin 1))).trans ?_
  refine shapeCast_apply (labVec W) shapeCasts_S65536_S65536x1 (ix2 r (0 : Fin 1)) (ix1 r) ?_
  rw [Shape.rowMajor_val_one, Shape.rowMajor_val_two]
  show r.val = r.val * 1 + 0
  omega

/-- The stretch writes none of the arguments. -/
theorem pre_arg7 : StableHlo.after hostOps0 W (Proc.devRef .tc main_arg7) = W (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem pre_arg8 : StableHlo.after hostOps0 W (Proc.devRef .tc main_arg8) = W (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem pre_arg9 : StableHlo.after hostOps0 W (Proc.devRef .tc main_arg9) = W (Proc.devRef .tc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.HostValue

end
-- ==== Proof.KHostStats.lean ====
/-
  The host operations between the two regions, read as values: from rows 0 and 8 of the two 16 × 128 arrays of partial
  sums (the two cores' totals) the column means, the variances as mean of squares minus squared mean, and the
  normalisation's scale γ · rsqrt (var + ε) and shift β - mean · scale, as 1 × 128 rows.
-/
import proofs.«402825_j60026462929136_3_alg».proof.Proof.KernelIdealLaunch
import proofs.«402825_j60026462929136_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx NodeEdgeLoss

namespace Cert.KernelIdeal.HostValue

open Cert.KernelIdeal Cert.KernelIdeal.Gen

-- the TensorCore's buffer contents before the stretch of host operations
variable (W : Valuation τ sig (Elt Ideal))

/-- The two arrays of partial sums and the two parameter vectors as the stretch finds them. -/
abbrev sumArr : S16x128.Idx → EReal := W (Proc.devRef .tc main_v19_1)
abbrev sqArr : S16x128.Idx → EReal := W (Proc.devRef .tc main_v19_2)
abbrev gammaArr : S128.Idx → EReal := W (Proc.devRef .tc main_arg7)
abbrev betaArr : S128.Idx → EReal := W (Proc.devRef .tc main_arg8)

/-- The two cores' totals of a 16 × 128 array of partial sums, column `j`. -/
def coreTotal (S : S16x128.Idx → EReal) (j : Fin 128) : EReal := S (ix2 (0 : Fin 16) j) + S (ix2 (8 : Fin 16) j)

/-- The column mean, the variance, the scale and the shift from the two arrays of partial sums. -/
def meanOf (S1 : S16x128.Idx → EReal) (j : Fin 128) : EReal := Ideal.div (coreTotal S1 j) cB
def varOf (S1 S2 : S16x128.Idx → EReal) (j : Fin 128) : EReal := Ideal.div (coreTotal S2 j) cB - meanOf S1 j * meanOf S1 j
def scaleOf (S1 S2 : S16x128.Idx → EReal) (g : S128.Idx → EReal) (j : Fin 128) : EReal :=
  g (ix1 j) * Ideal.rsqrt (varOf S1 S2 j + cEps)
def shiftOf (S1 S2 : S16x128.Idx → EReal) (g b : S128.Idx → EReal) (j : Fin 128) : EReal :=
  b (ix1 j) - meanOf S1 j * scaleOf S1 S2 g j

/-! ## The stretch's results as closed terms of its four operands -/

/-- Row 0 plus row 8 of a 16 × 128 array, formed as the stretch forms it: each row is cut out as a 1 × 128 array and
    flattened to a 128-vector, the two vectors are added, and the sum is put back as a 1 × 128 row. -/
def totRow (S : S16x128.Idx → EReal) : S1x128.Idx → EReal :=
  shapeCast S1x128
    (addf (F := Ideal) (s := S128) (φ := .f32)
      (shapeCast S128 (extractStridedSlice S1x128 ![0, 0] S slices_S16x128_S1x128_0_0) shapeCasts_S1x128_S128)
      (shapeCast S128 (extractStridedSlice S1x128 ![8, 0] S slices_S16x128_S1x128_8_0) shapeCasts_S1x128_S128))
    shapeCasts_S128_S1x128

/-- That row divided, entry by entry, by the constant row 65536.0. -/
def meanRow (S : S16x128.Idx → EReal) : S1x128.Idx → EReal :=
  Host.divf (F := Ideal) (s := S1x128) (φ := .f32) (totRow S)
    (broadcastInDim S1x128 ![] bcast_S_S1x128 (constant (F := Ideal) S_ .f32 0x47800000#32))

/-- γ as a row times rsqrt (mean of squares - mean² + ε). -/
def scaleRow (S1 S2 : S16x128.Idx → EReal) (g : S128.Idx → EReal) : S1x128.Idx → EReal :=
  mulf (F := Ideal) (s := S1x128) (φ := .f32) (shapeCast S1x128 g shapeCasts_S128_S1x128)
    (Host.rsqrt (F := Ideal) (s := S1x128) (φ := .f32)
      (addf (F := Ideal) (s := S1x128) (φ := .f32)
        (subf (F := Ideal) (s := S1x128) (φ := .f32) (meanRow S2)
          (mulf (F := Ideal) (s := S1x128) (φ := .f32) (meanRow S1) (meanRow S1)))
        (broadcastInDim S1x128 ![] bcast_S_S1x128 (constant (F := Ideal) S_ .f32 0x3727C5AC#32))))

/-- β as a row minus mean · scale. -/
def shiftRow (S1 S2 : S16x128.Idx → EReal) (g b : S128.Idx → EReal) : S1x128.Idx → EReal :=
  subf (F := Ideal) (s := S1x128) (φ := .f32) (shapeCast S1x128 b shapeCasts_S128_S1x128)
    (mulf (F := Ideal) (s := S1x128) (φ := .f32) (meanRow S1) (scaleRow S1 S2 g))

/-- What the stretch leaves in the scale's buffer, as a term of the four operands. -/
theorem after_scale : (StableHlo.after hostOps1 W (Proc.devRef .tc main_v42) : S1x128.Idx → EReal)
    = scaleRow (sumArr W) (sqArr W) (gammaArr W) := by
  after_results_simp
  rfl

/-- What the stretch leaves in the shift's buffer, as a term of the four operands. -/
theorem after_shift : (StableHlo.after hostOps1 W (Proc.devRef .tc main_v45) : S1x128.Idx → EReal)
    = shiftRow (sumArr W) (sqArr W) (gammaArr W) (betaArr W) := by
  after_results_simp
  rfl

/-! ## The closed terms read at column j -/

/-- Column j of the summed row is entry (0, j) plus entry (8, j): a flattened one-row slice read at j is the array at
    (offset + 0, j), and a row put back as 1 × 128 reads at (0, j) what the vector has at j. -/
theorem totRow_apply (S : S16x128.Idx → EReal) (j : Fin 128) : totRow S (ix2 (0 : Fin 1) j) = coreTotal S j := by
  unfold totRow
  rw [shapeCast_a_1a_apply]
  show shapeCast S128 (extractStridedSlice S1x128 ![0, 0] S _) _ (ix1 j)
      + shapeCast S128 (extractStridedSlice S1x128 ![8, 0] S _) _ (ix1 j) = _
  rw [shapeCast_1a_a_apply, shapeCast_1a_a_apply, slice2_axis0_eq, slice2_axis0_eq]
  rfl

/-- Column j of the mean row: the column's total divided by 65536.0. -/
theorem meanRow_apply (S : S16x128.Idx → EReal) (j : Fin 128) : meanRow S (ix2 (0 : Fin 1) j) = meanOf S j := by
  show Ideal.div (totRow S (ix2 (0 : Fin 1) j)) cB = _
  rw [totRow_apply]
  rfl

/-- Column j of the scale row. -/
theorem scaleRow_apply (S1 S2 : S16x128.Idx → EReal) (g : S128.Idx → EReal) (j : Fin 128) :
    scaleRow S1 S2 g (ix2 (0 : Fin 1) j) = scaleOf S1 S2 g j := by
  show shapeCast S1x128 g shapeCasts_S128_S1x128 (ix2 (0 : Fin 1) j)
      * Ideal.rsqrt ((meanRow S2 (ix2 (0 : Fin 1) j) - meanRow S1 (ix2 (0 : Fin 1) j) * meanRow S1 (ix2 (0 : Fin 1) j)) + cEps) = _
  rw [shapeCast_a_1a_apply, meanRow_apply, meanRow_apply]
  rfl

/-- Column j of the shift row. -/
theorem shiftRow_apply (S1 S2 : S16x128.Idx → EReal) (g b : S128.Idx → EReal) (j : Fin 128) :
    shiftRow S1 S2 g b (ix2 (0 : Fin 1) j) = shiftOf S1 S2 g b j := by
  show shapeCast S1x128 b shapeCasts_S128_S1x128 (ix2 (0 : Fin 1) j)
      - meanRow S1 (ix2 (0 : Fin 1) j) * scaleRow S1 S2 g (ix2 (0 : Fin 1) j) = _
  rw [shapeCast_a_1a_apply, meanRow_apply, scaleRow_apply]
  rfl

theorem stats_scale (j : Fin 128) : (StableHlo.after hostOps1 W (Proc.devRef .tc main_v42) : S1x128.Idx → EReal) (ix2 (0 : Fin 1) j)
    = scaleOf (sumArr W) (sqArr W) (gammaArr W) j :=
  (congrFun (after_scale W) (ix2 (0 : Fin 1) j)).trans (scaleRow_apply _ _ _ j)

theorem stats_shift (j : Fin 128) : (StableHlo.after hostOps1 W (Proc.devRef .tc main_v45) : S1x128.Idx → EReal) (ix2 (0 : Fin 1) j)
    = shiftOf (sumArr W) (sqArr W) (gammaArr W) (betaArr W) j :=
  (congrFun (after_shift W) (ix2 (0 : Fin 1) j)).trans (shiftRow_apply _ _ _ _ j)

/-- A buffer is kept when it is none of the result buffers of the stretch's operations: each operation writes its one
    result buffer only, and distinct references are distinct buffers. -/
local macro "stretch_keeps" : tactic => `(tactic| (
  refine StableHlo.after_of_forall_not_mem _ _ (List.forall_iff_forall_mem.mp ?_)
  simp only [hostOps1, List.Forall, StableHlo.nullary_writes, StableHlo.unary_writes, StableHlo.binary_writes,
    StableHlo.reshape_writes, Finset.mem_singleton]
  repeat' apply And.intro
  all_goals exact StableHlo.devRef_ne_of_ne (by decide)))

/-- The stretch writes neither the hidden array nor the label column, the second bias row or the second layer's weights. -/
theorem stats_v19_0 : StableHlo.after hostOps1 W (Proc.devRef .tc main_v19_0) = W (Proc.devRef .tc main_v19_0) := by
  stretch_keeps
theorem stats_v18 : StableHlo.after hostOps1 W (Proc.devRef .tc main_v18) = W (Proc.devRef .tc main_v18) := by
  stretch_keeps
theorem stats_v17 : StableHlo.after hostOps1 W (Proc.devRef .tc main_v17) = W (Proc.devRef .tc main_v17) := by
  stretch_keeps
theorem stats_arg9 : StableHlo.after hostOps1 W (Proc.devRef .tc main_arg9) = W (Proc.devRef .tc main_arg9) := by
  stretch_keeps

end Cert.KernelIdeal.HostValue

end
-- ==== Proof.KHostPost.lean ====
/-
  The host operations after the second region, read as values: entries (0, 0) and (8, 0) of the 16 × 128 array of the
  two cores' loss totals, added and divided by the batch size.
-/
import proofs.«402825_j60026462929136_3_alg».proof.Proof.KernelIdealLaunch
import proofs.«402825_j60026462929136_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx NodeEdgeLoss

namespace Cert.KernelIdeal.HostValue

open Cert.KernelIdeal Cert.KernelIdeal.Gen

-- the TensorCore's buffer contents before the stretch of host operations
variable (W : Valuation τ sig (Elt Ideal))

/-- The 16 × 128 array of loss totals as the stretch finds it. -/
abbrev lossArr : S16x128.Idx → EReal := W (Proc.devRef .tc main_v46)

theorem post_v52 : (StableHlo.after hostOps2 W (Proc.devRef .tc main_v52) : S_.Idx → EReal)
    = fun _ => Ideal.div (lossArr W (ix2 (0 : Fin 16) (0 : Fin 128)) + lossArr W (ix2 (8 : Fin 16) (0 : Fin 128))) cB := by
  have e : (StableHlo.after hostOps2 W (Proc.devRef .tc main_v52) : S_.Idx → EReal)
      = Host.divf (F := Ideal)
          (addf (shapeCast S_ (extractStridedSlice S1x1 ![0, 0] (lossArr W) slices_S16x128_S1x1_0_0) shapeCasts_S1x1_S_)
            (shapeCast S_ (extractStridedSlice S1x1 ![8, 0] (lossArr W) slices_S16x128_S1x1_8_0) shapeCasts_S1x1_S_))
          (constant S_ .f32 0x47800000#32) := by
    after_results
    rfl
  refine e.trans ?_
  funext i
  -- the one entry of a 1 × 1 array, viewed as a scalar, is its entry (0, 0)
  have hcast : ∀ x : S1x1.Idx → EReal, shapeCast S_ x shapeCasts_S1x1_S_ i = x (ix2 (0 : Fin 1) (0 : Fin 1)) := by
    intro x
    refine shapeCast_apply x shapeCasts_S1x1_S_ i (ix2 (0 : Fin 1) (0 : Fin 1)) ?_
    have hn : S_.numel = 1 := by decide
    have hlt := (S_.rowMajor i).isLt
    rw [Shape.rowMajor_val_two]
    show 0 * 1 + 0 = (S_.rowMajor i).val
    omega
  -- the slice at (0, 0) of width 1 × 1 reads the array at (0, 0), the slice at (8, 0) reads it at (8, 0)
  have hs0 : extractStridedSlice S1x1 ![0, 0] (lossArr W) slices_S16x128_S1x1_0_0 (ix2 (0 : Fin 1) (0 : Fin 1))
      = lossArr W (ix2 (0 : Fin 16) (0 : Fin 128)) := by
    unfold extractStridedSlice
    congr 1
    funext a
    apply Fin.ext
    match a with
    | ⟨0, _⟩ => rfl
    | ⟨1, _⟩ => rfl
  have hs8 : extractStridedSlice S1x1 ![8, 0] (lossArr W) slices_S16x128_S1x1_8_0 (ix2 (0 : Fin 1) (0 : Fin 1))
      = lossArr W (ix2 (8 : Fin 16) (0 : Fin 128)) := by
    unfold extractStridedSlice
    congr 1
    funext a
    apply Fin.ext
    match a with
    | ⟨0, _⟩ => rfl
    | ⟨1, _⟩ => rfl
  show Ideal.div
      (shapeCast S_ (extractStridedSlice S1x1 ![0, 0] (lossArr W) slices_S16x128_S1x1_0_0) shapeCasts_S1x1_S_ i
        + shapeCast S_ (extractStridedSlice S1x1 ![8, 0] (lossArr W) slices_S16x128_S1x1_8_0) shapeCasts_S1x1_S_ i)
      (Ideal.ofBits .f32 0x47800000#32) = _
  rw [hcast, hcast, hs0, hs8]
  rfl

end Cert.KernelIdeal.HostValue

end
-- ==== Proof.AlgTiles.lean ====
/-
  The eight tiles are two groups of four: tiles 0 to 3 (the rows of the first half of the batch) and tiles 4 to 7. A
  tiled sum is the sum over the first group plus the sum over the second.
-/
import proofs.«402825_j60026462929136_3_alg».proof.Proof.Spec
import Mathlib.Algebra.BigOperators.Fin

noncomputable section

open scoped BigOperators
open Idealize.ShloMosaic

namespace NodeEdgeLoss

/-- The four tiles of the half of the batch that row `ρ` of a 16-row array of partial sums belongs to. -/
def halfSum (f : Fin 65536 → EReal) (ρ : Fin 16) : EReal :=
  ∑ i : Fin 4, ∑ s : Fin 8192, f (tileRow ⟨4 * (ρ.val / 8) + i.val, by have := ρ.isLt; have := i.isLt; omega⟩ s)

theorem tileSum_eq_halves (f : Fin 65536 → EReal) : tileSum f = halfSum f 0 + halfSum f 8 := by
  unfold tileSum halfSum
  rw [Fin.sum_univ_eight, Fin.sum_univ_four, Fin.sum_univ_four]
  have e0 : ∀ (k : Nat) (hk : k < 4) (h : 4 * ((0 : Fin 16).val / 8) + k < 8), (⟨4 * ((0 : Fin 16).val / 8) + k, h⟩ : Fin 8) = ⟨k, by omega⟩ :=
    fun k hk h => Fin.ext (by show 4 * (0 / 8) + k = k; omega)
  have e8 : ∀ (k : Nat) (hk : k < 4) (h : 4 * ((8 : Fin 16).val / 8) + k < 8), (⟨4 * ((8 : Fin 16).val / 8) + k, h⟩ : Fin 8) = ⟨4 + k, by omega⟩ :=
    fun k hk h => Fin.ext (by show 4 * (8 / 8) + k = 4 + k; omega)
  simp only [Fin.val_zero, Fin.val_one, Fin.val_two, e0, e8]
  simp only [add_assoc]
  rfl

end NodeEdgeLoss

end
-- ==== Proof.KValue.lean ====
/-
  The kernel's result as a function of its arguments, at the ideal instance: the host operations before the first
  region gather the features and split the weights; the first region leaves the hidden layer and the two cores' column
  sums of it and of its squares; the host operations between the regions make the normalisation's scale and shift from
  those sums; the second region leaves the two cores' totals of the row losses; the last host operations add them and
  divide by the batch size. Chained, the result is the loss in the kernel's arrangement of the hidden layer computed
  from the two half contractions.
-/
import proofs.«402825_j60026462929136_3_alg».proof.Proof.KernelIdealFrame
import proofs.«402825_j60026462929136_3_alg».proof.Proof.KRegion0
import proofs.«402825_j60026462929136_3_alg».proof.Proof.KRegion1
import proofs.«402825_j60026462929136_3_alg».proof.Proof.KHostPre
import proofs.«402825_j60026462929136_3_alg».proof.Proof.KHostStats
import proofs.«402825_j60026462929136_3_alg».proof.Proof.KHostPost
import proofs.«402825_j60026462929136_3_alg».proof.Proof.AlgTiles

set_option maxRecDepth 16384

noncomputable section

open scoped BigOperators
open Idealize.ShloMosaic Idealize.ShloMosaic.TcCoe Idealize.SL.Sem Idealize.ShloMosaic.ValueIdx NodeEdgeLoss

namespace Cert.KernelIdeal.KValue

open Cert.KernelIdeal Cert.KernelIdeal.Gen Cert.KernelIdeal.HostValue Cert.KernelIdeal.Region0 Cert.KernelIdeal.Region1

variable (m : (ℓ : Loc nD τ sig) → Buf (Elt Ideal) ℓ) (ρ : Dev nD → PrngReg) (c : Dev nD)

/-! ## The arguments, as arrays and as functions of coordinates -/

abbrev a0 : S100000x128.Idx → EReal := m ((c.tc : Thread nD τ).loc main_arg0)
abbrev a1 : S50000x128.Idx → EReal := m ((c.tc : Thread nD τ).loc main_arg1)
abbrev a2 : IVec S65536 32 := m ((c.tc : Thread nD τ).loc main_arg2)
abbrev a3 : IVec S65536 32 := m ((c.tc : Thread nD τ).loc main_arg3)
abbrev a4 : IVec S65536 32 := m ((c.tc : Thread nD τ).loc main_arg4)
abbrev a5 : S256x128.Idx → EReal := m ((c.tc : Thread nD τ).loc main_arg5)
abbrev a6 : S128.Idx → EReal := m ((c.tc : Thread nD τ).loc main_arg6)
abbrev a7 : S128.Idx → EReal := m ((c.tc : Thread nD τ).loc main_arg7)
abbrev a8 : S128.Idx → EReal := m ((c.tc : Thread nD τ).loc main_arg8)
abbrev a9 : S128x2.Idx → EReal := m ((c.tc : Thread nD τ).loc main_arg9)
abbrev a10 : S2.Idx → EReal := m ((c.tc : Thread nD τ).loc main_arg10)

/-- The gathered node and edge features, the first layer's weights and bias, the normalisation's parameters, the second
    layer's weights and bias, by coordinates. -/
def fX : Fin 65536 → Fin 128 → EReal := fun r k => gatherN (a0 m c) (a2 m c) (ix2 r k)
def fY : Fin 65536 → Fin 128 → EReal := fun r k => gatherE (a1 m c) (a3 m c) (ix2 r k)
def fW1 : Fin 256 → Fin 128 → EReal := fun k j => a5 m c (ix2 k j)
def fb1 : Fin 128 → EReal := fun j => a6 m c (ix1 j)
def fγ : Fin 128 → EReal := fun j => a7 m c (ix1 j)
def fβ : Fin 128 → EReal := fun j => a8 m c (ix1 j)
def fW2 : Fin 128 → Fin 2 → EReal := fun j q => a9 m c (ix2 j q)
def fb2 : Fin 2 → EReal := fun q => a10 m c (ix1 q)

/-- The hidden layer, from the two half contractions. -/
def fH : Fin 65536 → Fin 128 → EReal := hid2 (fX m c) (fY m c) (wTop (fW1 m c)) (wBot (fW1 m c)) (fb1 m c)

/-! ## The first region's operands and what it leaves -/

/-- The first region works on the gathered features, the two weight halves and the bias: its hidden layer is `fH`. -/
theorem hid_V1 : hid (V1 m ρ) c = fH m c := by
  have hx : (fun (r : Fin 65536) (k : Fin 128) => xArr (V1 m ρ) c (ix2 r k)) = fX m c :=
    funext fun r => funext fun k => congrFun (pre_v6 (W0 m ρ c)) (ix2 r k)
  have hy : (fun (r : Fin 65536) (k : Fin 128) => yArr (V1 m ρ) c (ix2 r k)) = fY m c :=
    funext fun r => funext fun k => congrFun (pre_v13 (W0 m ρ c)) (ix2 r k)
  have hwa : (fun (k j : Fin 128) => waArr (V1 m ρ) c (ix2 k j)) = wTop (fW1 m c) :=
    funext fun k => funext fun j => pre_v14 (W0 m ρ c) k j
  have hwb : (fun (k j : Fin 128) => wbArr (V1 m ρ) c (ix2 k j)) = wBot (fW1 m c) :=
    funext fun k => funext fun j => pre_v15 (W0 m ρ c) k j
  have hb : (fun (j : Fin 128) => bArr (V1 m ρ) c (ix2 (0 : Fin 1) j)) = fb1 m c :=
    funext fun j => pre_v16 (W0 m ρ c) j
  unfold hid fH
  rw [hx, hy, hwa, hwb, hb]

/-- After the first region the hidden array holds `fH`. -/
theorem W2_hidden (r : Fin 65536) (j : Fin 128) :
    (W2 m ρ c (Proc.devRef .tc main_v19_0) : S65536x128.Idx → EReal) (ix2 r j) = fH m c r j := by
  have e := W2_arr m ρ c 5
  have e' := region0_h (V1 m ρ) c r j
  rw [hid_V1] at e'
  exact (congrFun e (ix2 r j)).trans e'

/-- The two cores' totals of the column sums are the tiled sum over the whole batch. -/
theorem W2_sum (j : Fin 128) : coreTotal (sumArr (W2 m ρ c)) j = tileSum fun r => fH m c r j := by
  have e := W2_arr m ρ c 6
  have e0 := region0_sum (V1 m ρ) c 0 j
  have e8 := region0_sum (V1 m ρ) c 8 j
  rw [hid_V1] at e0 e8
  rw [tileSum_eq_halves]
  unfold coreTotal
  exact congrArg₂ (· + ·) ((congrFun e (ix2 (0 : Fin 16) j)).trans e0) ((congrFun e (ix2 (8 : Fin 16) j)).trans e8)

theorem W2_sumsq (j : Fin 128) : coreTotal (sqArr (W2 m ρ c)) j = tileSum fun r => fH m c r j * fH m c r j := by
  have e := W2_arr m ρ c 7
  have e0 := region0_sumsq (V1 m ρ) c 0 j
  have e8 := region0_sumsq (V1 m ρ) c 8 j
  rw [hid_V1] at e0 e8
  rw [tileSum_eq_halves]
  unfold coreTotal
  exact congrArg₂ (· + ·) ((congrFun e (ix2 (0 : Fin 16) j)).trans e0) ((congrFun e (ix2 (8 : Fin 16) j)).trans e8)

/-- The first region and the host operations before it leave the normalisation's parameters as launched. -/
theorem W2_gamma : gammaArr (W2 m ρ c) = a7 m c :=
  (W2_of_ne m ρ c main_arg7 (by decide)).trans (pre_arg7 (W0 m ρ c))
theorem W2_beta : betaArr (W2 m ρ c) = a8 m c :=
  (W2_of_ne m ρ c main_arg8 (by decide)).trans (pre_arg8 (W0 m ρ c))

/-! ## The second region's operands -/

theorem V3_scale (j : Fin 128) : scArr (V3 m ρ) c (ix2 (0 : Fin 1) j) = kerScale (fH m c) (fγ m c) j := by
  refine (stats_scale (W2 m ρ c) j).trans ?_
  unfold scaleOf varOf meanOf kerScale kerVar kerMean fγ
  rw [W2_sum, W2_sumsq, W2_gamma]

theorem V3_shift (j : Fin 128) : shArr (V3 m ρ) c (ix2 (0 : Fin 1) j) = kerShift (fH m c) (fγ m c) (fβ m c) j := by
  refine (stats_shift (W2 m ρ c) j).trans ?_
  unfold shiftOf scaleOf varOf meanOf kerShift kerScale kerVar kerMean fγ fβ
  rw [W2_sum, W2_sumsq, W2_gamma, W2_beta]

theorem V3_hidden (r : Fin 65536) (j : Fin 128) : hArr (V3 m ρ) c (ix2 r j) = fH m c r j :=
  (congrFun (stats_v19_0 (W2 m ρ c)) (ix2 r j)).trans (W2_hidden m ρ c r j)

theorem V3_label (r : Fin 65536) : labArr (V3 m ρ) c (ix2 r (0 : Fin 1)) = a4 m c (ix1 r) :=
  ((congrFun (stats_v18 (W2 m ρ c)) (ix2 r (0 : Fin 1))).trans
    (congrFun (W2_of_ne m ρ c main_v18 (by decide)) (ix2 r (0 : Fin 1)))).trans (pre_v18 (W0 m ρ c) r)

theorem V3_w2 (j : Fin 128) (q : Fin 2) : w2Arr (V3 m ρ) c (ix2 j q) = fW2 m c j q :=
  congrFun (((stats_arg9 (W2 m ρ c)).trans (W2_of_ne m ρ c main_arg9 (by decide))).trans (pre_arg9 (W0 m ρ c))) (ix2 j q)

theorem V3_b2 (q : Fin 2) : b2Arr (V3 m ρ) c (ix2 (0 : Fin 1) q) = fb2 m c q :=
  ((congrFun (stats_v17 (W2 m ρ c)) (ix2 (0 : Fin 1) q)).trans
    (congrFun (W2_of_ne m ρ c main_v17 (by decide)) (ix2 (0 : Fin 1) q))).trans (pre_v17 (W0 m ρ c) q)

/-- The second region's row losses are the kernel's row losses of `fH`. -/
theorem rowLoss_V3 (lab : Fin 65536 → Fin 2) : rowLoss (V3 m ρ) c lab
    = kerNll (kerLogp (logits (affine (fH m c) (kerScale (fH m c) (fγ m c)) (kerShift (fH m c) (fγ m c) (fβ m c)))
        (fW2 m c) (fb2 m c))) (oneHot lab) := by
  have h1 : (fun (r : Fin 65536) (j : Fin 128) => hArr (V3 m ρ) c (ix2 r j)) = fH m c :=
    funext fun r => funext fun j => V3_hidden m ρ c r j
  have h2 : (fun (j : Fin 128) => scArr (V3 m ρ) c (ix2 (0 : Fin 1) j)) = kerScale (fH m c) (fγ m c) :=
    funext fun j => V3_scale m ρ c j
  have h3 : (fun (j : Fin 128) => shArr (V3 m ρ) c (ix2 (0 : Fin 1) j)) = kerShift (fH m c) (fγ m c) (fβ m c) :=
    funext fun j => V3_shift m ρ c j
  have h4 : (fun (j : Fin 128) (q : Fin 2) => w2Arr (V3 m ρ) c (ix2 j q)) = fW2 m c :=
    funext fun j => funext fun q => V3_w2 m ρ c j q
  have h5 : (fun (q : Fin 2) => b2Arr (V3 m ρ) c (ix2 (0 : Fin 1) q)) = fb2 m c :=
    funext fun q => V3_b2 m ρ c q
  unfold rowLoss
  rw [h1, h2, h3, h4, h5]

/-! ## The result -/

/-- With every label word 0 or 1, the kernel's result buffer ends at the loss in the kernel's arrangement. -/
theorem kernel_value (lab : Fin 65536 → Fin 2) (hlab : ∀ r : Fin 65536, a4 m c (ix1 r) = BitVec.ofNat 32 (lab r).val) :
    (W5 m ρ c (Proc.devRef .tc main_v52) : S_.Idx → EReal)
      = fun _ => kerLoss (fH m c) (fγ m c) (fβ m c) (fW2 m c) (fb2 m c) lab := by
  refine (post_v52 (W4 m ρ c)).trans ?_
  funext _
  have e := W4_arr m ρ c 6
  have hl : ∀ r : Fin 65536, labArr (V3 m ρ) c (ix2 r (0 : Fin 1)) = BitVec.ofNat 32 (lab r).val :=
    fun r => (V3_label m ρ c r).trans (hlab r)
  have e0 := region1_value (V3 m ρ) c lab hl 0 0
  have e8 := region1_value (V3 m ρ) c lab hl 8 0
  rw [rowLoss_V3] at e0 e8
  unfold kerLoss kerNllSum
  rw [tileSum_eq_halves]
  exact congrArg (fun x => Ideal.div x cB)
    (congrArg₂ (· + ·) ((congrFun e (ix2 (0 : Fin 16) (0 : Fin 128))).trans e0)
      ((congrFun e (ix2 (8 : Fin 16) (0 : Fin 128))).trans e8))

end Cert.KernelIdeal.KValue

end
-- ==== Proof.Bridge.lean ====
/-
  The two programs gather the same rows: both apply to the node table (the edge table) and the index vector the same
  operations — a negative index counted from the end, the indices as a column, the row gather — so the gathered features
  are one function of the table and the indices.
-/
import proofs.«402825_j60026462929136_3_alg».proof.Proof.RefValue
import proofs.«402825_j60026462929136_3_alg».proof.Proof.KHostPre

noncomputable section

open Idealize.ShloMosaic Idealize.ShloMosaic.ValueIdx

namespace Cert.Proof.Bridge

/-- The two programs' node-table gathers carry the same dimension numbers: one record. -/
theorem dimsN_eq : Cert.ReferenceIdeal.gather_S100000x128_S65536x1_S65536x128_1_0_n_n_0_1_1128
    = Cert.KernelIdeal.gather_S100000x128_S65536x1_S65536x128_1_0_n_n_0_1_1128 := rfl

/-- Likewise the edge-table gathers. -/
theorem dimsE_eq : Cert.ReferenceIdeal.gather_S50000x128_S65536x1_S65536x128_1_0_n_n_0_1_1128
    = Cert.KernelIdeal.gather_S50000x128_S65536x1_S65536x128_1_0_n_n_0_1_1128 := rfl

/-- The reference's gathered node features are the kernel's. -/
theorem featN_eq (x0 : Cert.ReferenceIdeal.S100000x128.Idx → EReal) (x2 : IVec Cert.ReferenceIdeal.S65536 32) :
    Cert.ReferenceIdeal.RefValue.featN x0 x2 = fun r k => Cert.KernelIdeal.HostValue.gatherN x0 x2 (ix2 r k) := by
  -- both sides unfold to the same gather of the table at the same column of wrapped indices
  funext r k
  rfl

/-- The reference's gathered edge features are the kernel's. -/
theorem featE_eq (x1 : Cert.ReferenceIdeal.S50000x128.Idx → EReal) (x3 : IVec Cert.ReferenceIdeal.S65536 32) :
    Cert.ReferenceIdeal.RefValue.featE x1 x3 = fun r k => Cert.KernelIdeal.HostValue.gatherE x1 x3 (ix2 r k) := by
  funext r k
  rfl

end Cert.Proof.Bridge

end
-- ==== Proof.AlgHidden.lean ====
/-
  The hidden layer: a contraction over the concatenated 256 features is the sum of the contractions of the two halves
  against the two halves of the weights (a finite sum split at 128; no finiteness is needed), and on real data every
  entry is real (a finite sum of products of reals, plus a real, and the larger of that and zero).
-/
import proofs.«402825_j60026462929136_3_alg».proof.Proof.Spec
import Mathlib.Algebra.BigOperators.Fin
import Mathlib.Data.EReal.Operations

noncomputable section

open scoped BigOperators
open Idealize.ShloMosaic

namespace NodeEdgeLoss

/-- A finite sum of extended reals that are all real numbers is a real number. -/
private theorem real_finset_sum {ι : Type} (s : Finset ι) (f : ι → EReal)
    (hf : ∀ i ∈ s, ∃ x : ℝ, f i = (x : EReal)) : ∃ x : ℝ, ∑ i ∈ s, f i = (x : EReal) := by
  classical
  induction s using Finset.induction_on with
  | empty => exact ⟨0, by simp⟩
  | insert a s ha ih =>
    obtain ⟨x, hx⟩ := hf a (Finset.mem_insert_self a s)
    obtain ⟨y, hy⟩ := ih (fun i hi => hf i (Finset.mem_insert_of_mem hi))
    exact ⟨x + y, by rw [Finset.sum_insert ha, hx, hy, EReal.coe_add]⟩

/-- The contraction over the 256 concatenated features splits at 128: the first 128 terms read the node features against
    the upper half of the weights, the last 128 read the edge features against the lower half. -/
theorem sum_cat_split (X Y : Fin 65536 → Fin 128 → EReal) (W : Fin 256 → Fin 128 → EReal) (r : Fin 65536) (j : Fin 128) :
    (∑ k : Fin 256, cat X Y r k * W k j)
      = (∑ k : Fin 128, X r k * wTop W k j) + (∑ k : Fin 128, Y r k * wBot W k j) := by
  have h0 : (∑ k : Fin 256, cat X Y r k * W k j) = ∑ k : Fin (128 + 128), cat X Y r k * W k j := rfl
  rw [h0, Fin.sum_univ_add]
  refine congrArg₂ (· + ·) ?_ ?_
  · refine Finset.sum_congr rfl (fun k _ => ?_)
    have hk : (Fin.castAdd 128 k : Fin (128 + 128)).val < 128 := k.isLt
    unfold cat wTop
    rw [dif_pos hk]
    rfl
  · refine Finset.sum_congr rfl (fun k _ => ?_)
    have hk : ¬ (Fin.natAdd 128 k : Fin (128 + 128)).val < 128 := by
      simp [Fin.natAdd]
    unfold cat wBot
    rw [dif_neg hk]
    have hidx : (⟨(Fin.natAdd 128 k : Fin (128 + 128)).val - 128, by have := k.isLt; rw [Fin.coe_natAdd]; omega⟩ : Fin 128) = k := by
      apply Fin.ext
      simp [Fin.natAdd]
    rw [hidx]
    rfl

/-- The kernel's two half contractions are the reference's one contraction of the concatenated features. -/
theorem hid2_eq_hidCat (X Y : Fin 65536 → Fin 128 → EReal) (W : Fin 256 → Fin 128 → EReal) (b : Fin 128 → EReal) :
    hid2 X Y (wTop W) (wBot W) b = hidCat X Y W b := by
  funext r j
  unfold hid2 hidCat
  rw [sum_cat_split]

/-- On real data the hidden layer is real in every entry. -/
theorem hidCat_real (X Y : Fin 65536 → Fin 128 → EReal) (W : Fin 256 → Fin 128 → EReal) (b : Fin 128 → EReal)
    (hX : ∀ r k, ∃ x : ℝ, X r k = (x : EReal)) (hY : ∀ r k, ∃ x : ℝ, Y r k = (x : EReal))
    (hW : ∀ k j, ∃ x : ℝ, W k j = (x : EReal)) (hb : ∀ j, ∃ x : ℝ, b j = (x : EReal)) :
    ∀ r j, ∃ x : ℝ, hidCat X Y W b r j = (x : EReal) := by
  intro r j
  have hcat : ∀ k, ∃ x : ℝ, cat X Y r k = (x : EReal) := by
    intro k
    unfold cat
    split
    · exact hX r _
    · exact hY r _
  obtain ⟨s, hs⟩ := real_finset_sum Finset.univ (fun k : Fin 256 => cat X Y r k * W k j) (fun k _ => by
    obtain ⟨x, hx⟩ := hcat k
    obtain ⟨w, hw⟩ := hW k j
    exact ⟨x * w, by rw [hx, hw, EReal.coe_mul]⟩)
  obtain ⟨c, hc⟩ := hb j
  refine ⟨max (s + c) 0, ?_⟩
  unfold hidCat
  rw [hs, hc, ← EReal.coe_add, ← EReal.coe_zero]
  exact (EReal.coe_strictMono.monotone.map_max).symm

end NodeEdgeLoss

end
-- ==== Proof.AlgSums.lean ====
/-
  Sums over the batch, tile by tile: eight consecutive tiles of 8192 rows exhaust the 65536 rows, each once, so the
  tiled double sum of any function of the row is its plain sum (addition of extended reals is commutative and associative).
-/
import proofs.«402825_j60026462929136_3_alg».proof.Proof.Spec
import Mathlib.Algebra.BigOperators.Fin
import Mathlib.Logic.Equiv.Fin.Basic

noncomputable section

open scoped BigOperators
open Idealize.ShloMosaic

namespace NodeEdgeLoss

/-- Pairs (tile, row inside the tile) correspond one to one to rows: row = tile · 8192 + offset, and back by quotient
    and remainder on division by 8192. -/
def tileEquiv : Fin 8 × Fin 8192 ≃ Fin 65536 where
  toFun p := tileRow p.1 p.2
  invFun r := (⟨r.val / 8192, by have := r.isLt; omega⟩, ⟨r.val % 8192, by omega⟩)
  left_inv := by
    rintro ⟨t, s⟩
    have ht := t.isLt
    have hs := s.isLt
    apply Prod.ext
    · apply Fin.ext
      show (t.val * 8192 + s.val) / 8192 = t.val
      omega
    · apply Fin.ext
      show (t.val * 8192 + s.val) % 8192 = s.val
      omega
  right_inv := by
    intro r
    apply Fin.ext
    show r.val / 8192 * 8192 + r.val % 8192 = r.val
    omega

/-- The tiled sum is the sum over all rows. -/
theorem tileSum_eq_sum (f : Fin 65536 → EReal) : tileSum f = ∑ r : Fin 65536, f r := by
  unfold tileSum
  rw [← Fintype.sum_prod_type' (f := fun t s => f (tileRow t s))]
  exact Fintype.sum_equiv tileEquiv _ _ (fun _ => rfl)

end NodeEdgeLoss

end
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.AlgNorm.lean ====
/-
  The two batch normalisations are one function on real data.

  With h real in every entry, the column sums are real, the mean is the real mean, and the mean of squared deviations is
  the mean of squares minus the squared mean (expand the square and use Σ (h - μ) = 0 ... in the reals). That variance is
  not negative, ε > 0, so rsqrt (var + ε) is the real number 1/√(var + ε), and
  ((h - μ) · s) · γ + β = h · (γ · s) + (β - μ · (γ · s)) is an identity of real numbers.
-/
import proofs.«402825_j60026462929136_3_alg».proof.Proof.Spec
import proofs.«402825_j60026462929136_3_alg».proof.Proof.AlgSums
import proofs.«402825_j60026462929136_3_alg».proof.Proof.LibIdealFinite
import Mathlib.Data.EReal.Operations
import Mathlib.Data.EReal.Inv
import Mathlib.Analysis.SpecialFunctions.Sqrt

noncomputable section

open scoped BigOperators
open Idealize.ShloMosaic

namespace NodeEdgeLoss

/-- The float constant 65536.0 denotes the real number 65536. -/
theorem cB_eq : cB = ((65536 : ℝ) : EReal) := by
  simp [cB, Ideal.ofBits, Ideal.ieee, -EReal.coe_mul]; norm_num

/-- The epsilon constant denotes a positive real number. -/
theorem cEps_pos : ∃ e : ℝ, 0 < e ∧ cEps = (e : EReal) :=
  ⟨10995116 / 1099511627776, by norm_num, IdealFinite.ofBits_3727C5AC⟩

/-! ## The real identity behind the two variances -/

/-- For 65536 real numbers with mean μ, the mean of the squared deviations from μ is the mean of the squares minus μ²:
    Σ (x - μ)² = Σ x² - 2 μ Σ x + 65536 μ², and Σ x = 65536 μ. -/
theorem real_var_eq (x : Fin 65536 → ℝ) (μ : ℝ) (hμ : μ = (∑ r, x r) / 65536) :
    (∑ r, (x r - μ) * (x r - μ)) / 65536 = (∑ r, x r * x r) / 65536 - μ * μ := by
  have hS : ∑ r, x r = 65536 * μ := by rw [hμ]; ring
  have h1 : ∑ r, (x r - μ) * (x r - μ) = (∑ r, x r * x r) - 2 * μ * (∑ r, x r) + 65536 * (μ * μ) := by
    have e : ∀ r, (x r - μ) * (x r - μ) = x r * x r - 2 * μ * x r + μ * μ := fun r => by ring
    simp only [e, Finset.sum_add_distrib, Finset.sum_sub_distrib, ← Finset.mul_sum, Finset.sum_const,
      Finset.card_univ, Fintype.card_fin, nsmul_eq_mul, Nat.cast_ofNat]
    ring
  rw [h1, hS]; ring

/-- The mean of squared deviations is not negative. -/
theorem real_var_nonneg (x : Fin 65536 → ℝ) (μ : ℝ) : 0 ≤ (∑ r, (x r - μ) * (x r - μ)) / 65536 :=
  div_nonneg (Finset.sum_nonneg fun r _ => mul_self_nonneg _) (by norm_num)

/-! ## The statistics of one real column -/

/-- The tiled mean is the plain mean (no finiteness needed). -/
theorem kerMean_eq_refMean (h : Fin 65536 → Fin 128 → EReal) (j : Fin 128) : kerMean h j = refMean h j := by
  unfold kerMean refMean
  rw [tileSum_eq_sum]

/-- The mean of a real column is the real mean. -/
theorem refMean_of_real (h : Fin 65536 → Fin 128 → EReal) (j : Fin 128) (x : Fin 65536 → ℝ)
    (hx : ∀ r, h r j = (x r : EReal)) : refMean h j = (((∑ r, x r) / 65536 : ℝ) : EReal) := by
  unfold refMean
  simp only [hx]
  rw [cB_eq, ← IdealFinite.coe_finset_sum, IdealFinite.div_coe_coe _ (by norm_num)]

/-- The mean of squared deviations of a real column, as a real number. -/
theorem refVar_of_real (h : Fin 65536 → Fin 128 → EReal) (j : Fin 128) (x : Fin 65536 → ℝ) (μ : ℝ)
    (hx : ∀ r, h r j = (x r : EReal)) (hm : refMean h j = (μ : EReal)) :
    refVar h j = (((∑ r, (x r - μ) * (x r - μ)) / 65536 : ℝ) : EReal) := by
  unfold refVar
  rw [hm]
  simp only [hx, ← EReal.coe_sub, ← EReal.coe_mul]
  rw [cB_eq, ← IdealFinite.coe_finset_sum, IdealFinite.div_coe_coe _ (by norm_num)]

/-- The mean of squares minus the squared mean of a real column, as a real number. -/
theorem kerVar_of_real (h : Fin 65536 → Fin 128 → EReal) (j : Fin 128) (x : Fin 65536 → ℝ) (μ : ℝ)
    (hx : ∀ r, h r j = (x r : EReal)) (hm : kerMean h j = (μ : EReal)) :
    kerVar h j = (((∑ r, x r * x r) / 65536 - μ * μ : ℝ) : EReal) := by
  unfold kerVar
  rw [hm, tileSum_eq_sum]
  simp only [hx, ← EReal.coe_mul]
  rw [cB_eq, ← IdealFinite.coe_finset_sum, IdealFinite.div_coe_coe _ (by norm_num), ← EReal.coe_sub]

/-- The reciprocal square root of a positive real number is the real number 1/√v. -/
theorem rsqrt_of_pos (v : ℝ) (hv : 0 < v) : Ideal.rsqrt (v : EReal) = (((Real.sqrt v)⁻¹ : ℝ) : EReal) := by
  rw [Ideal.rsqrt_coe, if_neg (not_lt.mpr hv.le), if_neg hv.ne']

/-- A real column has a real mean μ, the same in both arrangements, and both arrangements' rsqrt (var + ε) are one and
    the same real number s. -/
theorem column_stats (h : Fin 65536 → Fin 128 → EReal) (j : Fin 128) (x : Fin 65536 → ℝ)
    (hx : ∀ r, h r j = (x r : EReal)) :
    ∃ μ s : ℝ, refMean h j = (μ : EReal) ∧ kerMean h j = (μ : EReal) ∧
      Ideal.rsqrt (refVar h j + cEps) = (s : EReal) ∧ Ideal.rsqrt (kerVar h j + cEps) = (s : EReal) := by
  have hm : refMean h j = (((∑ r, x r) / 65536 : ℝ) : EReal) := refMean_of_real h j x hx
  have hkm : kerMean h j = (((∑ r, x r) / 65536 : ℝ) : EReal) := by rw [kerMean_eq_refMean, hm]
  have hrv := refVar_of_real h j x _ hx hm
  have hkv := kerVar_of_real h j x _ hx hkm
  rw [← real_var_eq x _ rfl] at hkv
  obtain ⟨e, he, hce⟩ := cEps_pos
  have hv0 := real_var_nonneg x ((∑ r, x r) / 65536)
  refine ⟨_, (Real.sqrt ((∑ r, (x r - (∑ r, x r) / 65536) * (x r - (∑ r, x r) / 65536)) / 65536 + e))⁻¹,
    hm, hkm, ?_, ?_⟩
  · rw [hrv, hce, ← EReal.coe_add]
    exact rsqrt_of_pos _ (by linarith)
  · rw [hkv, hce, ← EReal.coe_add]
    exact rsqrt_of_pos _ (by linarith)

/-! ## The two normalisations -/

/-- On real data the kernel's normalisation (h · scale + shift, variance as mean of squares minus squared mean, sums tile
    by tile) is the reference's (((h - mean) · rsqrt (var + ε)) · γ + β, variance as mean of squared deviations). -/
theorem kerNorm_eq_refNorm (h : Fin 65536 → Fin 128 → EReal) (γ β : Fin 128 → EReal)
    (hh : ∀ r j, ∃ x : ℝ, h r j = (x : EReal)) (hγ : ∀ j, ∃ x : ℝ, γ j = (x : EReal)) (hβ : ∀ j, ∃ x : ℝ, β j = (x : EReal)) :
    kerNorm h γ β = refNorm h γ β := by
  choose x hx using hh
  funext r j
  obtain ⟨μ, s, hm, hkm, hrs, hks⟩ := column_stats h j (fun r => x r j) (fun r => hx r j)
  obtain ⟨g, hg⟩ := hγ j
  obtain ⟨b, hb⟩ := hβ j
  unfold kerNorm affine kerShift kerScale refNorm
  rw [hkm, hks, hm, hrs, hx r j, hg, hb]
  simp only [← EReal.coe_mul, ← EReal.coe_sub, ← EReal.coe_add]
  congr 1
  ring

/-- On real data the normalised hidden array is real in every entry. -/
theorem refNorm_real (h : Fin 65536 → Fin 128 → EReal) (γ β : Fin 128 → EReal)
    (hh : ∀ r j, ∃ x : ℝ, h r j = (x : EReal)) (hγ : ∀ j, ∃ x : ℝ, γ j = (x : EReal)) (hβ : ∀ j, ∃ x : ℝ, β j = (x : EReal)) :
    ∀ r j, ∃ x : ℝ, refNorm h γ β r j = (x : EReal) := by
  choose x hx using hh
  intro r j
  obtain ⟨μ, s, hm, _, hrs, _⟩ := column_stats h j (fun r => x r j) (fun r => hx r j)
  obtain ⟨g, hg⟩ := hγ j
  obtain ⟨b, hb⟩ := hβ j
  refine ⟨((x r j - μ) * s) * g + b, ?_⟩
  unfold refNorm
  rw [hm, hrs, hx r j, hg, hb]
  simp only [← EReal.coe_mul, ← EReal.coe_sub, ← EReal.coe_add]

end NodeEdgeLoss

end
-- ==== Proof.AlgSoftmax.lean ====
/-
  The two log-softmaxes and the two ways of picking the label's log-probability agree on real logits.

  With both logits of a row real, their maximum m is real, the shifted logits are real, the sum S of their exponentials
  is a real number at least 1 (one of the shifted logits is 0), log S is real, and x - (m + log S) = (x - m) - log S in the
  reals. With the label in {0, 1}, zero minus (one-hot row · log-probabilities, summed) is minus the label's entry.
-/
import proofs.«402825_j60026462929136_3_alg».proof.Proof.Spec
import Mathlib.Data.EReal.Operations
import Mathlib.Analysis.SpecialFunctions.Log.Basic

noncomputable section

open scoped BigOperators
open Idealize.ShloMosaic

namespace NodeEdgeLoss

/-- A finite sum of extended reals that are all real numbers is a real number. -/
private theorem real_finset_sum {ι : Type} (s : Finset ι) (f : ι → EReal)
    (hf : ∀ i ∈ s, ∃ x : ℝ, f i = (x : EReal)) : ∃ x : ℝ, ∑ i ∈ s, f i = (x : EReal) := by
  classical
  induction s using Finset.induction_on with
  | empty => exact ⟨0, by simp⟩
  | insert a s ha ih =>
    obtain ⟨x, hx⟩ := hf a (Finset.mem_insert_self a s)
    obtain ⟨y, hy⟩ := ih (fun i hi => hf i (Finset.mem_insert_of_mem hi))
    exact ⟨x + y, by rw [Finset.sum_insert ha, hx, hy, EReal.coe_add]⟩

/-- On real data the logits are real. -/
theorem logits_real (z : Fin 65536 → Fin 128 → EReal) (W2 : Fin 128 → Fin 2 → EReal) (b2 : Fin 2 → EReal)
    (hz : ∀ r j, ∃ x : ℝ, z r j = (x : EReal)) (hW : ∀ j q, ∃ x : ℝ, W2 j q = (x : EReal)) (hb : ∀ q, ∃ x : ℝ, b2 q = (x : EReal)) :
    ∀ r q, ∃ x : ℝ, logits z W2 b2 r q = (x : EReal) := by
  intro r q
  obtain ⟨s, hs⟩ := real_finset_sum Finset.univ (fun j : Fin 128 => z r j * W2 j q) (fun j _ => by
    obtain ⟨x, hx⟩ := hz r j
    obtain ⟨w, hw⟩ := hW j q
    exact ⟨x * w, by rw [hx, hw, EReal.coe_mul]⟩)
  obtain ⟨c, hc⟩ := hb q
  refine ⟨s + c, ?_⟩
  unfold logits
  rw [hs, hc, EReal.coe_add]

/-- A label is 0 or 1. -/
private theorem fin2_cases : ∀ q : Fin 2, q = 0 ∨ q = 1 := by decide

/-- On real logits the kernel's row loss is minus the reference's log-probability of the row's label. -/
theorem kerNll_eq (lg : Fin 65536 → Fin 2 → EReal) (hlg : ∀ r q, ∃ x : ℝ, lg r q = (x : EReal)) (lab : Fin 65536 → Fin 2)
    (r : Fin 65536) : kerNll (kerLogp lg) (oneHot lab) r = -(refLogp lg r (lab r)) := by
  obtain ⟨a, ha⟩ := hlg r 0
  obtain ⟨b, hb⟩ := hlg r 1
  -- the row maximum is the real maximum
  have hm : rowMax lg r = ((max a b : ℝ) : EReal) := by
    unfold rowMax
    rw [ha, hb]
    exact (EReal.coe_strictMono.monotone.map_max).symm
  -- the sum of the two exponentials is a positive real number
  have hS : expSum lg r = ((Real.exp (a - max a b) + Real.exp (b - max a b) : ℝ) : EReal) := by
    unfold expSum
    rw [hm, ha, hb, ← EReal.coe_sub, ← EReal.coe_sub, Ideal.exp_coe, Ideal.exp_coe, ← EReal.coe_add]
  have hSpos : 0 < Real.exp (a - max a b) + Real.exp (b - max a b) :=
    add_pos (Real.exp_pos _) (Real.exp_pos _)
  -- so its logarithm is the real logarithm
  have hL : Ideal.log (expSum lg r)
      = ((Real.log (Real.exp (a - max a b) + Real.exp (b - max a b)) : ℝ) : EReal) := by
    rw [hS, Ideal.log_coe, if_neg (not_le.mpr hSpos)]
  -- the two arrangements of the log-softmax agree in each column, and the common value is real
  have key : ∀ q, kerLogp lg r q = refLogp lg r q ∧ ∃ p : ℝ, refLogp lg r q = (p : EReal) := by
    intro q
    obtain ⟨x, hx⟩ := hlg r q
    unfold kerLogp refLogp
    rw [hx, hm, hL]
    refine ⟨?_, ?_⟩
    · rw [← EReal.coe_add, ← EReal.coe_sub, ← EReal.coe_sub, ← EReal.coe_sub]
      congr 1
      ring
    · exact ⟨(x - max a b) - Real.log (Real.exp (a - max a b) + Real.exp (b - max a b)), by
        rw [← EReal.coe_sub, ← EReal.coe_sub]⟩
  obtain ⟨h0, p0, hp0⟩ := key 0
  obtain ⟨h1, p1, hp1⟩ := key 1
  unfold kerNll oneHot
  rw [h0, h1]
  rcases fin2_cases (lab r) with hl | hl
  · rw [hl, hp0, hp1, if_pos rfl, if_neg (by decide), one_mul, zero_mul, add_zero, zero_sub]
  · rw [hl, hp0, hp1, if_neg (by decide), if_pos rfl, one_mul, zero_mul, zero_add, zero_sub]

end NodeEdgeLoss

end
-- ==== Proof.AlgMain.lean ====
/-
  The kernel's result is the reference's on real data: the normalisations agree (so the logits agree), the row losses
  agree, and the tiled sum of the row losses is their sum over the batch.
-/
import proofs.«402825_j60026462929136_3_alg».proof.Proof.Spec
import proofs.«402825_j60026462929136_3_alg».proof.Proof.AlgSums
import proofs.«402825_j60026462929136_3_alg».proof.Proof.AlgNorm
import proofs.«402825_j60026462929136_3_alg».proof.Proof.AlgSoftmax

noncomputable section

open scoped BigOperators
open Idealize.ShloMosaic

namespace NodeEdgeLoss

theorem kerLoss_eq_refLoss (h : Fin 65536 → Fin 128 → EReal) (γ β : Fin 128 → EReal) (W2 : Fin 128 → Fin 2 → EReal)
    (b2 : Fin 2 → EReal) (lab : Fin 65536 → Fin 2)
    (hh : ∀ r j, ∃ x : ℝ, h r j = (x : EReal)) (hγ : ∀ j, ∃ x : ℝ, γ j = (x : EReal)) (hβ : ∀ j, ∃ x : ℝ, β j = (x : EReal))
    (hW : ∀ j q, ∃ x : ℝ, W2 j q = (x : EReal)) (hb : ∀ q, ∃ x : ℝ, b2 q = (x : EReal)) :
    kerLoss h γ β W2 b2 lab = refLoss h γ β W2 b2 lab := by
  unfold kerLoss kerNllSum refLoss
  -- the kernel's normalisation is the reference's
  have hn : affine h (kerScale h γ) (kerShift h γ β) = refNorm h γ β := by
    have hk : affine h (kerScale h γ) (kerShift h γ β) = kerNorm h γ β := rfl
    rw [hk, kerNorm_eq_refNorm h γ β hh hγ hβ]
  -- the tiled sum is the sum over the batch, and the row losses agree row by row
  rw [hn, tileSum_eq_sum]
  refine congrArg (fun s => Ideal.div s cB) ?_
  refine Finset.sum_congr rfl (fun r _ => ?_)
  exact kerNll_eq (logits (refNorm h γ β) W2 b2)
    (logits_real (refNorm h γ β) W2 b2 (refNorm_real h γ β hh hγ hβ) hW hb) lab r

end NodeEdgeLoss

end
-- ==== Proof.lean ====
/-
  The certificate: the three frames are the generated ones; the one rewrite of the ideal pass (a round trip through the
  narrower float format removed) is the library's statement of it; and over the reals the two programs agree. Where the
  precondition holds, every float input is real and every label is 0 or 1. The kernel's result is then the loss in its own
  arrangement — the hidden layer from two half contractions, batch sums tile by tile, the variance as mean of squares
  minus squared mean, the normalisation as h · scale + shift, x - (m + log Σ exp (x - m)), a one-hot product — and the
  reference's is the loss in its arrangement — one contraction of the concatenated features, the variance as the mean of
  squared deviations, ((h - mean) · rsqrt (var + ε)) · γ + β, (x - m) - log Σ exp (x - m), the label's column picked. The two
  gathers are the same operations on the same inputs, the contraction over 256 features splits at 128, and on real data
  the two arrangements are equal.
-/
import proofs.«402825_j60026462929136_3_alg».proof.Defs
import proofs.«402825_j60026462929136_3_alg».proof.Proof.Gen.Kernel
import proofs.«402825_j60026462929136_3_alg».proof.Proof.Gen.Kernel.Skeleton
import proofs.«402825_j60026462929136_3_alg».proof.Proof.KernelLaunch
import proofs.«402825_j60026462929136_3_alg».proof.Proof.Gen.Kernel.Points
import proofs.«402825_j60026462929136_3_alg».proof.Proof.KernelFrame
import proofs.«402825_j60026462929136_3_alg».proof.Proof.Gen.KernelIdeal
import proofs.«402825_j60026462929136_3_alg».proof.Proof.Gen.KernelIdeal.Skeleton
import proofs.«402825_j60026462929136_3_alg».proof.Proof.KernelIdealLaunch
import proofs.«402825_j60026462929136_3_alg».proof.Proof.Gen.KernelIdeal.Points
import proofs.«402825_j60026462929136_3_alg».proof.Proof.KernelIdealFrame
import proofs.«402825_j60026462929136_3_alg».proof.Proof.KernelIdealRun
import proofs.«402825_j60026462929136_3_alg».proof.Proof.Gen.ReferenceIdeal
import proofs.«402825_j60026462929136_3_alg».proof.Proof.Gen.Pre_finite_inputs
import proofs.«402825_j60026462929136_3_alg».proof.Proof.ReferenceIdealRun
import proofs.«402825_j60026462929136_3_alg».proof.Proof.ReferenceIdealRead
import proofs.«402825_j60026462929136_3_alg».proof.Proof.RefValue
import proofs.«402825_j60026462929136_3_alg».proof.Proof.PreFacts
import proofs.«402825_j60026462929136_3_alg».proof.Proof.KValue
import proofs.«402825_j60026462929136_3_alg».proof.Proof.Bridge
import proofs.«402825_j60026462929136_3_alg».proof.Proof.AlgHidden
import proofs.«402825_j60026462929136_3_alg».proof.Proof.AlgMain
import proofs.«402825_j60026462929136_3_alg».proof.Proof.LibIdealFinite
import Idealize.ShloMosaic.Adequacy
import Idealize.ShloMosaic.Init

noncomputable section

namespace Cert.Proof

open Idealize.ShloMosaic Idealize.ShloMosaic.TcCoe Idealize.SL.Sem Idealize.ShloMosaic.ValueIdx NodeEdgeLoss

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass removed one round trip f32 → bf16 → f32 of the hidden block: at the ideal instance both changes of
    format are the identity. -/
theorem preserves : Cert.preserves_Kernel_KernelIdeal := IdealRules.truncf_extf.statement _ .f32 .bf16

open Cert.KernelIdeal.KValue in
/-- Both programs end, and the reference's result is the kernel's. -/
theorem algebraic : Cert.algebraic_KernelIdeal_ReferenceIdeal := by
  intro m ρ m' ρ' hpre hagree
  refine ⟨fun c => Cert.KernelIdeal.Gen.W5 m ρ c (Proc.devRef .tc Cert.KernelIdeal.main_v52),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h5, h6, h7, h8, h9, h10, lab, hlab⟩ :=
    Cert.Pre_finite_inputs.Decode.of_pre (a0 m c) (a1 m c) (a2 m c) (a3 m c) (a4 m c) (a5 m c) (a6 m c) (a7 m c) (a8 m c)
      (a9 m c) (a10 m c) (hpre c)
  obtain ⟨e0, e1, e2, e3, e4, e5, e6, e7, e8, e9, e10⟩ := hagree c
  rw [Cert.ReferenceIdeal.Read.val_main_v55_eq, e0, e1, e2, e3, e4, e5, e6, e7, e8, e9, e10]
  refine (Cert.ReferenceIdeal.RefValue.ref_value (a0 m c) (a1 m c) (a2 m c) (a3 m c) (a4 m c) (a5 m c) (a6 m c) (a7 m c)
    (a8 m c) (a9 m c) (a10 m c) lab hlab).trans ?_
  refine Eq.trans ?_ (kernel_value m ρ c lab hlab).symm
  funext _
  rw [Cert.Proof.Bridge.featN_eq, Cert.Proof.Bridge.featE_eq]
  have hX : ∀ r k, ∃ x : ℝ, fX m c r k = (x : EReal) := fun r k => IdealFinite.AllFin.gather (S := Cert.KernelIdeal.S100000x128) h0 (ix2 r k)
  have hY : ∀ r k, ∃ x : ℝ, fY m c r k = (x : EReal) := fun r k => IdealFinite.AllFin.gather (S := Cert.KernelIdeal.S50000x128) h1 (ix2 r k)
  have hh := hidCat_real (fX m c) (fY m c) (fW1 m c) (fb1 m c) hX hY (fun k j => h5 (ix2 k j)) (fun j => h6 (ix1 j))
  have hk := kerLoss_eq_refLoss (hidCat (fX m c) (fY m c) (fW1 m c) (fb1 m c)) (fγ m c) (fβ m c) (fW2 m c) (fb2 m c) lab hh
    (fun j => h7 (ix1 j)) (fun j => h8 (ix1 j)) (fun j q => h9 (ix2 j q)) (fun q => h10 (ix1 q))
  unfold fH
  rw [hid2_eq_hidCat]
  exact hk.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
